-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S1024x1 : Shape := ⟨2, ![1024, 1]⟩
abbrev S3x64x64 : Shape := ⟨3, ![3, 64, 64]⟩
abbrev S3x64 : Shape := ⟨2, ![3, 64]⟩
abbrev S86x128 : Shape := ⟨2, ![86, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S86x128 : S_.BroadcastsInDim S86x128 (![] : Fin 0 → Fin S86x128.rank)
  reducesTo_S86x128_S_d0_1 : S86x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1024x1 : S_.BroadcastsInDim S1024x1 (![] : Fin 0 → Fin S1024x1.rank)
  reducesTo_S1024x1_S_d0_1 : S1024x1.ReducesTo [0, 1] S_

variable [Facts]

def fn_part4 {F : FTy → Type} [FloatOps F] (main_arg6 : IVec S1024x1 32) (main_arg19 : FVec F S1 .f32) (main_v63 : IVec S_ 1) (main_v67 : IVec S_ 1) : IVec S_ 1 :=
  let main_v68 : IVec S_ 1 := andi main_v63 main_v67
  let main_v69 : FVec F S1 .f32 := Host.absf main_arg19
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S1024x1 32 := broadcastInDim S1024x1 ![] bcast_S_S1024x1 main_c_28
  let main_v75 : IVec S1024x1 1 := cmpi .sge main_arg6 main_v74
  let main_c_29 : IVec S_ 1 := constantI S_ 1 1#1
  let main_v76 : IVec S_ 1 := (fun x v => Host.reduce IntOp.andi x v reducesTo_S1024x1_S_d0_1 h_S_) main_v75 main_c_29
  let main_v77 : IVec S_ 1 := andi main_v73 main_v76
  let main_c_30 : IVec S_ 32 := constantI S_ 32 86#32
  let main_v78 : IVec S1024x1 32 := broadcastInDim S1024x1 ![] bcast_S_S1024x1 main_c_30
  let main_v79 : IVec S1024x1 1 := cmpi .slt main_arg6 main_v78
  let main_c_31 : IVec S_ 1 := constantI S_ 1 1#1
  let main_v80 : IVec S_ 1 := (fun x v => Host.reduce IntOp.andi x v reducesTo_S1024x1_S_d0_1 h_S_) main_v79 main_c_31
  let main_v81 : IVec S_ 1 := andi main_v77 main_v80
  main_v81

def fn_part3 {F : FTy → Type} [FloatOps F] (main_arg6 : IVec S1024x1 32) (main_arg16 : FVec F S256x64 .f32) (main_arg17 : FVec F S64 .f32) (main_arg18 : FVec F S64x1 .f32) (main_arg19 : FVec F S1 .f32) (main_v48 : IVec S_ 1) (main_v49 : FVec F S86x128 .f32) (main_v50 : FVec F S86x128 .f32) : IVec S_ 1 :=
  let main_v51 : IVec S86x128 1 := cmpf .olt main_v49 main_v50
  let main_c_19 : IVec S_ 1 := constantI S_ 1 1#1
  let main_v52 : IVec S_ 1 := (fun x v => Host.reduce IntOp.andi x v reducesTo_S86x128_S_d0_1 h_S_) main_v51 main_c_19
  let main_v53 : IVec S_ 1 := andi main_v48 main_v52
  let main_v54 : FVec F S256x64 .f32 := Host.absf main_arg16
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg17
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg18
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg6 main_arg19 main_v63 main_v67

def fn_part2 {F : FTy → Type} [FloatOps F] (main_arg6 : IVec S1024x1 32) (main_arg12 : FVec F S3x64 .f32) (main_arg13 : FVec F S3x64 .f32) (main_arg14 : FVec F S3x64 .f32) (main_arg15 : FVec F S86x128 .f32) (main_arg16 : FVec F S256x64 .f32) (main_arg17 : FVec F S64 .f32) (main_arg18 : FVec F S64x1 .f32) (main_arg19 : FVec F S1 .f32) (main_v33 : IVec S_ 1) : IVec S_ 1 :=
  let main_v34 : FVec F S3x64 .f32 := Host.absf main_arg12
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg13
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg14
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S86x128 .f32 := Host.absf main_arg15
  let main_cst_18 : FVec F S_ .f32 := constant S_ .f32 0x7F800000#32
  let main_v50 : FVec F S86x128 .f32 := broadcastInDim S86x128 ![] bcast_S_S86x128 main_cst_18
  fn_part3 (F := F) main_arg6 main_arg16 main_arg17 main_arg18 main_arg19 main_v48 main_v49 main_v50

def fn_part1 {F : FTy → Type} [FloatOps F] (main_arg6 : IVec S1024x1 32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S86x128 .f32) (main_arg16 : FVec F S256x64 .f32) (main_arg17 : FVec F S64 .f32) (main_arg18 : FVec F S64x1 .f32) (main_arg19 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg9
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg10
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg11
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg6 main_arg12 main_arg13 main_arg14 main_arg15 main_arg16 main_arg17 main_arg18 main_arg19 main_v33

def fn {F : FTy → Type} [FloatOps F] (main_arg0 : FVec F S50000x64 .f32) (main_arg1 : IVec S2x800000 32) (main_arg2 : IVec S50000 32) (main_arg3 : FVec F S50000x64 .f32) (main_arg4 : IVec S2x800000 32) (main_arg5 : IVec S50000 32) (main_arg6 : IVec S1024x1 32) (main_arg7 : FVec F S3x64x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S86x128 .f32) (main_arg16 : FVec F S256x64 .f32) (main_arg17 : FVec F S64 .f32) (main_arg18 : FVec F S64x1 .f32) (main_arg19 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg7
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg8
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S1024x1 : Shape := ⟨2, ![1024, 1]⟩
abbrev S3x64x64 : Shape := ⟨3, ![3, 64, 64]⟩
abbrev S3x64 : Shape := ⟨2, ![3, 64]⟩
abbrev S86x128 : Shape := ⟨2, ![86, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x50000x64 : Shape := ⟨3, ![1, 50000, 64]⟩
abbrev S2x50000x64 : Shape := ⟨3, ![2, 50000, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S1x5000x64 : Shape := ⟨3, ![1, 5000, 64]⟩
abbrev S5000x64 : Shape := ⟨2, ![5000, 64]⟩
abbrev S1024x64 : Shape := ⟨2, ![1024, 64]⟩
abbrev S50000x1 : Shape := ⟨2, ![50000, 1]⟩
abbrev S1024 : Shape := ⟨1, ![1024]⟩
abbrev S1024x86 : Shape := ⟨2, ![1024, 86]⟩
abbrev S1024x128 : Shape := ⟨2, ![1024, 128]⟩
abbrev S1024x256 : Shape := ⟨2, ![1024, 256]⟩
abbrev S1x1 : Shape := ⟨2, ![1, 1]⟩

abbrev nBuf : Space → Nat
  | .hbm => 194
  | .vmem => 51
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S50000x64, .f32⟩
  | 4 => ⟨S2x800000, .i32⟩
  | 5 => ⟨S50000, .i32⟩
  | 6 => ⟨S1024x1, .i32⟩
  | 7 => ⟨S3x64x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S86x128, .f32⟩
  | 16 => ⟨S256x64, .f32⟩
  | 17 => ⟨S64, .f32⟩
  | 18 => ⟨S64x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S1x800000, .i32⟩
  | 27 => ⟨S800000, .i32⟩
  | 28 => ⟨S1x50000x64, .f32⟩
  | 29 => ⟨S1x50000x64, .f32⟩
  | 30 => ⟨S2x50000x64, .f32⟩
  | 31 => ⟨S1x50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S1x50000x64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S1x50000x64, .f32⟩
  | 62 => ⟨S1x50000x64, .f32⟩
  | 63 => ⟨S2x50000x64, .f32⟩
  | 64 => ⟨S1x64x64, .f32⟩
  | 65 => ⟨S64x64, .f32⟩
  | 66 => ⟨S1x64, .f32⟩
  | 67 => ⟨S64, .f32⟩
  | 68 => ⟨S1x64x64, .f32⟩
  | 69 => ⟨S64x64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S64, .f32⟩
  | 80 => ⟨S2x50000x64, .f32⟩
  | 81 => ⟨S1x50000x64, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S1x50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S1x50000x64, .f32⟩
  | 112 => ⟨S1x50000x64, .f32⟩
  | 113 => ⟨S2x50000x64, .f32⟩
  | 114 => ⟨S1x64x64, .f32⟩
  | 115 => ⟨S64x64, .f32⟩
  | 116 => ⟨S1x64, .f32⟩
  | 117 => ⟨S64, .f32⟩
  | 118 => ⟨S1x64x64, .f32⟩
  | 119 => ⟨S64x64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S64, .f32⟩
  | _ => ⟨S50000x64, .f32⟩

abbrev hbmTy0_1 (i : Nat) : BufTy := match i % 128 with
  | 0 => ⟨S1x64, .f32⟩
  | 1 => ⟨S64, .f32⟩
  | 2 => ⟨S2x50000x64, .f32⟩
  | 3 => ⟨S1x50000x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S1x50000x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S1x50000x64, .f32⟩
  | 34 => ⟨S1x50000x64, .f32⟩
  | 35 => ⟨S2x50000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S2x50000x64, .f32⟩
  | 53 => ⟨S1x50000x64, .f32⟩
  | 54 => ⟨S50000x64, .f32⟩
  | 55 => ⟨S1x50000x64, .f32⟩
  | 56 => ⟨S50000x64, .f32⟩
  | 57 => ⟨S_, .f32⟩
  | 58 => ⟨S1024x64, .f32⟩
  | 59 => ⟨S50000x1, .i32⟩
  | 60 => ⟨S1024x64, .f32⟩
  | 61 => ⟨S_, .f32⟩
  | 62 => ⟨S1024x64, .f32⟩
  | 63 => ⟨S50000x1, .i32⟩
  | 64 => ⟨S1024x64, .f32⟩
  | 65 => ⟨S1024, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S1x5000x64, .f32⟩
  | .local _ .vmem, ⟨1, _⟩ => ⟨S1x5000x64, .f32⟩
  | .local _ .vmem, ⟨2, _⟩ => ⟨S1x5000x64, .f32⟩
  | .local _ .vmem, ⟨3, _⟩ => ⟨S1x5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S1x5000x64, .f32⟩
  | .local _ .vmem, ⟨13, _⟩ => ⟨S1x5000x64, .f32⟩
  | .local _ .vmem, ⟨14, _⟩ => ⟨S1x5000x64, .f32⟩
  | .local _ .vmem, ⟨15, _⟩ => ⟨S1x5000x64, .f32⟩
  | .local _ .vmem, ⟨16, _⟩ => ⟨S1x5000x64, .f32⟩
  | .local _ .vmem, ⟨17, _⟩ => ⟨S1x5000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S1x5000x64, .f32⟩
  | .local _ .vmem, ⟨27, _⟩ => ⟨S1x5000x64, .f32⟩
  | .local _ .vmem, ⟨28, _⟩ => ⟨S1x5000x64, .f32⟩
  | .local _ .vmem, ⟨29, _⟩ => ⟨S1x5000x64, .f32⟩
  | .local _ .vmem, ⟨30, _⟩ => ⟨S1x5000x64, .f32⟩
  | .local _ .vmem, ⟨31, _⟩ => ⟨S1x5000x64, .f32⟩
  | .local _ .vmem, ⟨32, _⟩ => ⟨S64x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S1x5000x64, .f32⟩
  | .local _ .vmem, ⟨41, _⟩ => ⟨S1x5000x64, .f32⟩
  | .local _ .vmem, ⟨42, _⟩ => ⟨S1024x64, .f32⟩
  | .local _ .vmem, ⟨43, _⟩ => ⟨S1024x64, .f32⟩
  | .local _ .vmem, ⟨44, _⟩ => ⟨S1024x1, .i32⟩
  | .local _ .vmem, ⟨45, _⟩ => ⟨S86x128, .f32⟩
  | .local _ .vmem, ⟨46, _⟩ => ⟨S256x64, .f32⟩
  | .local _ .vmem, ⟨47, _⟩ => ⟨S64, .f32⟩
  | .local _ .vmem, ⟨48, _⟩ => ⟨S64x1, .f32⟩
  | .local _ .vmem, ⟨49, _⟩ => ⟨S1, .f32⟩
  | .local _ .vmem, ⟨50, _⟩ => ⟨S1024, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_4 : Ref sig .tc := ⟨.hbm, 83, rfl⟩
abbrev main_v57 : Ref sig .tc := ⟨.hbm, 84, rfl⟩
abbrev main_v58 : Ref sig .tc := ⟨.hbm, 85, rfl⟩
abbrev main_c_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_6 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_7 : Ref sig .tc := ⟨.hbm, 98, rfl⟩
abbrev main_v69 : Ref sig .tc := ⟨.hbm, 99, rfl⟩
abbrev main_v70 : Ref sig .tc := ⟨.hbm, 100, rfl⟩
abbrev main_c_8 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_10 : Ref sig .tc := ⟨.hbm, 133, rfl⟩
abbrev main_v101 : Ref sig .tc := ⟨.hbm, 134, rfl⟩
abbrev main_v102 : Ref sig .tc := ⟨.hbm, 135, rfl⟩
abbrev main_c_11 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_12 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_13 : Ref sig .tc := ⟨.hbm, 148, rfl⟩
abbrev main_v113 : Ref sig .tc := ⟨.hbm, 149, rfl⟩
abbrev main_v114 : Ref sig .tc := ⟨.hbm, 150, rfl⟩
abbrev main_c_14 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_15 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_16 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_17 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![2, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S86x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  slices_S2x50000x64_S1x50000x64_0_0_0 : S2x50000x64.Slices ![0, 0, 0] S1x50000x64
  shapeCasts_S1x50000x64_S50000x64 : S1x50000x64.ShapeCasts S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S2x50000x64_S1x50000x64_1_0_0 : S2x50000x64.Slices ![1, 0, 0] S1x50000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  shapeCasts_S5000x64_S1x5000x64 : S5000x64.ShapeCasts S1x5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S50000_S50000x1_0 : S50000.BroadcastsInDim S50000x1 (![0] : Fin 1 → Fin S50000x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  iota_S1024x86_d1_w32 : S1024x86.Iotas .tc 32 [1]
  broadcasts_S1024x1_S1024x86 : S1024x1.Broadcasts S1024x86
  natLt_1_32 : 1 < 32
  inb_S86x128_S86x128_0_0 : ∀ a, (![0, 0] : Fin 2 → Nat) a + S86x128.size a ≤ S86x128.size a
  h_S86x128 : 0 < S86x128.numel
  concatenates_S1024x64_S1024x64_S1024x128_S1024x256_d1 : Shape.Concatenates [S1024x64, S1024x64, S1024x128] S1024x256 1
  inb_S256x64_S256x64_0_0 : ∀ a, (![0, 0] : Fin 2 → Nat) a + S256x64.size a ≤ S256x64.size a
  h_S256x64 : 0 < S256x64.numel
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S1024x64_S50000x1_S50000x64_1_0_0_1_wf : ScatterDims.WF S1024x64 S50000x1 S50000x64 [1] [0] [0] 1
  dot_S1024x86_S86x128_S1024x128_1_0_0_1_n_n_wf : DotDims.WF S1024x86 S86x128 S1024x128 [1] [0] [0] [1] [] []
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S2x50000x64.size a
  hwx0_0 : ∀ i : grid0.Coords, EltTy.bits .f32 = 32 ∨ (Rect.block (s := S2x50000x64) S1x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x64.size a ≤ S2x50000x64.size a
  hwx0_1 : ∀ i : grid0.Coords, EltTy.bits .f32 = 32 ∨ (Rect.block (s := S2x50000x64) S1x5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x5000x64.size a ≤ S2x50000x64.size a
  hwx0_10 : ∀ i : grid0.Coords, EltTy.bits .f32 = 32 ∨ (Rect.block (s := S2x50000x64) S1x5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x64.size a ≤ S2x50000x64.size a
  hwx1_0 : ∀ i : grid1.Coords, EltTy.bits .f32 = 32 ∨ (Rect.block (s := S2x50000x64) S1x5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x64.size a ≤ S2x50000x64.size a
  hwx1_1 : ∀ i : grid1.Coords, EltTy.bits .f32 = 32 ∨ (Rect.block (s := S2x50000x64) S1x5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x5000x64.size a ≤ S2x50000x64.size a
  hwx1_10 : ∀ i : grid1.Coords, EltTy.bits .f32 = 32 ∨ (Rect.block (s := S2x50000x64) S1x5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5000x64.size a ≤ S2x50000x64.size a
  hwx2_0 : ∀ i : grid2.Coords, EltTy.bits .f32 = 32 ∨ (Rect.block (s := S2x50000x64) S1x5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x5000x64.size a ≤ S2x50000x64.size a
  hwx2_1 : ∀ i : grid2.Coords, EltTy.bits .f32 = 32 ∨ (Rect.block (s := S2x50000x64) S1x5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x5000x64.size a ≤ S2x50000x64.size a
  hwx2_10 : ∀ i : grid2.Coords, EltTy.bits .f32 = 32 ∨ (Rect.block (s := S2x50000x64) S1x5000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S1024x64.size a
  hwx3_1 : ∀ i : grid3.Coords, EltTy.bits .f32 = 32 ∨ (Rect.block (s := S1024x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S1024x1.size a
  hwx3_2 : ∀ i : grid3.Coords, EltTy.bits .i32 = 32 ∨ (Rect.block (s := S1024x1) S1024x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S86x128.size a ≤ S86x128.size a
  hwx3_3 : ∀ i : grid3.Coords, EltTy.bits .f32 = 32 ∨ (Rect.block (s := S86x128) S86x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .f32 = 32 ∨ (Rect.block (s := S256x64) S256x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1.size a ≤ S1.size a
  hwx3_7 : ∀ i : grid3.Coords, EltTy.bits .f32 = 32 ∨ (Rect.block (s := S1) S1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024.size a ≤ S1024.size a
  hwx3_8 : ∀ i : grid3.Coords, EltTy.bits .f32 = 32 ∨ (Rect.block (s := S1024) S1024.size (cc3_transform_8 i) (hinb3_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S50000x1_S50000x64_1_0_0_1 : ScatterDims S1024x64 S50000x1 S50000x64 where
  updateWindowDims := [1]
  insertedWindowDims := [0]
  scatterDimsToOperandDims := [0]
  indexVectorDim := 1
  wf := scatter_S1024x64_S50000x1_S50000x64_1_0_0_1_wf
def dot_S1024x86_S86x128_S1024x128_1_0_0_1_n_n : DotDims S1024x86 S86x128 S1024x128 where
  lhsContracting := [1]
  rhsContracting := [0]
  lhsNonContracting := [0]
  rhsNonContracting := [1]
  lhsBatch := []
  rhsBatch := []
  wf := dot_S1024x86_S86x128_S1024x128_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v10) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v54) S1x5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v54) S1x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S1x5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v91) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v93) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v95) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v97) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v98) S1x5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v98) S1x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v125) S1x5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v127) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v129) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v131) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v133) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v135) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v137) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v139) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v141) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v142) S1x5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v149) S1024x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v152) S1024x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1024x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S86x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S64x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg19) S1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v153) S1024.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S1024x1 : Shape := ⟨2, ![1024, 1]⟩
abbrev S3x64x64 : Shape := ⟨3, ![3, 64, 64]⟩
abbrev S3x64 : Shape := ⟨2, ![3, 64]⟩
abbrev S86x128 : Shape := ⟨2, ![86, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S1024x64 : Shape := ⟨2, ![1024, 64]⟩
abbrev S50000x1 : Shape := ⟨2, ![50000, 1]⟩
abbrev S1024 : Shape := ⟨1, ![1024]⟩
abbrev S1024x128 : Shape := ⟨2, ![1024, 128]⟩
abbrev S1024x256 : Shape := ⟨2, ![1024, 256]⟩
abbrev S1x1 : Shape := ⟨2, ![1, 1]⟩

abbrev nBuf : Space → Nat
  | .hbm => 419
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S50000x64, .f32⟩
  | 4 => ⟨S2x800000, .i32⟩
  | 5 => ⟨S50000, .i32⟩
  | 6 => ⟨S1024x1, .i32⟩
  | 7 => ⟨S3x64x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S86x128, .f32⟩
  | 16 => ⟨S256x64, .f32⟩
  | 17 => ⟨S64, .f32⟩
  | 18 => ⟨S64x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S50000x64, .f32⟩
  | 38 => ⟨S1x64x64, .f32⟩
  | 39 => ⟨S64x64, .f32⟩
  | 40 => ⟨S50000x64, .f32⟩
  | 41 => ⟨S1x64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S1x64x64, .f32⟩
  | 50 => ⟨S64x64, .f32⟩
  | 51 => ⟨S50000x64, .f32⟩
  | 52 => ⟨S1x64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S1x64, .f32⟩
  | 63 => ⟨S64, .f32⟩
  | 64 => ⟨S_, .f32⟩
  | 65 => ⟨S64, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S1x64, .f32⟩
  | 72 => ⟨S64, .f32⟩
  | 73 => ⟨S1x64, .f32⟩
  | 74 => ⟨S50000x64, .f32⟩
  | 75 => ⟨S50000x64, .f32⟩
  | 76 => ⟨S1x64, .f32⟩
  | 77 => ⟨S64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S50000x64, .f32⟩
  | 98 => ⟨S1x64x64, .f32⟩
  | 99 => ⟨S64x64, .f32⟩
  | 100 => ⟨S50000x64, .f32⟩
  | 101 => ⟨S1x64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S1x64x64, .f32⟩
  | 110 => ⟨S64x64, .f32⟩
  | 111 => ⟨S50000x64, .f32⟩
  | 112 => ⟨S1x64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S64, .f32⟩
  | 124 => ⟨S_, .f32⟩
  | 125 => ⟨S64, .f32⟩
  | 126 => ⟨S64, .f32⟩
  | 127 => ⟨S64, .f32⟩
  | _ => ⟨S50000x64, .f32⟩

abbrev hbmTy0_1 (i : Nat) : BufTy := match i % 128 with
  | 0 => ⟨S1x64, .f32⟩
  | 1 => ⟨S50000x64, .f32⟩
  | 2 => ⟨S50000x64, .f32⟩
  | 3 => ⟨S1x64, .f32⟩
  | 4 => ⟨S64, .f32⟩
  | 5 => ⟨S1x64, .f32⟩
  | 6 => ⟨S50000x64, .f32⟩
  | 7 => ⟨S50000x64, .f32⟩
  | 8 => ⟨S1x64, .f32⟩
  | 9 => ⟨S64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S1x64x64, .f32⟩
  | 31 => ⟨S64x64, .f32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x64x64, .f32⟩
  | 42 => ⟨S64x64, .f32⟩
  | 43 => ⟨S50000x64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S64, .f32⟩
  | 56 => ⟨S_, .f32⟩
  | 57 => ⟨S64, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .f32⟩
  | 77 => ⟨S1024x64, .f32⟩
  | 78 => ⟨S50000x1, .i32⟩
  | 79 => ⟨S1024x64, .f32⟩
  | 80 => ⟨S1x800000, .i32⟩
  | 81 => ⟨S800000, .i32⟩
  | 82 => ⟨S1x800000, .i32⟩
  | 83 => ⟨S800000, .i32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S50000x64, .f32⟩
  | 98 => ⟨S1x64x64, .f32⟩
  | 99 => ⟨S64x64, .f32⟩
  | 100 => ⟨S50000x64, .f32⟩
  | 101 => ⟨S1x64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S1x64x64, .f32⟩
  | 110 => ⟨S64x64, .f32⟩
  | 111 => ⟨S50000x64, .f32⟩
  | 112 => ⟨S1x64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S64, .f32⟩
  | 124 => ⟨S_, .f32⟩
  | 125 => ⟨S64, .f32⟩
  | 126 => ⟨S64, .f32⟩
  | 127 => ⟨S64, .f32⟩
  | _ => ⟨S50000x64, .f32⟩

abbrev hbmTy0_2 (i : Nat) : BufTy := match i % 128 with
  | 0 => ⟨S1x64, .f32⟩
  | 1 => ⟨S50000x64, .f32⟩
  | 2 => ⟨S50000x64, .f32⟩
  | 3 => ⟨S1x64, .f32⟩
  | 4 => ⟨S64, .f32⟩
  | 5 => ⟨S1x64, .f32⟩
  | 6 => ⟨S50000x64, .f32⟩
  | 7 => ⟨S50000x64, .f32⟩
  | 8 => ⟨S1x64, .f32⟩
  | 9 => ⟨S64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S1x64x64, .f32⟩
  | 31 => ⟨S64x64, .f32⟩
  | 32 => ⟨S50000x64, .f32⟩
  | 33 => ⟨S1x64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x64x64, .f32⟩
  | 42 => ⟨S64x64, .f32⟩
  | 43 => ⟨S50000x64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S64, .f32⟩
  | 56 => ⟨S_, .f32⟩
  | 57 => ⟨S64, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S1x64x64, .f32⟩
  | 91 => ⟨S64x64, .f32⟩
  | 92 => ⟨S50000x64, .f32⟩
  | 93 => ⟨S1x64, .f32⟩
  | 94 => ⟨S64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S1x64x64, .f32⟩
  | 102 => ⟨S64x64, .f32⟩
  | 103 => ⟨S50000x64, .f32⟩
  | 104 => ⟨S1x64, .f32⟩
  | 105 => ⟨S64, .f32⟩
  | 106 => ⟨S1x64, .f32⟩
  | 107 => ⟨S50000x64, .f32⟩
  | 108 => ⟨S50000x64, .f32⟩
  | 109 => ⟨S1x64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S64, .f32⟩
  | 116 => ⟨S_, .f32⟩
  | 117 => ⟨S64, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S50000x64, .f32⟩
  | 127 => ⟨S50000x64, .f32⟩
  | _ => ⟨S50000x64, .f32⟩

abbrev hbmTy0_3 (i : Nat) : BufTy := match i % 128 with
  | 0 => ⟨S1x64, .f32⟩
  | 1 => ⟨S64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S_, .f32⟩
  | 9 => ⟨S1024x64, .f32⟩
  | 10 => ⟨S50000x1, .i32⟩
  | 11 => ⟨S1024x64, .f32⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S1024x1, .i32⟩
  | 21 => ⟨S1024x128, .f32⟩
  | 22 => ⟨S1024x256, .f32⟩
  | 23 => ⟨S1024x64, .f32⟩
  | 24 => ⟨S1x64, .f32⟩
  | 25 => ⟨S1024x64, .f32⟩
  | 26 => ⟨S1024x64, .f32⟩
  | 27 => ⟨S_, .f32⟩
  | 28 => ⟨S1024x64, .f32⟩
  | 29 => ⟨S1024x64, .f32⟩
  | 30 => ⟨S1024x1, .f32⟩
  | 31 => ⟨S1x1, .f32⟩
  | 32 => ⟨S1024x1, .f32⟩
  | 33 => ⟨S1024x1, .f32⟩
  | 34 => ⟨S1024, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_2 : Ref sig .tc := ⟨.hbm, 84, rfl⟩
abbrev main_v56 : Ref sig .tc := ⟨.hbm, 85, rfl⟩
abbrev main_v57 : Ref sig .tc := ⟨.hbm, 86, rfl⟩
abbrev main_c_3 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_4 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call2_cst : Ref sig .tc := ⟨.hbm, 106, rfl⟩
abbrev main_call2_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_5 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_call3_cst : Ref sig .tc := ⟨.hbm, 141, rfl⟩
abbrev main_call3_v0 : Ref sig .tc := ⟨.hbm, 142, rfl⟩
abbrev main_v107 : Ref sig .tc := ⟨.hbm, 143, rfl⟩
abbrev main_c_6 : Ref sig .tc := ⟨.hbm, 144, rfl⟩
abbrev main_v108 : Ref sig .tc := ⟨.hbm, 145, rfl⟩
abbrev main_v109 : Ref sig .tc := ⟨.hbm, 146, rfl⟩
abbrev main_c_7 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_8 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call4_cst : Ref sig .tc := ⟨.hbm, 166, rfl⟩
abbrev main_call4_v0 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_9 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_call5_cst : Ref sig .tc := ⟨.hbm, 201, rfl⟩
abbrev main_call5_v0 : Ref sig .tc := ⟨.hbm, 202, rfl⟩
abbrev main_v159 : Ref sig .tc := ⟨.hbm, 203, rfl⟩
abbrev main_cst_10 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_11 : Ref sig .tc := ⟨.hbm, 212, rfl⟩
abbrev main_v167 : Ref sig .tc := ⟨.hbm, 213, rfl⟩
abbrev main_v168 : Ref sig .tc := ⟨.hbm, 214, rfl⟩
abbrev main_c_12 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_13 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_call6_cst : Ref sig .tc := ⟨.hbm, 234, rfl⟩
abbrev main_call6_v0 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_14 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_call7_cst : Ref sig .tc := ⟨.hbm, 269, rfl⟩
abbrev main_call7_v0 : Ref sig .tc := ⟨.hbm, 270, rfl⟩
abbrev main_v218 : Ref sig .tc := ⟨.hbm, 271, rfl⟩
abbrev main_c_15 : Ref sig .tc := ⟨.hbm, 272, rfl⟩
abbrev main_v219 : Ref sig .tc := ⟨.hbm, 273, rfl⟩
abbrev main_v220 : Ref sig .tc := ⟨.hbm, 274, rfl⟩
abbrev main_c_16 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_cst_17 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_call8_cst : Ref sig .tc := ⟨.hbm, 294, rfl⟩
abbrev main_call8_v0 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_cst_18 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_call9_cst : Ref sig .tc := ⟨.hbm, 329, rfl⟩
abbrev main_call9_v0 : Ref sig .tc := ⟨.hbm, 330, rfl⟩
abbrev main_v270 : Ref sig .tc := ⟨.hbm, 331, rfl⟩
abbrev main_c_19 : Ref sig .tc := ⟨.hbm, 332, rfl⟩
abbrev main_v271 : Ref sig .tc := ⟨.hbm, 333, rfl⟩
abbrev main_v272 : Ref sig .tc := ⟨.hbm, 334, rfl⟩
abbrev main_c_20 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_cst_21 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_call10_cst : Ref sig .tc := ⟨.hbm, 354, rfl⟩
abbrev main_call10_v0 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_cst_22 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_call11_cst : Ref sig .tc := ⟨.hbm, 389, rfl⟩
abbrev main_call11_v0 : Ref sig .tc := ⟨.hbm, 390, rfl⟩
abbrev main_v322 : Ref sig .tc := ⟨.hbm, 391, rfl⟩
abbrev main_cst_23 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_c_24 : Ref sig .tc := ⟨.hbm, 397, rfl⟩
abbrev main_v327 : Ref sig .tc := ⟨.hbm, 398, rfl⟩
abbrev main_v328 : Ref sig .tc := ⟨.hbm, 399, rfl⟩
abbrev main_c_25 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_call12_cst : Ref sig .tc := ⟨.hbm, 411, rfl⟩
abbrev main_call12_v0 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S50000_S50000x1_0 : S50000.BroadcastsInDim S50000x1 (![0] : Fin 1 → Fin S50000x1.rank)
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x64_S1024x64_S1024x128_S1024x256_d1 : Shape.Concatenates [S1024x64, S1024x64, S1024x128] S1024x256 1
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S1024x64_S50000x1_S50000x64_1_0_0_1_wf : ScatterDims.WF S1024x64 S50000x1 S50000x64 [1] [0] [0] 1
  gather_S86x128_S1024x1_S1024x128_1_0_n_n_0_1_1128_wf : GatherDims.WF S86x128 S1024x1 S1024x128 [1] [0] [] [0] [] 1 ![1, 128]
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S1024x64_S50000x1_S50000x64_1_0_0_1 : ScatterDims S1024x64 S50000x1 S50000x64 where
  updateWindowDims := [1]
  insertedWindowDims := [0]
  scatterDimsToOperandDims := [0]
  indexVectorDim := 1
  wf := scatter_S1024x64_S50000x1_S50000x64_1_0_0_1_wf
def gather_S86x128_S1024x1_S1024x128_1_0_n_n_0_1_1128 : GatherDims S86x128 S1024x1 S1024x128 where
  offsetDims := [1]
  collapsedSliceDims := [0]
  operandBatchingDims := []
  startIndicesBatchingDims := []
  startIndexMap := [0]
  indexVectorDim := 1
  sliceSizes := ![1, 128]
  wf := gather_S86x128_S1024x1_S1024x128_1_0_n_n_0_1_1128_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.Spec.lean ====
/-
  The graph network's value on the extended reals, row by row.

  A node's features pass through a layer by themselves: the row `h = x + agg` (the node's own features plus the sum over
  its in-neighbours) goes through two dense maps with a positive part between them, then the affine normalisation
  `(· - mean) * rsqrt (var + eps) * gamma + beta`, then a positive part again. A pair of graphs is scored by one row too:
  the two pooled graph rows and the relation's embedding row, laid end to end, through a dense map, a positive part and
  a dense map onto one number. Nothing here depends on how a program tiles or stacks the rows: both programs are
  shown to compute these functions of their argument arrays.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- Arrays of extended reals over literal shapes. -/
abbrev Arr1 (n : ℕ) := (⟨1, ![n]⟩ : Shape).Idx → EReal
abbrev Arr2 (a b : ℕ) := (⟨2, ![a, b]⟩ : Shape).Idx → EReal
abbrev Arr3 (a b c : ℕ) := (⟨3, ![a, b, c]⟩ : Shape).Idx → EReal

/-- The zero word, which both positive parts compare against. -/
def zeroR : EReal := Ideal.ofBits .f32 0x00000000#32

/-- The normalisation's epsilon: the same binary word in both programs, never evaluated. -/
def epsR : EReal := Ideal.ofBits .f32 0x3727C5AC#32

/-- A row against the columns of a matrix, plus a bias row. -/
def dense {K N : ℕ} (x : Fin K → EReal) (W : Arr2 K N) (b : Fin N → EReal) : Fin N → EReal :=
  fun j => (∑ k : Fin K, x k * W (ix2 k j)) + b j

/-- One row through a layer: dense, positive part, dense, normalisation, positive part. -/
def ginRow (h : Fin 64 → EReal) (W1 : Arr2 64 64) (b1 : Fin 64 → EReal) (W2 : Arr2 64 64)
    (b2 mean var gamma beta : Fin 64 → EReal) : Fin 64 → EReal :=
  fun j => max ((dense (fun k => max (dense h W1 b1 k) zeroR) W2 b2 j - mean j) * Ideal.rsqrt (var j + epsR) * gamma j
    + beta j) zeroR

/-- A layer on one graph's node features `x` with neighbour sums `agg`: every row by itself. -/
def layer2 (x agg : Arr2 50000 64) (W1 : Arr2 64 64) (b1 : Arr1 64) (W2 : Arr2 64 64) (b2 mean var gamma beta : Arr1 64) :
    Arr2 50000 64 :=
  fun i => ginRow (fun k => x (ix2 (i 0) k) + agg (ix2 (i 0) k)) W1 (fun j => b1 (ix1 j)) W2 (fun j => b2 (ix1 j))
    (fun j => mean (ix1 j)) (fun j => var (ix1 j)) (fun j => gamma (ix1 j)) (fun j => beta (ix1 j)) (i 1)

/-- Member `g` of a stack of two graphs' arrays. -/
def member (X : Arr3 2 50000 64) (g : Fin 2) : Arr2 50000 64 := fun q => X (ix3 g (q 0) (q 1))

/-- The same layer on the two graphs stacked along a leading axis: member by member. -/
def layer3 (X AGG : Arr3 2 50000 64) (W1 : Arr2 64 64) (b1 : Arr1 64) (W2 : Arr2 64 64) (b2 mean var gamma beta : Arr1 64) :
    Arr3 2 50000 64 :=
  fun i => layer2 (member X (i 0)) (member AGG (i 0)) W1 b1 W2 b2 mean var gamma beta (ix2 (i 1) (i 2))

theorem member_layer3 (X AGG : Arr3 2 50000 64) (W1 : Arr2 64 64) (b1 : Arr1 64) (W2 : Arr2 64 64)
    (b2 mean var gamma beta : Arr1 64) (g : Fin 2) :
    member (layer3 X AGG W1 b1 W2 b2 mean var gamma beta) g
      = layer2 (member X g) (member AGG g) W1 b1 W2 b2 mean var gamma beta := by
  funext q
  obtain ⟨n, d, rfl⟩ : ∃ (n : Fin 50000) (d : Fin 64), q = ix2 n d := ⟨q 0, q 1, eq_ix2 q⟩
  rfl

/-- Layer `l`'s matrix out of the three layers' matrices, and its row out of the three layers' rows. -/
def sliceW (W : Arr3 3 64 64) (l : Fin 3) : Arr2 64 64 := fun q => W (ix3 l (q 0) (q 1))
def sliceB (b : Arr2 3 64) (l : Fin 3) : Arr1 64 := fun q => b (ix2 l (q 0))

/-- Two graph rows and a relation row laid end to end. -/
def catRow (a b : Fin 64 → EReal) (r : Fin 128 → EReal) : Fin 256 → EReal :=
  fun k => if h : k.val < 64 then a ⟨k.val, h⟩
    else if h2 : k.val < 128 then b ⟨k.val - 64, by omega⟩
    else r ⟨k.val - 128, by have := k.isLt; omega⟩

/-- The score of one pair: dense, positive part, dense onto one number. -/
def headRow (z : Fin 256 → EReal) (Wf1 : Arr2 256 64) (bf1 : Arr1 64) (Wf2 : Arr2 64 1) (bf2 : Arr1 1) : EReal :=
  dense (fun j => max (dense z Wf1 (fun j => bf1 (ix1 j)) j) zeroR) Wf2 (fun j => bf2 (ix1 j)) 0

/-- Every pair's score from the pooled graph rows `g1`, `g2` and the relation rows `r`. -/
def head (g1 g2 : Arr2 1024 64) (r : Arr2 1024 128) (Wf1 : Arr2 256 64) (bf1 : Arr1 64) (Wf2 : Arr2 64 1) (bf2 : Arr1 1) :
    Arr1 1024 :=
  fun i => headRow (catRow (fun k => g1 (ix2 (i 0) k)) (fun k => g2 (ix2 (i 0) k)) (fun k => r (ix2 (i 0) k))) Wf1 bf1 Wf2 bf2

/-- The relation labels are indices into the table's 86 rows. -/
def InRange (rel : (⟨2, ![1024, 1]⟩ : Shape).Idx → BitVec 32) : Prop :=
  ∀ g : Fin 1024, 0 ≤ (rel (ix2 g 0)).toInt ∧ (rel (ix2 g 0)).toInt < 86

/-- Row `rel g` of the table for every pair `g`, the label read signed and kept inside the table. -/
def relEmbed (kge : Arr2 86 128) (rel : (⟨2, ![1024, 1]⟩ : Shape).Idx → BitVec 32) : Arr2 1024 128 :=
  fun i => kge (ix2 ⟨min (rel (ix2 (i 0) 0)).toInt.toNat 85, by omega⟩ (i 1))

/-- The same rows spelt as a product: the indicator row of the label against the table's rows. -/
def oneHotEmbed (kge : Arr2 86 128) (rel : (⟨2, ![1024, 1]⟩ : Shape).Idx → BitVec 32) : Arr2 1024 128 :=
  fun i => ∑ q : Fin 86, (if BitVec.ofNat 32 q.val = rel (ix2 (i 0) 0) then (1 : EReal) else 0) * kge (ix2 q (i 1))

end Cert.Gin

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.GinBody.lean ====
/-
  The layer's body on one block of 5000 node rows, read at an entry.

  The body adds the block of node features to the block of neighbour sums, multiplies the rows into the first matrix
  and adds the first bias row, takes the positive part, multiplies into the second matrix and adds the second bias
  row, then normalises column by column, `(· - mean) * rsqrt (var + eps) * gamma + beta`, and takes the positive part
  again. Every step acts on each row by itself, so the entry `(n, d)` of what the body leaves is entry `d` of the
  row function `ginRow` of row `n` of `x + agg`. The narrowings between the steps are the identity on the extended
  reals, each matrix product into the zero accumulator is the sum of the products along the contracted axis, and a
  vector laid as a one-row array and broadcast down the rows reads the vector's entry at the column. The three regions
  run the same body.
-/
import proofs.«400857_j64622077935659_1_alg».proof.Proof.Gen.KernelIdeal.Frame
import proofs.«400857_j64622077935659_1_alg».proof.Proof.Spec
import proofs.«400857_j64622077935659_1_alg».proof.Proof.LibPlainMatmul
import Idealize.ShloMosaic.Lib.Pipeline.Value
import Idealize.ShloMosaic.Lib.ValueLayout
import Idealize.ShloMosaic.PureOps.Ideal.Laws

noncomputable section

namespace Cert.Gin.Body

open Idealize.ShloMosaic Idealize.ShloMosaic.ValueIdx Cert.KernelIdeal Cert.KernelIdeal.Gen Cert.Gin

/-- The offsets of the three whole-buffer rectangles are zero. -/
theorem off3_zero : (![0, 0, 0] : Fin 3 → Nat) = fun _ => 0 := funext fun a => by fin_cases a <;> rfl
theorem off2_zero : (![0, 0] : Fin 2 → Nat) = fun _ => 0 := funext fun a => by fin_cases a <;> rfl
theorem off1_zero : (![0] : Fin 1 → Nat) = fun _ => 0 := funext fun a => by fin_cases a <;> rfl

/-- The body's contraction is the plain one: axis 1 of the block against axis 0 of the matrix. -/
theorem dot_plain : dot_S5000x64_S64x64_S5000x64_1_0_0_1_n_n = DotDims.plain 5000 64 64 := rfl

/-- The body's one store covers the whole buffer and its loads are whole, so the buffer ends at the payload of the blocks. -/
theorem out0_10_eq (x0 x1 : Vec Ideal S1x5000x64 .f32) (x2 : Vec Ideal S64x64 .f32) (x3 : Vec Ideal S64 .f32)
    (x4 : Vec Ideal S64x64 .f32) (x5 x6 x7 x8 x9 : Vec Ideal S64 .f32) :
    out0_10 (F := Ideal) x0 x1 x2 x3 x4 x5 x6 x7 x8 x9
      = k0_pay1 (k0_pay2 x0 x1 x2 x3 x4 x5) (k0_pay3 x6) (k0_pay4 x7) (k0_pay5 x8) (k0_pay6 x9) := by
  unfold out0_10
  rw [View.canon_unit_zero off3_zero]
  simp only [View.ld_unit_zero (S := S1x5000x64) off3_zero, View.ld_unit_zero (S := S64x64) off2_zero,
    View.ld_unit_zero (S := S64) off1_zero]

/-- A block times a matrix into the zero accumulator, plus a bias vector laid as a row down the rows, at `(n, j)`:
    row `n` of the block through `dense`. The matrix's narrowing is the identity on extended reals. -/
theorem dense_stage_apply {φ : FTy} (l : FVec Ideal S5000x64 φ) (w : Vec Ideal S64x64 .f32) (b : Vec Ideal S64 .f32)
    (n : Fin 5000) (j : Fin 64) :
    addf (matmul dot_S5000x64_S64x64_S5000x64_1_0_0_1_n_n none l
          (truncf .bf16 (shapeCast S64x64 w shapeCasts_S64x64_S64x64) bitsLt_bf16_f32)
          (constant S5000x64 .f32 0x00000000#32))
        (broadcastTo S5000x64 (shapeCast S1x64 (shapeCast S64 b shapeCasts_S64_S64) shapeCasts_S64_S1x64)
          broadcasts_S1x64_S5000x64) (ix2 n j)
      = dense (fun k => l (ix2 n k)) w (fun j => b (ix1 j)) j := by
  rw [addf_apply, broadcastTo_1b_ab_apply, shapeCast_a_1a_apply, shapeCast_self, shapeCast_self, dot_plain]
  refine congrArg (· + b (ix1 j)) ?_
  exact Cert.Lib.matmul_plain_zero_apply 5000 64 64 none l _ (ix2 n j)

/-- The chain up to the second dense map, at `(n, j)`. -/
theorem pay2_apply (x0 x1 : Vec Ideal S1x5000x64 .f32) (x2 : Vec Ideal S64x64 .f32) (x3 : Vec Ideal S64 .f32)
    (x4 : Vec Ideal S64x64 .f32) (x5 : Vec Ideal S64 .f32) (n : Fin 5000) (j : Fin 64) :
    k0_pay2 (F := Ideal) x0 x1 x2 x3 x4 x5 (ix2 n j)
      = dense (fun k => max (dense (fun k => x0 (ix3 (0 : Fin 1) n k) + x1 (ix3 (0 : Fin 1) n k)) x2
          (fun j => x3 (ix1 j)) k) zeroR) x4 (fun j => x5 (ix1 j)) j := by
  unfold k0_pay2
  refine (dense_stage_apply _ x4 x5 n j).trans ?_
  have hin : (fun k : Fin 64 =>
      (truncf .bf16 (addf (shapeCast S5000x64 x0 shapeCasts_S1x5000x64_S5000x64)
        (shapeCast S5000x64 x1 shapeCasts_S1x5000x64_S5000x64)) bitsLt_bf16_f32 : FVec Ideal S5000x64 .bf16) (ix2 n k))
        = fun k => x0 (ix3 (0 : Fin 1) n k) + x1 (ix3 (0 : Fin 1) n k) := funext fun k => by
    rw [truncf_apply, addf_apply, shapeCast_1ab_ab_apply, shapeCast_1ab_ab_apply]
  refine congrArg (fun f => dense f x4 (fun j => x5 (ix1 j)) j) (funext fun k => ?_)
  rw [truncf_apply, maximumf_apply, broadcast_apply, dense_stage_apply, hin]
  rfl

/-- A vector laid as a `[1, 64]` row, at column `d`. -/
theorem pay3_apply (v : Vec Ideal S64 .f32) (d : Fin 64) : k0_pay3 (F := Ideal) v (ix2 (0 : Fin 1) d) = v (ix1 d) := by
  unfold k0_pay3
  rw [shapeCast_a_1a_apply, shapeCast_self]
theorem pay4_apply (v : Vec Ideal S64 .f32) (d : Fin 64) : k0_pay4 (F := Ideal) v (ix2 (0 : Fin 1) d) = v (ix1 d) := by
  unfold k0_pay4
  rw [shapeCast_a_1a_apply, shapeCast_self]
theorem pay5_apply (v : Vec Ideal S64 .f32) (d : Fin 64) : k0_pay5 (F := Ideal) v (ix2 (0 : Fin 1) d) = v (ix1 d) := by
  unfold k0_pay5
  rw [shapeCast_a_1a_apply, shapeCast_self]
theorem pay6_apply (v : Vec Ideal S64 .f32) (d : Fin 64) : k0_pay6 (F := Ideal) v (ix2 (0 : Fin 1) d) = v (ix1 d) := by
  unfold k0_pay6
  rw [shapeCast_a_1a_apply, shapeCast_self]

/-- The normalisation and the last positive part, at `(0, n, d)`: the four rows read at column `d`. -/
theorem pay1_apply (y : FVec Ideal S5000x64 .f32) (m v g b : FVec Ideal S1x64 .f32) (n : Fin 5000) (d : Fin 64) :
    k0_pay1 (F := Ideal) y m v g b (ix3 (0 : Fin 1) n d)
      = max ((y (ix2 n d) - m (ix2 (0 : Fin 1) d)) * Ideal.rsqrt (v (ix2 (0 : Fin 1) d) + epsR) * g (ix2 (0 : Fin 1) d)
          + b (ix2 (0 : Fin 1) d)) zeroR := by
  unfold k0_pay1
  rw [shapeCast_ab_1ab_apply, maximumf_apply, broadcast_apply, addf_apply, mulf_apply, mulf_apply, subf_apply,
    broadcastTo_1b_ab_apply, broadcastTo_1b_ab_apply, broadcastTo_1b_ab_apply, broadcastTo_1b_ab_apply]
  rfl

/-- Region 0's body at row `n`, column `d` of its block: the row `x + agg` through the layer. -/
theorem out0_10_apply (x0 x1 : Vec Ideal S1x5000x64 .f32) (x2 : Vec Ideal S64x64 .f32) (x3 : Vec Ideal S64 .f32)
    (x4 : Vec Ideal S64x64 .f32) (x5 x6 x7 x8 x9 : Vec Ideal S64 .f32) (n : Fin 5000) (d : Fin 64) :
    out0_10 (F := Ideal) x0 x1 x2 x3 x4 x5 x6 x7 x8 x9 (ix3 (0 : Fin 1) n d)
      = ginRow (fun k => x0 (ix3 (0 : Fin 1) n k) + x1 (ix3 (0 : Fin 1) n k)) x2 (fun j => x3 (ix1 j)) x4 (fun j => x5 (ix1 j))
          (fun j => x6 (ix1 j)) (fun j => x7 (ix1 j)) (fun j => x8 (ix1 j)) (fun j => x9 (ix1 j)) d := by
  rw [out0_10_eq, pay1_apply, pay2_apply, pay3_apply, pay4_apply, pay5_apply, pay6_apply]
  rfl

/-- Region 1's body at row `n`, column `d` of its block: the row `x + agg` through the layer. -/
theorem out1_10_apply (x0 x1 : Vec Ideal S1x5000x64 .f32) (x2 : Vec Ideal S64x64 .f32) (x3 : Vec Ideal S64 .f32)
    (x4 : Vec Ideal S64x64 .f32) (x5 x6 x7 x8 x9 : Vec Ideal S64 .f32) (n : Fin 5000) (d : Fin 64) :
    out1_10 (F := Ideal) x0 x1 x2 x3 x4 x5 x6 x7 x8 x9 (ix3 (0 : Fin 1) n d)
      = ginRow (fun k => x0 (ix3 (0 : Fin 1) n k) + x1 (ix3 (0 : Fin 1) n k)) x2 (fun j => x3 (ix1 j)) x4 (fun j => x5 (ix1 j))
          (fun j => x6 (ix1 j)) (fun j => x7 (ix1 j)) (fun j => x8 (ix1 j)) (fun j => x9 (ix1 j)) d :=
  out0_10_apply x0 x1 x2 x3 x4 x5 x6 x7 x8 x9 n d

/-- Region 2's body at row `n`, column `d` of its block: the row `x + agg` through the layer. -/
theorem out2_10_apply (x0 x1 : Vec Ideal S1x5000x64 .f32) (x2 : Vec Ideal S64x64 .f32) (x3 : Vec Ideal S64 .f32)
    (x4 : Vec Ideal S64x64 .f32) (x5 x6 x7 x8 x9 : Vec Ideal S64 .f32) (n : Fin 5000) (d : Fin 64) :
    out2_10 (F := Ideal) x0 x1 x2 x3 x4 x5 x6 x7 x8 x9 (ix3 (0 : Fin 1) n d)
      = ginRow (fun k => x0 (ix3 (0 : Fin 1) n k) + x1 (ix3 (0 : Fin 1) n k)) x2 (fun j => x3 (ix1 j)) x4 (fun j => x5 (ix1 j))
          (fun j => x6 (ix1 j)) (fun j => x7 (ix1 j)) (fun j => x8 (ix1 j)) (fun j => x9 (ix1 j)) d :=
  out0_10_apply x0 x1 x2 x3 x4 x5 x6 x7 x8 x9 n d

end Cert.Gin.Body

end
-- ==== Proof.GinRegion.lean ====
import proofs.«400857_j64622077935659_1_alg».proof.Proof.Gen.KernelIdeal.Frame
import proofs.«400857_j64622077935659_1_alg».proof.Proof.Spec
import proofs.«400857_j64622077935659_1_alg».proof.Proof.GinBody
import Idealize.ShloMosaic.Lib.Pipeline.Value

set_option maxRecDepth 16384

noncomputable section

namespace Cert.Gin.Region

open Idealize.ShloMosaic Idealize.ShloMosaic.ValueIdx Idealize.ShloMosaic.TcCoe Idealize.SL.Sem
open Cert.KernelIdeal Cert.KernelIdeal.Gen Cert.Gin

/-- An index of a [1,5000,64] block is its row and its column. -/
theorem blockIdx (j : S1x5000x64.Idx) : ∃ (n : Fin 5000) (d : Fin 64), j = ix3 (0 : Fin 1) n d := by
  have h : @Eq (Fin 1) (j 0) 0 := Fin.ext (Nat.lt_one_iff.mp (j 0).isLt)
  exact ⟨j 1, j 2, (eq_ix3 j).trans (congrArg (fun z : Fin 1 => ix3 z (j 1) (j 2)) h)⟩

/-! ## Region 0 -/

/-- Region 0's block indices, decided over the grid's twenty points. -/
theorem index0 : ∀ t : Fin cfg0.N, ∃ (g : Fin 2) (q : Fin 10),
    win0_10.index t = ![g.val, q.val, 0] ∧ win0_0.index t = ![g.val, q.val, 0] ∧ win0_1.index t = ![g.val, q.val, 0]
    ∧ win0_2.index t = ![0, 0] ∧ win0_3.index t = ![0] ∧ win0_4.index t = ![0, 0] ∧ win0_5.index t = ![0]
    ∧ win0_6.index t = ![0] ∧ win0_7.index t = ![0] ∧ win0_8.index t = ![0] ∧ win0_9.index t = ![0] :=
  (by decide +kernel : ∀ t : Fin grid0.N, _)

theorem onto0 : ∀ (g : Fin 2) (q : Fin 10), ∃ t : Fin cfg0.N, win0_10.index t = ![g.val, q.val, 0] :=
  (by decide +kernel : ∀ (g : Fin 2) (q : Fin 10), ∃ t : Fin grid0.N, win0_10.index t = ![g.val, q.val, 0])

theorem point0 (X AGG : Arr3 2 50000 64) (W1 : Arr2 64 64) (b1 : Arr1 64) (W2 : Arr2 64 64) (b2 mean var gamma beta : Arr1 64)
    (x0 x1 : Vec Ideal S1x5000x64 .f32) (x2 : Vec Ideal S64x64 .f32) (x3 : Vec Ideal S64 .f32)
    (x4 : Vec Ideal S64x64 .f32) (x5 x6 x7 x8 x9 : Vec Ideal S64 .f32)
    (g : Fin 2) (r : Fin 50000) (n : Fin 5000) (d : Fin 64)
    (h0 : ∀ k : Fin 64, x0 (ix3 (0 : Fin 1) n k) = X (ix3 g r k))
    (h1 : ∀ k : Fin 64, x1 (ix3 (0 : Fin 1) n k) = AGG (ix3 g r k))
    (h2 : x2 = W1) (h3 : x3 = b1) (h4 : x4 = W2) (h5 : x5 = b2) (h6 : x6 = mean) (h7 : x7 = var) (h8 : x8 = gamma) (h9 : x9 = beta) :
    out0_10 (F := Ideal) x0 x1 x2 x3 x4 x5 x6 x7 x8 x9 (ix3 (0 : Fin 1) n d)
      = layer3 X AGG W1 b1 W2 b2 mean var gamma beta (ix3 g r d) := by
  subst h2 h3 h4 h5 h6 h7 h8 h9
  rw [Body.out0_10_apply]
  show _ = ginRow (fun k => X (ix3 g r k) + AGG (ix3 g r k)) x2 (fun j => x3 (ix1 j)) x4 (fun j => x5 (ix1 j))
          (fun j => x6 (ix1 j)) (fun j => x7 (ix1 j)) (fun j => x8 (ix1 j)) (fun j => x9 (ix1 j)) d
  simp only [h0, h1]

section Region0

variable (V : (c : Dev nD) → (b : Ref sig .tc) → Buf (Elt Ideal) ((c : Thread nD τ).loc b)) (c : Dev nD)

/-- An element of the output's block at a point whose block index is (g, q, 0) sits at row 5000 q + n of member g. -/
theorem emb0_10 (t : Fin cfg0.N) (g : Fin 2) (q : Fin 10) (e : win0_10.index t = ![g.val, q.val, 0]) (n : Fin 5000) (d : Fin 64) :
    ((cfg0.win 10).blk t).view.emb (ix3 (0 : Fin 1) n d) = ix3 g (⟨5000 * q.val + n.val, by omega⟩ : Fin 50000) d := by
  funext a; apply Fin.ext
  match a with
  | ⟨0, _⟩ => show win0_10.index t (0 : Fin 3) * 1 + 1 * ((0 : Fin 1) : Nat) = g.val; rw [e]; simp
  | ⟨1, _⟩ => show win0_10.index t (1 : Fin 3) * 5000 + 1 * n.val = 5000 * q.val + n.val; rw [e]; simp; omega
  | ⟨2, _⟩ => show win0_10.index t (2 : Fin 3) * 64 + 1 * d.val = d.val; rw [e]; simp

theorem emb0_0 (t : Fin cfg0.N) (g : Fin 2) (q : Fin 10) (e : win0_0.index t = ![g.val, q.val, 0]) (n : Fin 5000) (d : Fin 64) :
    ((cfg0.win 0).blk t).view.emb (ix3 (0 : Fin 1) n d) = ix3 g (⟨5000 * q.val + n.val, by omega⟩ : Fin 50000) d := by
  funext a; apply Fin.ext
  match a with
  | ⟨0, _⟩ => show win0_0.index t (0 : Fin 3) * 1 + 1 * ((0 : Fin 1) : Nat) = g.val; rw [e]; simp
  | ⟨1, _⟩ => show win0_0.index t (1 : Fin 3) * 5000 + 1 * n.val = 5000 * q.val + n.val; rw [e]; simp; omega
  | ⟨2, _⟩ => show win0_0.index t (2 : Fin 3) * 64 + 1 * d.val = d.val; rw [e]; simp

theorem emb0_1 (t : Fin cfg0.N) (g : Fin 2) (q : Fin 10) (e : win0_1.index t = ![g.val, q.val, 0]) (n : Fin 5000) (d : Fin 64) :
    ((cfg0.win 1).blk t).view.emb (ix3 (0 : Fin 1) n d) = ix3 g (⟨5000 * q.val + n.val, by omega⟩ : Fin 50000) d := by
  funext a; apply Fin.ext
  match a with
  | ⟨0, _⟩ => show win0_1.index t (0 : Fin 3) * 1 + 1 * ((0 : Fin 1) : Nat) = g.val; rw [e]; simp
  | ⟨1, _⟩ => show win0_1.index t (1 : Fin 3) * 5000 + 1 * n.val = 5000 * q.val + n.val; rw [e]; simp; omega
  | ⟨2, _⟩ => show win0_1.index t (2 : Fin 3) * 64 + 1 * d.val = d.val; rw [e]; simp

/-- A window whose one block is its whole array reads the array itself. -/
theorem whole0_2 (t : Fin cfg0.N) (e : win0_2.index t = ![0, 0]) :
    iblk0 (F := Ideal) V c 2 t = (V c main_v39 : Vec Ideal S64x64 .f32) := by
  funext j
  show (V c main_v39 : Vec Ideal S64x64 .f32) (((cfg0.win 2).blk t).view.emb j) = (V c main_v39 : Vec Ideal S64x64 .f32) j
  congr 1
  funext a; apply Fin.ext
  match a with
  | ⟨0, _⟩ => show win0_2.index t (0 : Fin 2) * 64 + 1 * (j 0).val = (j 0).val; rw [e]; simp
  | ⟨1, _⟩ => show win0_2.index t (1 : Fin 2) * 64 + 1 * (j 1).val = (j 1).val; rw [e]; simp

theorem whole0_3 (t : Fin cfg0.N) (e : win0_3.index t = ![0]) :
    iblk0 (F := Ideal) V c 3 t = (V c main_v41 : Vec Ideal S64 .f32) := by
  funext j
  show (V c main_v41 : Vec Ideal S64 .f32) (((cfg0.win 3).blk t).view.emb j) = (V c main_v41 : Vec Ideal S64 .f32) j
  congr 1
  funext a; apply Fin.ext
  match a with
  | ⟨0, _⟩ => show win0_3.index t (0 : Fin 1) * 64 + 1 * (j 0).val = (j 0).val; rw [e]; simp

theorem whole0_4 (t : Fin cfg0.N) (e : win0_4.index t = ![0, 0]) :
    iblk0 (F := Ideal) V c 4 t = (V c main_v43 : Vec Ideal S64x64 .f32) := by
  funext j
  show (V c main_v43 : Vec Ideal S64x64 .f32) (((cfg0.win 4).blk t).view.emb j) = (V c main_v43 : Vec Ideal S64x64 .f32) j
  congr 1
  funext a; apply Fin.ext
  match a with
  | ⟨0, _⟩ => show win0_4.index t (0 : Fin 2) * 64 + 1 * (j 0).val = (j 0).val; rw [e]; simp
  | ⟨1, _⟩ => show win0_4.index t (1 : Fin 2) * 64 + 1 * (j 1).val = (j 1).val; rw [e]; simp

theorem whole0_5 (t : Fin cfg0.N) (e : win0_5.index t = ![0]) :
    iblk0 (F := Ideal) V c 5 t = (V c main_v45 : Vec Ideal S64 .f32) := by
  funext j
  show (V c main_v45 : Vec Ideal S64 .f32) (((cfg0.win 5).blk t).view.emb j) = (V c main_v45 : Vec Ideal S64 .f32) j
  congr 1
  funext a; apply Fin.ext
  match a with
  | ⟨0, _⟩ => show win0_5.index t (0 : Fin 1) * 64 + 1 * (j 0).val = (j 0).val; rw [e]; simp

theorem whole0_6 (t : Fin cfg0.N) (e : win0_6.index t = ![0]) :
    iblk0 (F := Ideal) V c 6 t = (V c main_v47 : Vec Ideal S64 .f32) := by
  funext j
  show (V c main_v47 : Vec Ideal S64 .f32) (((cfg0.win 6).blk t).view.emb j) = (V c main_v47 : Vec Ideal S64 .f32) j
  congr 1
  funext a; apply Fin.ext
  match a with
  | ⟨0, _⟩ => show win0_6.index t (0 : Fin 1) * 64 + 1 * (j 0).val = (j 0).val; rw [e]; simp

theorem whole0_7 (t : Fin cfg0.N) (e : win0_7.index t = ![0]) :
    iblk0 (F := Ideal) V c 7 t = (V c main_v49 : Vec Ideal S64 .f32) := by
  funext j
  show (V c main_v49 : Vec Ideal S64 .f32) (((cfg0.win 7).blk t).view.emb j) = (V c main_v49 : Vec Ideal S64 .f32) j
  congr 1
  funext a; apply Fin.ext
  match a with
  | ⟨0, _⟩ => show win0_7.index t (0 : Fin 1) * 64 + 1 * (j 0).val = (j 0).val; rw [e]; simp

theorem whole0_8 (t : Fin cfg0.N) (e : win0_8.index t = ![0]) :
    iblk0 (F := Ideal) V c 8 t = (V c main_v51 : Vec Ideal S64 .f32) := by
  funext j
  show (V c main_v51 : Vec Ideal S64 .f32) (((cfg0.win 8).blk t).view.emb j) = (V c main_v51 : Vec Ideal S64 .f32) j
  congr 1
  funext a; apply Fin.ext
  match a with
  | ⟨0, _⟩ => show win0_8.index t (0 : Fin 1) * 64 + 1 * (j 0).val = (j 0).val; rw [e]; simp

theorem whole0_9 (t : Fin cfg0.N) (e : win0_9.index t = ![0]) :
    iblk0 (F := Ideal) V c 9 t = (V c main_v53 : Vec Ideal S64 .f32) := by
  funext j
  show (V c main_v53 : Vec Ideal S64 .f32) (((cfg0.win 9).blk t).view.emb j) = (V c main_v53 : Vec Ideal S64 .f32) j
  congr 1
  funext a; apply Fin.ext
  match a with
  | ⟨0, _⟩ => show win0_9.index t (0 : Fin 1) * 64 + 1 * (j 0).val = (j 0).val; rw [e]; simp

/-- What a point writes back is its block of the layer of the arrays the region finds. -/
theorem flushed0 (t : Fin cfg0.N) :
    (dat0 (F := Ideal) V c).flushed 10 t
      = ((cfg0.win 10).blk t).view.read (Elt Ideal)
          (layer3 (V c main_v10) (V c main_v37) (V c main_v39) (V c main_v41) (V c main_v43) (V c main_v45) (V c main_v47) (V c main_v49) (V c main_v51) (V c main_v53)) := by
  show (cfg0.win 10).cut (grid0.coords t) ((dat0 (F := Ideal) V c).after 10 t) = _
  rw [after0_10]
  obtain ⟨g, q, e10, e0, e1, e2, e3, e4, e5, e6, e7, e8, e9⟩ := index0 t
  funext j
  obtain ⟨n, d, rfl⟩ := blockIdx j
  refine (point0 (V c main_v10) (V c main_v37) (V c main_v39) (V c main_v41) (V c main_v43) (V c main_v45) (V c main_v47) (V c main_v49) (V c main_v51) (V c main_v53)
    _ _ _ _ _ _ _ _ _ _ g (⟨5000 * q.val + n.val, by omega⟩ : Fin 50000) n d (fun k => ?_) (fun k => ?_)
    (whole0_2 V c t e2) (whole0_3 V c t e3) (whole0_4 V c t e4) (whole0_5 V c t e5) (whole0_6 V c t e6) (whole0_7 V c t e7) (whole0_8 V c t e8) (whole0_9 V c t e9)).trans ?_
  · show (V c main_v10 : Arr3 2 50000 64) (((cfg0.win 0).blk t).view.emb (ix3 (0 : Fin 1) n k)) = _
    rw [emb0_0 t g q e0]
  · show (V c main_v37 : Arr3 2 50000 64) (((cfg0.win 1).blk t).view.emb (ix3 (0 : Fin 1) n k)) = _
    rw [emb0_1 t g q e1]
  · show _ = layer3 (V c main_v10) (V c main_v37) (V c main_v39) (V c main_v41) (V c main_v43) (V c main_v45) (V c main_v47) (V c main_v49) (V c main_v51) (V c main_v53)
        (((cfg0.win 10).blk t).view.emb (ix3 (0 : Fin 1) n d))
    rw [emb0_10 t g q e10]

/-- An index of the array is in a point's block iff each coordinate is in the block's range on its axis. -/
theorem mem_blk0 (t : Fin cfg0.N) (i : S2x50000x64.Idx) :
    i ∈ ((cfg0.win 10).blk t).view.set ↔ ∀ a : Fin 3, win0_10.index t a * S1x5000x64.size a ≤ (i a).val ∧ (i a).val < win0_10.index t a * S1x5000x64.size a + S1x5000x64.size a := by
  show i ∈ ((View.whole main_v54).slice (win0_10.rect t)).set ↔ _
  rw [View.set_slice_whole, Rect.mem_set_unit]
  exact Iff.rfl

/-- Row n of member g lies in the block of the point with block index (g, n / 5000, 0). -/
theorem cover0 (i : S2x50000x64.Idx) :
    ∃ t : Fin cfg0.N, (cfg0.win 10).flush t = true ∧ i ∈ ((cfg0.win 10).blk t).view.set := by
  have hi0 : (i 0).val < 2 := (i 0).isLt
  have hi1 : (i 1).val < 50000 := (i 1).isLt
  have hi2 : (i 2).val < 64 := (i 2).isLt
  obtain ⟨t, ht⟩ := onto0 ⟨(i 0).val, hi0⟩ ⟨(i 1).val / 5000, by omega⟩
  have q0 : win0_10.index t (0 : Fin 3) = (i 0).val := congrFun ht 0
  have q1 : win0_10.index t (1 : Fin 3) = (i 1).val / 5000 := congrFun ht 1
  have q2 : win0_10.index t (2 : Fin 3) = 0 := congrFun ht 2
  refine ⟨t, flush0_10 t, ?_⟩
  rw [mem_blk0]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 5000 ≤ (i 1).val ∧ (i 1).val < win0_10.index t (1 : Fin 3) * 5000 + 5000; omega
  | ⟨2, _⟩ => show win0_10.index t (2 : Fin 3) * 64 ≤ (i 2).val ∧ (i 2).val < win0_10.index t (2 : Fin 3) * 64 + 64; omega

end Region0

/-- What region 0's pipeline leaves in its output array: the layer, member by member, of the arrays the region finds. -/
theorem region0_value (V : (c : Dev nD) → (b : Ref sig .tc) → Buf (Elt Ideal) ((c : Thread nD τ).loc b)) (c : Dev nD) :
    (dat0 (F := Ideal) V c).arrAt 10 cfg0.N
      = layer3 (V c main_v10) (V c main_v37) (V c main_v39) (V c main_v41) (V c main_v43) (V c main_v45) (V c main_v47) (V c main_v49) (V c main_v51) (V c main_v53) :=
  (dat0 (F := Ideal) V c).arrAt_eq_of_cover 10 _ (fun t _ => flushed0 V c t) cover0

/-! ## Region 1 -/

/-- Region 1's block indices, decided over the grid's twenty points. -/
theorem index1 : ∀ t : Fin cfg1.N, ∃ (g : Fin 2) (q : Fin 10),
    win1_10.index t = ![g.val, q.val, 0] ∧ win1_0.index t = ![g.val, q.val, 0] ∧ win1_1.index t = ![g.val, q.val, 0]
    ∧ win1_2.index t = ![0, 0] ∧ win1_3.index t = ![0] ∧ win1_4.index t = ![0, 0] ∧ win1_5.index t = ![0]
    ∧ win1_6.index t = ![0] ∧ win1_7.index t = ![0] ∧ win1_8.index t = ![0] ∧ win1_9.index t = ![0] :=
  (by decide +kernel : ∀ t : Fin grid1.N, _)

theorem onto1 : ∀ (g : Fin 2) (q : Fin 10), ∃ t : Fin cfg1.N, win1_10.index t = ![g.val, q.val, 0] :=
  (by decide +kernel : ∀ (g : Fin 2) (q : Fin 10), ∃ t : Fin grid1.N, win1_10.index t = ![g.val, q.val, 0])

theorem point1 (X AGG : Arr3 2 50000 64) (W1 : Arr2 64 64) (b1 : Arr1 64) (W2 : Arr2 64 64) (b2 mean var gamma beta : Arr1 64)
    (x0 x1 : Vec Ideal S1x5000x64 .f32) (x2 : Vec Ideal S64x64 .f32) (x3 : Vec Ideal S64 .f32)
    (x4 : Vec Ideal S64x64 .f32) (x5 x6 x7 x8 x9 : Vec Ideal S64 .f32)
    (g : Fin 2) (r : Fin 50000) (n : Fin 5000) (d : Fin 64)
    (h0 : ∀ k : Fin 64, x0 (ix3 (0 : Fin 1) n k) = X (ix3 g r k))
    (h1 : ∀ k : Fin 64, x1 (ix3 (0 : Fin 1) n k) = AGG (ix3 g r k))
    (h2 : x2 = W1) (h3 : x3 = b1) (h4 : x4 = W2) (h5 : x5 = b2) (h6 : x6 = mean) (h7 : x7 = var) (h8 : x8 = gamma) (h9 : x9 = beta) :
    out1_10 (F := Ideal) x0 x1 x2 x3 x4 x5 x6 x7 x8 x9 (ix3 (0 : Fin 1) n d)
      = layer3 X AGG W1 b1 W2 b2 mean var gamma beta (ix3 g r d) := by
  subst h2 h3 h4 h5 h6 h7 h8 h9
  rw [Body.out1_10_apply]
  show _ = ginRow (fun k => X (ix3 g r k) + AGG (ix3 g r k)) x2 (fun j => x3 (ix1 j)) x4 (fun j => x5 (ix1 j))
          (fun j => x6 (ix1 j)) (fun j => x7 (ix1 j)) (fun j => x8 (ix1 j)) (fun j => x9 (ix1 j)) d
  simp only [h0, h1]

section Region1

variable (V : (c : Dev nD) → (b : Ref sig .tc) → Buf (Elt Ideal) ((c : Thread nD τ).loc b)) (c : Dev nD)

/-- An element of the output's block at a point whose block index is (g, q, 0) sits at row 5000 q + n of member g. -/
theorem emb1_10 (t : Fin cfg1.N) (g : Fin 2) (q : Fin 10) (e : win1_10.index t = ![g.val, q.val, 0]) (n : Fin 5000) (d : Fin 64) :
    ((cfg1.win 10).blk t).view.emb (ix3 (0 : Fin 1) n d) = ix3 g (⟨5000 * q.val + n.val, by omega⟩ : Fin 50000) d := by
  funext a; apply Fin.ext
  match a with
  | ⟨0, _⟩ => show win1_10.index t (0 : Fin 3) * 1 + 1 * ((0 : Fin 1) : Nat) = g.val; rw [e]; simp
  | ⟨1, _⟩ => show win1_10.index t (1 : Fin 3) * 5000 + 1 * n.val = 5000 * q.val + n.val; rw [e]; simp; omega
  | ⟨2, _⟩ => show win1_10.index t (2 : Fin 3) * 64 + 1 * d.val = d.val; rw [e]; simp

theorem emb1_0 (t : Fin cfg1.N) (g : Fin 2) (q : Fin 10) (e : win1_0.index t = ![g.val, q.val, 0]) (n : Fin 5000) (d : Fin 64) :
    ((cfg1.win 0).blk t).view.emb (ix3 (0 : Fin 1) n d) = ix3 g (⟨5000 * q.val + n.val, by omega⟩ : Fin 50000) d := by
  funext a; apply Fin.ext
  match a with
  | ⟨0, _⟩ => show win1_0.index t (0 : Fin 3) * 1 + 1 * ((0 : Fin 1) : Nat) = g.val; rw [e]; simp
  | ⟨1, _⟩ => show win1_0.index t (1 : Fin 3) * 5000 + 1 * n.val = 5000 * q.val + n.val; rw [e]; simp; omega
  | ⟨2, _⟩ => show win1_0.index t (2 : Fin 3) * 64 + 1 * d.val = d.val; rw [e]; simp

theorem emb1_1 (t : Fin cfg1.N) (g : Fin 2) (q : Fin 10) (e : win1_1.index t = ![g.val, q.val, 0]) (n : Fin 5000) (d : Fin 64) :
    ((cfg1.win 1).blk t).view.emb (ix3 (0 : Fin 1) n d) = ix3 g (⟨5000 * q.val + n.val, by omega⟩ : Fin 50000) d := by
  funext a; apply Fin.ext
  match a with
  | ⟨0, _⟩ => show win1_1.index t (0 : Fin 3) * 1 + 1 * ((0 : Fin 1) : Nat) = g.val; rw [e]; simp
  | ⟨1, _⟩ => show win1_1.index t (1 : Fin 3) * 5000 + 1 * n.val = 5000 * q.val + n.val; rw [e]; simp; omega
  | ⟨2, _⟩ => show win1_1.index t (2 : Fin 3) * 64 + 1 * d.val = d.val; rw [e]; simp

/-- A window whose one block is its whole array reads the array itself. -/
theorem whole1_2 (t : Fin cfg1.N) (e : win1_2.index t = ![0, 0]) :
    iblk1 (F := Ideal) V c 2 t = (V c main_v83 : Vec Ideal S64x64 .f32) := by
  funext j
  show (V c main_v83 : Vec Ideal S64x64 .f32) (((cfg1.win 2).blk t).view.emb j) = (V c main_v83 : Vec Ideal S64x64 .f32) j
  congr 1
  funext a; apply Fin.ext
  match a with
  | ⟨0, _⟩ => show win1_2.index t (0 : Fin 2) * 64 + 1 * (j 0).val = (j 0).val; rw [e]; simp
  | ⟨1, _⟩ => show win1_2.index t (1 : Fin 2) * 64 + 1 * (j 1).val = (j 1).val; rw [e]; simp

theorem whole1_3 (t : Fin cfg1.N) (e : win1_3.index t = ![0]) :
    iblk1 (F := Ideal) V c 3 t = (V c main_v85 : Vec Ideal S64 .f32) := by
  funext j
  show (V c main_v85 : Vec Ideal S64 .f32) (((cfg1.win 3).blk t).view.emb j) = (V c main_v85 : Vec Ideal S64 .f32) j
  congr 1
  funext a; apply Fin.ext
  match a with
  | ⟨0, _⟩ => show win1_3.index t (0 : Fin 1) * 64 + 1 * (j 0).val = (j 0).val; rw [e]; simp

theorem whole1_4 (t : Fin cfg1.N) (e : win1_4.index t = ![0, 0]) :
    iblk1 (F := Ideal) V c 4 t = (V c main_v87 : Vec Ideal S64x64 .f32) := by
  funext j
  show (V c main_v87 : Vec Ideal S64x64 .f32) (((cfg1.win 4).blk t).view.emb j) = (V c main_v87 : Vec Ideal S64x64 .f32) j
  congr 1
  funext a; apply Fin.ext
  match a with
  | ⟨0, _⟩ => show win1_4.index t (0 : Fin 2) * 64 + 1 * (j 0).val = (j 0).val; rw [e]; simp
  | ⟨1, _⟩ => show win1_4.index t (1 : Fin 2) * 64 + 1 * (j 1).val = (j 1).val; rw [e]; simp

theorem whole1_5 (t : Fin cfg1.N) (e : win1_5.index t = ![0]) :
    iblk1 (F := Ideal) V c 5 t = (V c main_v89 : Vec Ideal S64 .f32) := by
  funext j
  show (V c main_v89 : Vec Ideal S64 .f32) (((cfg1.win 5).blk t).view.emb j) = (V c main_v89 : Vec Ideal S64 .f32) j
  congr 1
  funext a; apply Fin.ext
  match a with
  | ⟨0, _⟩ => show win1_5.index t (0 : Fin 1) * 64 + 1 * (j 0).val = (j 0).val; rw [e]; simp

theorem whole1_6 (t : Fin cfg1.N) (e : win1_6.index t = ![0]) :
    iblk1 (F := Ideal) V c 6 t = (V c main_v91 : Vec Ideal S64 .f32) := by
  funext j
  show (V c main_v91 : Vec Ideal S64 .f32) (((cfg1.win 6).blk t).view.emb j) = (V c main_v91 : Vec Ideal S64 .f32) j
  congr 1
  funext a; apply Fin.ext
  match a with
  | ⟨0, _⟩ => show win1_6.index t (0 : Fin 1) * 64 + 1 * (j 0).val = (j 0).val; rw [e]; simp

theorem whole1_7 (t : Fin cfg1.N) (e : win1_7.index t = ![0]) :
    iblk1 (F := Ideal) V c 7 t = (V c main_v93 : Vec Ideal S64 .f32) := by
  funext j
  show (V c main_v93 : Vec Ideal S64 .f32) (((cfg1.win 7).blk t).view.emb j) = (V c main_v93 : Vec Ideal S64 .f32) j
  congr 1
  funext a; apply Fin.ext
  match a with
  | ⟨0, _⟩ => show win1_7.index t (0 : Fin 1) * 64 + 1 * (j 0).val = (j 0).val; rw [e]; simp

theorem whole1_8 (t : Fin cfg1.N) (e : win1_8.index t = ![0]) :
    iblk1 (F := Ideal) V c 8 t = (V c main_v95 : Vec Ideal S64 .f32) := by
  funext j
  show (V c main_v95 : Vec Ideal S64 .f32) (((cfg1.win 8).blk t).view.emb j) = (V c main_v95 : Vec Ideal S64 .f32) j
  congr 1
  funext a; apply Fin.ext
  match a with
  | ⟨0, _⟩ => show win1_8.index t (0 : Fin 1) * 64 + 1 * (j 0).val = (j 0).val; rw [e]; simp

theorem whole1_9 (t : Fin cfg1.N) (e : win1_9.index t = ![0]) :
    iblk1 (F := Ideal) V c 9 t = (V c main_v97 : Vec Ideal S64 .f32) := by
  funext j
  show (V c main_v97 : Vec Ideal S64 .f32) (((cfg1.win 9).blk t).view.emb j) = (V c main_v97 : Vec Ideal S64 .f32) j
  congr 1
  funext a; apply Fin.ext
  match a with
  | ⟨0, _⟩ => show win1_9.index t (0 : Fin 1) * 64 + 1 * (j 0).val = (j 0).val; rw [e]; simp

/-- What a point writes back is its block of the layer of the arrays the region finds. -/
theorem flushed1 (t : Fin cfg1.N) :
    (dat1 (F := Ideal) V c).flushed 10 t
      = ((cfg1.win 10).blk t).view.read (Elt Ideal)
          (layer3 (V c main_v54) (V c main_v81) (V c main_v83) (V c main_v85) (V c main_v87) (V c main_v89) (V c main_v91) (V c main_v93) (V c main_v95) (V c main_v97)) := by
  show (cfg1.win 10).cut (grid1.coords t) ((dat1 (F := Ideal) V c).after 10 t) = _
  rw [after1_10]
  obtain ⟨g, q, e10, e0, e1, e2, e3, e4, e5, e6, e7, e8, e9⟩ := index1 t
  funext j
  obtain ⟨n, d, rfl⟩ := blockIdx j
  refine (point1 (V c main_v54) (V c main_v81) (V c main_v83) (V c main_v85) (V c main_v87) (V c main_v89) (V c main_v91) (V c main_v93) (V c main_v95) (V c main_v97)
    _ _ _ _ _ _ _ _ _ _ g (⟨5000 * q.val + n.val, by omega⟩ : Fin 50000) n d (fun k => ?_) (fun k => ?_)
    (whole1_2 V c t e2) (whole1_3 V c t e3) (whole1_4 V c t e4) (whole1_5 V c t e5) (whole1_6 V c t e6) (whole1_7 V c t e7) (whole1_8 V c t e8) (whole1_9 V c t e9)).trans ?_
  · show (V c main_v54 : Arr3 2 50000 64) (((cfg1.win 0).blk t).view.emb (ix3 (0 : Fin 1) n k)) = _
    rw [emb1_0 t g q e0]
  · show (V c main_v81 : Arr3 2 50000 64) (((cfg1.win 1).blk t).view.emb (ix3 (0 : Fin 1) n k)) = _
    rw [emb1_1 t g q e1]
  · show _ = layer3 (V c main_v54) (V c main_v81) (V c main_v83) (V c main_v85) (V c main_v87) (V c main_v89) (V c main_v91) (V c main_v93) (V c main_v95) (V c main_v97)
        (((cfg1.win 10).blk t).view.emb (ix3 (0 : Fin 1) n d))
    rw [emb1_10 t g q e10]

/-- An index of the array is in a point's block iff each coordinate is in the block's range on its axis. -/
theorem mem_blk1 (t : Fin cfg1.N) (i : S2x50000x64.Idx) :
    i ∈ ((cfg1.win 10).blk t).view.set ↔ ∀ a : Fin 3, win1_10.index t a * S1x5000x64.size a ≤ (i a).val ∧ (i a).val < win1_10.index t a * S1x5000x64.size a + S1x5000x64.size a := by
  show i ∈ ((View.whole main_v98).slice (win1_10.rect t)).set ↔ _
  rw [View.set_slice_whole, Rect.mem_set_unit]
  exact Iff.rfl

/-- Row n of member g lies in the block of the point with block index (g, n / 5000, 0). -/
theorem cover1 (i : S2x50000x64.Idx) :
    ∃ t : Fin cfg1.N, (cfg1.win 10).flush t = true ∧ i ∈ ((cfg1.win 10).blk t).view.set := by
  have hi0 : (i 0).val < 2 := (i 0).isLt
  have hi1 : (i 1).val < 50000 := (i 1).isLt
  have hi2 : (i 2).val < 64 := (i 2).isLt
  obtain ⟨t, ht⟩ := onto1 ⟨(i 0).val, hi0⟩ ⟨(i 1).val / 5000, by omega⟩
  have q0 : win1_10.index t (0 : Fin 3) = (i 0).val := congrFun ht 0
  have q1 : win1_10.index t (1 : Fin 3) = (i 1).val / 5000 := congrFun ht 1
  have q2 : win1_10.index t (2 : Fin 3) = 0 := congrFun ht 2
  refine ⟨t, flush1_10 t, ?_⟩
  rw [mem_blk1]
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 5000 ≤ (i 1).val ∧ (i 1).val < win1_10.index t (1 : Fin 3) * 5000 + 5000; omega
  | ⟨2, _⟩ => show win1_10.index t (2 : Fin 3) * 64 ≤ (i 2).val ∧ (i 2).val < win1_10.index t (2 : Fin 3) * 64 + 64; omega

end Region1

/-- What region 1's pipeline leaves in its output array: the layer, member by member, of the arrays the region finds. -/
theorem region1_value (V : (c : Dev nD) → (b : Ref sig .tc) → Buf (Elt Ideal) ((c : Thread nD τ).loc b)) (c : Dev nD) :
    (dat1 (F := Ideal) V c).arrAt 10 cfg1.N
      = layer3 (V c main_v54) (V c main_v81) (V c main_v83) (V c main_v85) (V c main_v87) (V c main_v89) (V c main_v91) (V c main_v93) (V c main_v95) (V c main_v97) :=
  (dat1 (F := Ideal) V c).arrAt_eq_of_cover 10 _ (fun t _ => flushed1 V c t) cover1

/-! ## Region 2 -/

/-- Region 2's block indices, decided over the grid's twenty points. -/
theorem index2 : ∀ t : Fin cfg2.N, ∃ (g : Fin 2) (q : Fin 10),
    win2_10.index t = ![g.val, q.val, 0] ∧ win2_0.index t = ![g.val, q.val, 0] ∧ win2_1.index t = ![g.val, q.val, 0]
    ∧ win2_2.index t = ![0, 0] ∧ win2_3.index t = ![0] ∧ win2_4.index t = ![0, 0] ∧ win2_5.index t = ![0]
    ∧ win2_6.index t = ![0] ∧ win2_7.index t = ![0] ∧ win2_8.index t = ![0] ∧ win2_9.index t = ![0] :=
  (by decide +kernel : ∀ t : Fin grid2.N, _)

theorem onto2 : ∀ (g : Fin 2) (q : Fin 10), ∃ t : Fin cfg2.N, win2_10.index t = ![g.val, q.val, 0] :=
  (by decide +kernel : ∀ (g : Fin 2) (q : Fin 10), ∃ t : Fin grid2.N, win2_10.index t = ![g.val, q.val, 0])

theorem point2 (X AGG : Arr3 2 50000 64) (W1 : Arr2 64 64) (b1 : Arr1 64) (W2 : Arr2 64 64) (b2 mean var gamma beta : Arr1 64)
    (x0 x1 : Vec Ideal S1x5000x64 .f32) (x2 : Vec Ideal S64x64 .f32) (x3 : Vec Ideal S64 .f32)
    (x4 : Vec Ideal S64x64 .f32) (x5 x6 x7 x8 x9 : Vec Ideal S64 .f32)
    (g : Fin 2) (r : Fin 50000) (n : Fin 5000) (d : Fin 64)
    (h0 : ∀ k : Fin 64, x0 (ix3 (0 : Fin 1) n k) = X (ix3 g r k))
    (h1 : ∀ k : Fin 64, x1 (ix3 (0 : Fin 1) n k) = AGG (ix3 g r k))
    (h2 : x2 = W1) (h3 : x3 = b1) (h4 : x4 = W2) (h5 : x5 = b2) (h6 : x6 = mean) (h7 : x7 = var) (h8 : x8 = gamma) (h9 : x9 = beta) :
    out2_10 (F := Ideal) x0 x1 x2 x3 x4 x5 x6 x7 x8 x9 (ix3 (0 : Fin 1) n d)
      = layer3 X AGG W1 b1 W2 b2 mean var gamma beta (ix3 g r d) := by
  subst h2 h3 h4 h5 h6 h7 h8 h9
  rw [Body.out2_10_apply]
  show _ = ginRow (fun k => X (ix3 g r k) + AGG (ix3 g r k)) x2 (fun j => x3 (ix1 j)) x4 (fun j => x5 (ix1 j))
          (fun j => x6 (ix1 j)) (fun j => x7 (ix1 j)) (fun j => x8 (ix1 j)) (fun j => x9 (ix1 j)) d
  simp only [h0, h1]

section Region2

variable (V : (c : Dev nD) → (b : Ref sig .tc) → Buf (Elt Ideal) ((c : Thread nD τ).loc b)) (c : Dev nD)

/-- An element of the output's block at a point whose block index is (g, q, 0) sits at row 5000 q + n of member g. -/
theorem emb2_10 (t : Fin cfg2.N) (g : Fin 2) (q : Fin 10) (e : win2_10.index t = ![g.val, q.val, 0]) (n : Fin 5000) (d : Fin 64) :
    ((cfg2.win 10).blk t).view.emb (ix3 (0 : Fin 1) n d) = ix3 g (⟨5000 * q.val + n.val, by omega⟩ : Fin 50000) d := by
  funext a; apply Fin.ext
  match a with
  | ⟨0, _⟩ => show win2_10.index t (0 : Fin 3) * 1 + 1 * ((0 : Fin 1) : Nat) = g.val; rw [e]; simp
  | ⟨1, _⟩ => show win2_10.index t (1 : Fin 3) * 5000 + 1 * n.val = 5000 * q.val + n.val; rw [e]; simp; omega
  | ⟨2, _⟩ => show win2_10.index t (2 : Fin 3) * 64 + 1 * d.val = d.val; rw [e]; simp

theorem emb2_0 (t : Fin cfg2.N) (g : Fin 2) (q : Fin 10) (e : win2_0.index t = ![g.val, q.val, 0]) (n : Fin 5000) (d : Fin 64) :
    ((cfg2.win 0).blk t).view.emb (ix3 (0 : Fin 1) n d) = ix3 g (⟨5000 * q.val + n.val, by omega⟩ : Fin 50000) d := by
  funext a; apply Fin.ext
  match a with
  | ⟨0, _⟩ => show win2_0.index t (0 : Fin 3) * 1 + 1 * ((0 : Fin 1) : Nat) = g.val; rw [e]; simp
  | ⟨1, _⟩ => show win2_0.index t (1 : Fin 3) * 5000 + 1 * n.val = 5000 * q.val + n.val; rw [e]; simp; omega
  | ⟨2, _⟩ => show win2_0.index t (2 : Fin 3) * 64 + 1 * d.val = d.val; rw [e]; simp

theorem emb2_1 (t : Fin cfg2.N) (g : Fin 2) (q : Fin 10) (e : win2_1.index t = ![g.val, q.val, 0]) (n : Fin 5000) (d : Fin 64) :
    ((cfg2.win 1).blk t).view.emb (ix3 (0 : Fin 1) n d) = ix3 g (⟨5000 * q.val + n.val, by omega⟩ : Fin 50000) d := by
  funext a; apply Fin.ext
  match a with
  | ⟨0, _⟩ => show win2_1.index t (0 : Fin 3) * 1 + 1 * ((0 : Fin 1) : Nat) = g.val; rw [e]; simp
  | ⟨1, _⟩ => show win2_1.index t (1 : Fin 3) * 5000 + 1 * n.val = 5000 * q.val + n.val; rw [e]; simp; omega
  | ⟨2, _⟩ => show win2_1.index t (2 : Fin 3) * 64 + 1 * d.val = d.val; rw [e]; simp

/-- A window whose one block is its whole array reads the array itself. -/
theorem whole2_2 (t : Fin cfg2.N) (e : win2_2.index t = ![0, 0]) :
    iblk2 (F := Ideal) V c 2 t = (V c main_v127 : Vec Ideal S64x64 .f32) := by
  funext j
  show (V c main_v127 : Vec Ideal S64x64 .f32) (((cfg2.win 2).blk t).view.emb j) = (V c main_v127 : Vec Ideal S64x64 .f32) j
  congr 1
  funext a; apply Fin.ext
  match a with
  | ⟨0, _⟩ => show win2_2.index t (0 : Fin 2) * 64 + 1 * (j 0).val = (j 0).val; rw [e]; simp
  | ⟨1, _⟩ => show win2_2.index t (1 : Fin 2) * 64 + 1 * (j 1).val = (j 1).val; rw [e]; simp

theorem whole2_3 (t : Fin cfg2.N) (e : win2_3.index t = ![0]) :
    iblk2 (F := Ideal) V c 3 t = (V c main_v129 : Vec Ideal S64 .f32) := by
  funext j
  show (V c main_v129 : Vec Ideal S64 .f32) (((cfg2.win 3).blk t).view.emb j) = (V c main_v129 : Vec Ideal S64 .f32) j
  congr 1
  funext a; apply Fin.ext
  match a with
  | ⟨0, _⟩ => show win2_3.index t (0 : Fin 1) * 64 + 1 * (j 0).val = (j 0).val; rw [e]; simp

theorem whole2_4 (t : Fin cfg2.N) (e : win2_4.index t = ![0, 0]) :
    iblk2 (F := Ideal) V c 4 t = (V c main_v131 : Vec Ideal S64x64 .f32) := by
  funext j
  show (V c main_v131 : Vec Ideal S64x64 .f32) (((cfg2.win 4).blk t).view.emb j) = (V c main_v131 : Vec Ideal S64x64 .f32) j
  congr 1
  funext a; apply Fin.ext
  match a with
  | ⟨0, _⟩ => show win2_4.index t (0 : Fin 2) * 64 + 1 * (j 0).val = (j 0).val; rw [e]; simp
  | ⟨1, _⟩ => show win2_4.index t (1 : Fin 2) * 64 + 1 * (j 1).val = (j 1).val; rw [e]; simp

theorem whole2_5 (t : Fin cfg2.N) (e : win2_5.index t = ![0]) :
    iblk2 (F := Ideal) V c 5 t = (V c main_v133 : Vec Ideal S64 .f32) := by
  funext j
  show (V c main_v133 : Vec Ideal S64 .f32) (((cfg2.win 5).blk t).view.emb j) = (V c main_v133 : Vec Ideal S64 .f32) j
  congr 1
  funext a; apply Fin.ext
  match a with
  | ⟨0, _⟩ => show win2_5.index t (0 : Fin 1) * 64 + 1 * (j 0).val = (j 0).val; rw [e]; simp

theorem whole2_6 (t : Fin cfg2.N) (e : win2_6.index t = ![0]) :
    iblk2 (F := Ideal) V c 6 t = (V c main_v135 : Vec Ideal S64 .f32) := by
  funext j
  show (V c main_v135 : Vec Ideal S64 .f32) (((cfg2.win 6).blk t).view.emb j) = (V c main_v135 : Vec Ideal S64 .f32) j
  congr 1
  funext a; apply Fin.ext
  match a with
  | ⟨0, _⟩ => show win2_6.index t (0 : Fin 1) * 64 + 1 * (j 0).val = (j 0).val; rw [e]; simp

theorem whole2_7 (t : Fin cfg2.N) (e : win2_7.index t = ![0]) :
    iblk2 (F := Ideal) V c 7 t = (V c main_v137 : Vec Ideal S64 .f32) := by
  funext j
  show (V c main_v137 : Vec Ideal S64 .f32) (((cfg2.win 7).blk t).view.emb j) = (V c main_v137 : Vec Ideal S64 .f32) j
  congr 1
  funext a; apply Fin.ext
  match a with
  | ⟨0, _⟩ => show win2_7.index t (0 : Fin 1) * 64 + 1 * (j 0).val = (j 0).val; rw [e]; simp

theorem whole2_8 (t : Fin cfg2.N) (e : win2_8.index t = ![0]) :
    iblk2 (F := Ideal) V c 8 t = (V c main_v139 : Vec Ideal S64 .f32) := by
  funext j
  show (V c main_v139 : Vec Ideal S64 .f32) (((cfg2.win 8).blk t).view.emb j) = (V c main_v139 : Vec Ideal S64 .f32) j
  congr 1
  funext a; apply Fin.ext
  match a with
  | ⟨0, _⟩ => show win2_8.index t (0 : Fin 1) * 64 + 1 * (j 0).val = (j 0).val; rw [e]; simp

theorem whole2_9 (t : Fin cfg2.N) (e : win2_9.index t = ![0]) :
    iblk2 (F := Ideal) V c 9 t = (V c main_v141 : Vec Ideal S64 .f32) := by
  funext j
  show (V c main_v141 : Vec Ideal S64 .f32) (((cfg2.win 9).blk t).view.emb j) = (V c main_v141 : Vec Ideal S64 .f32) j
  congr 1
  funext a; apply Fin.ext
  match a with
  | ⟨0, _⟩ => show win2_9.index t (0 : Fin 1) * 64 + 1 * (j 0).val = (j 0).val; rw [e]; simp

/-- What a point writes back is its block of the layer of the arrays the region finds. -/
theorem flushed2 (t : Fin cfg2.N) :
    (dat2 (F := Ideal) V c).flushed 10 t
      = ((cfg2.win 10).blk t).view.read (Elt Ideal)
          (layer3 (V c main_v98) (V c main_v125) (V c main_v127) (V c main_v129) (V c main_v131) (V c main_v133) (V c main_v135) (V c main_v137) (V c main_v139) (V c main_v141)) := by
  show (cfg2.win 10).cut (grid2.coords t) ((dat2 (F := Ideal) V c).after 10 t) = _
  rw [after2_10]
  obtain ⟨g, q, e10, e0, e1, e2, e3, e4, e5, e6, e7, e8, e9⟩ := index2 t
  funext j
  obtain ⟨n, d, rfl⟩ := blockIdx j
  refine (point2 (V c main_v98) (V c main_v125) (V c main_v127) (V c main_v129) (V c main_v131) (V c main_v133) (V c main_v135) (V c main_v137) (V c main_v139) (V c main_v141)
    _ _ _ _ _ _ _ _ _ _ g (⟨5000 * q.val + n.val, by omega⟩ : Fin 50000) n d (fun k => ?_) (fun k => ?_)
    (whole2_2 V c t e2) (whole2_3 V c t e3) (whole2_4 V c t e4) (whole2_5 V c t e5) (whole2_6 V c t e6) (whole2_7 V c t e7) (whole2_8 V c t e8) (whole2_9 V c t e9)).trans ?_
  · show (V c main_v98 : Arr3 2 50000 64) (((cfg2.win 0).blk t).view.emb (ix3 (0 : Fin 1) n k)) = _
    rw [emb2_0 t g q e0]
  · show (V c main_v125 : Arr3 2 50000 64) (((cfg2.win 1).blk t).view.emb (ix3 (0 : Fin 1) n k)) = _
    rw [emb2_1 t g q e1]
  · show _ = layer3 (V c main_v98) (V c main_v125) (V c main_v127) (V c main_v129) (V c main_v131) (V c main_v133) (V c main_v135) (V c main_v137) (V c main_v139) (V c main_v141)
        (((cfg2.win 10).blk t).view.emb (ix3 (0 : Fin 1) n d))
    rw [emb2_10 t g q e10]

/-- An index of the array is in a point's block iff each coordinate is in the block's range on its axis. -/
theorem mem_blk2 (t : Fin cfg2.N) (i : S2x50000x64.Idx) :
    i ∈ ((cfg2.win 10).blk t).view.set ↔ ∀ a : Fin 3, win2_10.index t a * S1x5000x64.size a ≤ (i a).val ∧ (i a).val < win2_10.index t a * S1x5000x64.size a + S1x5000x64.size a := by
  show i ∈ ((View.whole main_v142).slice (win2_10.rect t)).set ↔ _
  rw [View.set_slice_whole, Rect.mem_set_unit]
  exact Iff.rfl

/-- Row n of member g lies in the block of the point with block index (g, n / 5000, 0). -/
theorem cover2 (i : S2x50000x64.Idx) :
    ∃ t : Fin cfg2.N, (cfg2.win 10).flush t = true ∧ i ∈ ((cfg2.win 10).blk t).view.set := by
  have hi0 : (i 0).val < 2 := (i 0).isLt
  have hi1 : (i 1).val < 50000 := (i 1).isLt
  have hi2 : (i 2).val < 64 := (i 2).isLt
  obtain ⟨t, ht⟩ := onto2 ⟨(i 0).val, hi0⟩ ⟨(i 1).val / 5000, by omega⟩
  have q0 : win2_10.index t (0 : Fin 3) = (i 0).val := congrFun ht 0
  have q1 : win2_10.index t (1 : Fin 3) = (i 1).val / 5000 := congrFun ht 1
  have q2 : win2_10.index t (2 : Fin 3) = 0 := congrFun ht 2
  refine ⟨t, flush2_10 t, ?_⟩
  rw [mem_blk2]
  intro a
  match a with
  | ⟨0, _⟩ => show win2_10.index t (0 : Fin 3) * 1 ≤ (i 0).val ∧ (i 0).val < win2_10.index t (0 : Fin 3) * 1 + 1; omega
  | ⟨1, _⟩ => show win2_10.index t (1 : Fin 3) * 5000 ≤ (i 1).val ∧ (i 1).val < win2_10.index t (1 : Fin 3) * 5000 + 5000; omega
  | ⟨2, _⟩ => show win2_10.index t (2 : Fin 3) * 64 ≤ (i 2).val ∧ (i 2).val < win2_10.index t (2 : Fin 3) * 64 + 64; omega

end Region2

/-- What region 2's pipeline leaves in its output array: the layer, member by member, of the arrays the region finds. -/
theorem region2_value (V : (c : Dev nD) → (b : Ref sig .tc) → Buf (Elt Ideal) ((c : Thread nD τ).loc b)) (c : Dev nD) :
    (dat2 (F := Ideal) V c).arrAt 10 cfg2.N
      = layer3 (V c main_v98) (V c main_v125) (V c main_v127) (V c main_v129) (V c main_v131) (V c main_v133) (V c main_v135) (V c main_v137) (V c main_v139) (V c main_v141) :=
  (dat2 (F := Ideal) V c).arrAt_eq_of_cover 10 _ (fun t _ => flushed2 V c t) cover2

end Cert.Gin.Region

end
-- ==== Proof.HostTerms.lean ====
/-
  The reference's host spellings of a layer, of a layer's slice of the parameter arrays, of the head and of the
  relation rows, as functions of their operands (generic in the float values): what the reference's operations compose
  to, stretch by stretch. Each is shown elsewhere to be the row-by-row function of the specification.
-/
import proofs.«400857_j64622077935659_1_alg».proof.Proof.Gen.ReferenceIdeal
import proofs.«400857_j64622077935659_1_alg».proof.Proof.Spec

noncomputable section

namespace Cert.Gin.HostTerms

open Idealize.ShloMosaic Idealize.ShloMosaic.ValueIdx Cert.ReferenceIdeal Cert.ReferenceIdeal.Gen

variable {F : FTy → Type} [FloatOps F]

/-- A length-64 vector as a row, copied down the 50000 rows. -/
def rowB (b : FVec F S64 .f32) : FVec F S50000x64 .f32 :=
  broadcastInDim S50000x64 ![0, 1] bcast_S1x64_S50000x64_0_1 (broadcastInDim S1x64 ![1] bcast_S64_S1x64_1 b)

/-- The zero word copied over a node-feature array. -/
def zeros50000 : FVec F S50000x64 .f32 :=
  broadcastInDim S50000x64 ![] bcast_S_S50000x64 (constant S_ .f32 0x00000000#32)

/-- One layer as the host spells it, from the node features, the neighbour sums and the layer's own parameters. -/
def hostLayer (x agg : FVec F S50000x64 .f32) (w1 : FVec F S64x64 .f32) (b1 : FVec F S64 .f32) (w2 : FVec F S64x64 .f32)
    (b2 mean var gamma beta : FVec F S64 .f32) : FVec F S50000x64 .f32 :=
  maximumf (addf (mulf (mulf (subf (addf (Host.dotGeneral dot_S50000x64_S64x64_S50000x64_1_0_0_1_n_n none
      (maximumf (addf (Host.dotGeneral dot_S50000x64_S64x64_S50000x64_1_0_0_1_n_n none (addf x agg) w1) (rowB b1)) zeros50000) w2)
      (rowB b2)) (rowB mean))
      (rowB (Host.rsqrt (addf var (broadcastInDim S64 ![] bcast_S_S64 (constant S_ .f32 0x3727C5AC#32))))))
      (rowB gamma)) (rowB beta)) zeros50000

/-- Layer 0's matrix, sliced out of the three layers' and reshaped. -/
def hslW0 (W : FVec F S3x64x64 .f32) : FVec F S64x64 .f32 :=
  shapeCast S64x64 (extractStridedSlice S1x64x64 ![0, 0, 0] W slices_S3x64x64_S1x64x64_0_0_0) shapeCasts_S1x64x64_S64x64
/-- Layer 0's row, sliced out of the three layers' and reshaped. -/
def hslB0 (b : FVec F S3x64 .f32) : FVec F S64 .f32 :=
  shapeCast S64 (extractStridedSlice S1x64 ![0, 0] b slices_S3x64_S1x64_0_0) shapeCasts_S1x64_S64

/-- Layer 1's matrix, sliced out of the three layers' and reshaped. -/
def hslW1 (W : FVec F S3x64x64 .f32) : FVec F S64x64 .f32 :=
  shapeCast S64x64 (extractStridedSlice S1x64x64 ![1, 0, 0] W slices_S3x64x64_S1x64x64_1_0_0) shapeCasts_S1x64x64_S64x64
/-- Layer 1's row, sliced out of the three layers' and reshaped. -/
def hslB1 (b : FVec F S3x64 .f32) : FVec F S64 .f32 :=
  shapeCast S64 (extractStridedSlice S1x64 ![1, 0] b slices_S3x64_S1x64_1_0) shapeCasts_S1x64_S64

/-- Layer 2's matrix, sliced out of the three layers' and reshaped. -/
def hslW2 (W : FVec F S3x64x64 .f32) : FVec F S64x64 .f32 :=
  shapeCast S64x64 (extractStridedSlice S1x64x64 ![2, 0, 0] W slices_S3x64x64_S1x64x64_2_0_0) shapeCasts_S1x64x64_S64x64
/-- Layer 2's row, sliced out of the three layers' and reshaped. -/
def hslB2 (b : FVec F S3x64 .f32) : FVec F S64 .f32 :=
  shapeCast S64 (extractStridedSlice S1x64 ![2, 0] b slices_S3x64_S1x64_2_0) shapeCasts_S1x64_S64

/-- The head as the host spells it: the three row blocks joined along the columns, two dense maps with a positive part
    between them, the one-column result flattened. -/
def hostHead (g1 g2 : FVec F S1024x64 .f32) (r : FVec F S1024x128 .f32) (Wf1 : FVec F S256x64 .f32) (bf1 : FVec F S64 .f32)
    (Wf2 : FVec F S64x1 .f32) (bf2 : FVec F S1 .f32) : FVec F S1024 .f32 :=
  shapeCast S1024 (addf (Host.dotGeneral dot_S1024x64_S64x1_S1024x1_1_0_0_1_n_n none
      (maximumf (addf (Host.dotGeneral dot_S1024x256_S256x64_S1024x64_1_0_0_1_n_n none
          (concatenate S1024x256 1 [⟨S1024x64, g1⟩, ⟨S1024x64, g2⟩, ⟨S1024x128, r⟩] concatenates_S1024x64_S1024x64_S1024x128_S1024x256_d1) Wf1)
        (broadcastInDim S1024x64 ![0, 1] bcast_S1x64_S1024x64_0_1 (broadcastInDim S1x64 ![1] bcast_S64_S1x64_1 bf1)))
        (broadcastInDim S1024x64 ![] bcast_S_S1024x64 (constant S_ .f32 0x00000000#32))) Wf2)
      (broadcastInDim S1024x1 ![0, 1] bcast_S1x1_S1024x1_0_1 (broadcastInDim S1x1 ![1] bcast_S1_S1x1_1 bf2))) shapeCasts_S1024x1_S1024

/-- The relation rows as the host spells them: the labels flattened, a negative one wrapped by the table's height, as
    a column of gather indices into the table (every index kept inside the table). -/
def hostRelRows (kge : FVec F S86x128 .f32) (rel : IVec S1024x1 32) : FVec F S1024x128 .f32 :=
  Host.gather gather_S86x128_S1024x1_S1024x128_1_0_n_n_0_1_1128 kge
    (broadcastInDim S1024x1 ![0] bcast_S1024_S1024x1_0
      (select (cmpi .slt (shapeCast S1024 rel shapeCasts_S1024x1_S1024) (broadcastInDim S1024 ![] bcast_S_S1024 (constantI S_ 32 0#32)))
        (addi (shapeCast S1024 rel shapeCasts_S1024x1_S1024) (broadcastInDim S1024 ![] bcast_S_S1024 (constantI S_ 32 86#32)))
        (shapeCast S1024 rel shapeCasts_S1024x1_S1024)))

end Cert.Gin.HostTerms

end
-- ==== Proof.HeadEq.lean ====
/-
  The head of the network: every pair's score, in the final kernel and in the reference's host spelling.

  Row `g` of the three blocks laid end to end goes through a dense map, a positive part and a dense map onto one number.
  The final kernel forms the relation block itself, as the indicator row of the pair's label against the table; its
  three matrix products are plain products into a zero accumulator, its two bias vectors are viewed as rows and copied
  down the rows, and its one store covers the whole result. The region has one grid point and every window is the whole
  of its array, so the result array after the region is the body's result of the arrays the region finds. The
  reference spells the same row function with a host product and two broadcasts per bias.
-/
import proofs.«400857_j64622077935659_1_alg».proof.Proof.Gen.KernelIdeal.Frame
import proofs.«400857_j64622077935659_1_alg».proof.Proof.HostTerms
import proofs.«400857_j64622077935659_1_alg».proof.Proof.Spec
import proofs.«400857_j64622077935659_1_alg».proof.Proof.LibPlainMatmul
import Idealize.ShloMosaic.Lib.Pipeline.Value
import Idealize.ShloMosaic.Lib.ValueLayout
import Idealize.ShloMosaic.PureOps.Ideal.Laws
import Idealize.ShloMosaic.Lib.KernelVsHost

set_option maxRecDepth 16384

noncomputable section

namespace Cert.Gin.Head

open Idealize.ShloMosaic Idealize.ShloMosaic.ValueIdx Idealize.ShloMosaic.TcCoe Idealize.SL.Sem Cert.Gin

/-- The indicator of a label, as the kernel spells it: the compare bit widened to a word and converted. -/
theorem indicator_word (a b : BitVec 32) :
    (FloatOps.sitofp (F := Ideal) .f32 ((IntOp.cmpi .eq a b).setWidth 32) : EReal) = if a = b then (1 : EReal) else 0 := by
  by_cases h : a = b
  · have e : IntOp.cmpi .eq a b = 1#1 := by simp [IntOp.cmpi, h]
    rw [e, if_pos h]
    show ((((1#1 : BitVec 1).setWidth 32).toInt : ℝ) : EReal) = 1
    norm_num
  · have e : IntOp.cmpi .eq a b = 0#1 := by
      show BitVec.ofBool (a == b) = 0#1
      rw [show (a == b) = false from beq_eq_false_iff_ne.mpr h]; rfl
    rw [e, if_neg h]
    show ((((0#1 : BitVec 1).setWidth 32).toInt : ℝ) : EReal) = 0
    norm_num

open Cert.KernelIdeal Cert.KernelIdeal.Gen in
/-- The indicator row of pair `g`'s label against the table: the relation row, as a product. -/
theorem onehot_apply (v4 : IVec S1024x1 32) (v10 : FVec Ideal S86x128 .f32) (g : Fin 1024) (k : Fin 128) :
    matmul dot_S1024x86_S86x128_S1024x128_1_0_0_1_n_n none
      (sitofp .f32 (extui 32 (cmpi .eq (iota .tc S1024x86 32 [1] iota_S1024x86_d1_w32)
        (broadcastTo S1024x86 v4 broadcasts_S1024x1_S1024x86)) natLt_1_32) : FVec Ideal S1024x86 .f32)
      v10 (constant S1024x128 .f32 0x00000000#32) (ix2 g k)
    = oneHotEmbed v10 v4 (ix2 g k) := by
  refine (Cert.Lib.matmul_plain_zero_apply 1024 86 128 none _ v10 (ix2 g k)).trans ?_
  unfold oneHotEmbed
  refine Finset.sum_congr rfl fun q _ => ?_
  refine congrArg (· * v10 (ix2 q k)) ?_
  show FloatOps.sitofp (F := Ideal) .f32 ((IntOp.cmpi .eq (iota .tc S1024x86 32 [1] iota_S1024x86_d1_w32 (ix2 g q))
    (broadcastTo S1024x86 v4 broadcasts_S1024x1_S1024x86 (ix2 g q))).setWidth 32) = _
  rw [iota_single_apply, broadcastTo_apply v4 broadcasts_S1024x1_S1024x86 (ix2 g q) (ix2 g 0) (by
    intro a
    match a with
    | ⟨0, _⟩ => rfl
    | ⟨1, _⟩ => rfl)]
  exact indicator_word _ _

/-- Three row blocks joined along the columns, read in row `g`: the three rows laid end to end. -/
theorem cat_apply (a b : (⟨2, ![1024, 64]⟩ : Shape).Idx → EReal) (r : (⟨2, ![1024, 128]⟩ : Shape).Idx → EReal)
    (h : Shape.Concatenates [(⟨2, ![1024, 64]⟩ : Shape), ⟨2, ![1024, 64]⟩, ⟨2, ![1024, 128]⟩] ⟨2, ![1024, 256]⟩ 1)
    (g : Fin 1024) (k : Fin 256) :
    concatenate (⟨2, ![1024, 256]⟩ : Shape) 1 [⟨⟨2, ![1024, 64]⟩, a⟩, ⟨⟨2, ![1024, 64]⟩, b⟩, ⟨⟨2, ![1024, 128]⟩, r⟩] h (ix2 g k)
      = catRow (fun k => a (ix2 g k)) (fun k => b (ix2 g k)) (fun k => r (ix2 g k)) k := by
  unfold catRow
  split_ifs with h1 h2
  · refine concatenate_apply_piece (t := ⟨2, ![1024, 256]⟩) (1 : Fin 2) [⟨⟨2, ![1024, 64]⟩, a⟩, ⟨⟨2, ![1024, 64]⟩, b⟩, ⟨⟨2, ![1024, 128]⟩, r⟩] h (ix2 g k) 0 (Nat.zero_lt_succ _) _ a rfl rfl 0 rfl (ix2 g ⟨k.val, h1⟩) ?_ ?_
    · intro b' hb
      match b' with
      | ⟨0, _⟩ => rfl
      | ⟨1, _⟩ => exact absurd rfl hb
    · show 0 + k.val = k.val
      omega
  · refine concatenate_apply_piece (t := ⟨2, ![1024, 256]⟩) (1 : Fin 2) [⟨⟨2, ![1024, 64]⟩, a⟩, ⟨⟨2, ![1024, 64]⟩, b⟩, ⟨⟨2, ![1024, 128]⟩, r⟩] h (ix2 g k) 1 (Nat.succ_lt_succ (Nat.zero_lt_succ _)) _ b rfl rfl 64 rfl (ix2 g ⟨k.val - 64, by omega⟩) ?_ ?_
    · intro b' hb
      match b' with
      | ⟨0, _⟩ => rfl
      | ⟨1, _⟩ => exact absurd rfl hb
    · show 64 + (k.val - 64) = k.val
      omega
  · refine concatenate_apply_piece (t := ⟨2, ![1024, 256]⟩) (1 : Fin 2) [⟨⟨2, ![1024, 64]⟩, a⟩, ⟨⟨2, ![1024, 64]⟩, b⟩, ⟨⟨2, ![1024, 128]⟩, r⟩] h (ix2 g k) 2 (Nat.succ_lt_succ (Nat.succ_lt_succ (Nat.zero_lt_succ _))) _ r rfl rfl 128 rfl (ix2 g ⟨k.val - 128, by have := k.isLt; omega⟩) ?_ ?_
    · intro b' hb
      match b' with
      | ⟨0, _⟩ => rfl
      | ⟨1, _⟩ => exact absurd rfl hb
    · show 128 + (k.val - 128) = k.val
      omega

/-- A length-`N` vector viewed as a row and copied down the rows, read at `(g, j)`. -/
theorem biasRow_apply {α : Type} (N : ℕ) (bias : (⟨1, ![N]⟩ : Shape).Idx → α)
    (h1 : (⟨1, ![N]⟩ : Shape).ShapeCasts ⟨2, ![1, N]⟩) (hb : (⟨2, ![1, N]⟩ : Shape).Broadcasts ⟨2, ![1024, N]⟩)
    (g : Fin 1024) (j : Fin N) :
    broadcastTo ⟨2, ![1024, N]⟩ (shapeCast ⟨2, ![1, N]⟩ bias h1) hb (ix2 g j) = bias (ix1 j) := by
  have e1 := broadcastTo_apply (shapeCast ⟨2, ![1, N]⟩ bias h1) hb (ix2 g j) (ix2 (0 : Fin 1) j) (by
    intro a
    match a with
    | ⟨0, _⟩ => rfl
    | ⟨1, _⟩ =>
      show j.val = if N = 1 then 0 else j.val
      split
      · have := j.isLt; omega
      · rfl)
  have e2 := shapeCast_apply bias h1 (ix2 (0 : Fin 1) j) (ix1 j) (by
    rw [Shape.rowMajor_val_two, Shape.rowMajor_val_one]; show j.val = 0 * N + j.val; omega)
  exact e1.trans e2

/-- The host's spelling of the same: broadcast to a row, then down the rows. -/
theorem biasRowHost_apply {α : Type} (N : ℕ) (bias : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![1024, N]⟩ ![0, 1]) (g : Fin 1024) (j : Fin N) :
    broadcastInDim ⟨2, ![1024, N]⟩ ![0, 1] h2 (broadcastInDim ⟨2, ![1, N]⟩ ![1] h1 bias) (ix2 g j) = bias (ix1 j) := by
  refine (broadcastInDim_oneRow_apply h2 _ g j).trans ?_
  refine broadcastInDim_apply ![1] h1 bias (ix2 (0 : Fin 1) j) (ix1 j) ?_
  intro a
  match a with
  | ⟨0, _⟩ =>
    show j.val = if N = 1 then 0 else j.val
    split
    · have := j.isLt; omega
    · rfl

open Cert.KernelIdeal Cert.KernelIdeal.Gen in
/-- The kernel's hidden layer at `(g, j)`: row `g` through the dense map, then the positive part. -/
theorem hidden_apply (z : FVec Ideal S1024x256 .f32) (W : FVec Ideal S256x64 .f32) (b : FVec Ideal S64 .f32)
    (g : Fin 1024) (j : Fin 64) :
    maximumf (addf (matmul dot_S1024x256_S256x64_S1024x64_1_0_0_1_n_n none (truncf .bf16 z bitsLt_bf16_f32)
          (truncf .bf16 W bitsLt_bf16_f32) (constant S1024x64 .f32 0x00000000#32))
        (broadcastTo S1024x64 (shapeCast S1x64 b shapeCasts_S64_S1x64) broadcasts_S1x64_S1024x64))
      (broadcast S1024x64 (FloatOps.ofBits .f32 0x00000000#32)) (ix2 g j)
    = max (dense (fun k => z (ix2 g k)) W (fun j => b (ix1 j)) j) zeroR := by
  have e1 : matmul dot_S1024x256_S256x64_S1024x64_1_0_0_1_n_n none (truncf .bf16 z bitsLt_bf16_f32)
      (truncf .bf16 W bitsLt_bf16_f32) (constant S1024x64 .f32 0x00000000#32) (ix2 g j)
      = ∑ k : Fin 256, z (ix2 g k) * W (ix2 k j) :=
    Cert.Lib.matmul_plain_zero_apply 1024 256 64 none (truncf .bf16 z bitsLt_bf16_f32) (truncf .bf16 W bitsLt_bf16_f32) (ix2 g j)
  have e2 := biasRow_apply 64 b shapeCasts_S64_S1x64 broadcasts_S1x64_S1024x64 g j
  rw [maximumf_apply, addf_apply, broadcast_apply, e1, e2]
  rfl

open Cert.KernelIdeal Cert.KernelIdeal.Gen in
/-- The kernel's output layer at `(g, j)`: row `g` through the dense map onto one column. -/
theorem score_apply (h : FVec Ideal S1024x64 .f32) (W : FVec Ideal S64x1 .f32) (b : FVec Ideal S1 .f32)
    (g : Fin 1024) (j : Fin 1) :
    addf (matmul dot_S1024x64_S64x1_S1024x1_1_0_0_1_n_n none (truncf .bf16 h bitsLt_bf16_f32)
          (truncf .bf16 W bitsLt_bf16_f32) (constant S1024x1 .f32 0x00000000#32))
        (broadcastTo S1024x1 (shapeCast S1x1 b shapeCasts_S1_S1x1) broadcasts_S1x1_S1024x1) (ix2 g j)
    = dense (fun k => h (ix2 g k)) W (fun j => b (ix1 j)) j := by
  have e1 : matmul dot_S1024x64_S64x1_S1024x1_1_0_0_1_n_n none (truncf .bf16 h bitsLt_bf16_f32)
      (truncf .bf16 W bitsLt_bf16_f32) (constant S1024x1 .f32 0x00000000#32) (ix2 g j)
      = ∑ k : Fin 64, h (ix2 g k) * W (ix2 k j) :=
    Cert.Lib.matmul_plain_zero_apply 1024 64 1 none (truncf .bf16 h bitsLt_bf16_f32) (truncf .bf16 W bitsLt_bf16_f32) (ix2 g j)
  have e2 := biasRow_apply 1 b shapeCasts_S1_S1x1 broadcasts_S1x1_S1024x1 g j
  rw [addf_apply, e1, e2]
  rfl

open Cert.KernelIdeal Cert.KernelIdeal.Gen in
/-- The final kernel's payload at pair `g`. -/
theorem k3_pay1_apply (v0 v2 : Vec Ideal S1024x64 .f32) (v4 : Vec Ideal S1024x1 .i32) (v10 : Vec Ideal S86x128 .f32)
    (v14 : Vec Ideal S256x64 .f32) (v17 : Vec Ideal S64 .f32) (v24 : Vec Ideal S64x1 .f32) (v27 : Vec Ideal S1 .f32) (g : Fin 1024) :
    k3_pay1 (F := Ideal) v0 v2 v4 v10 v14 v17 v24 v27 (ix1 g) = head v0 v2 (oneHotEmbed v10 v4) v14 v17 v24 v27 (ix1 g) := by
  unfold k3_pay1
  refine (shapeCast_apply _ shapeCasts_S1024x1_S1024 (ix1 g) (ix2 g (0 : Fin 1)) ?_).trans ?_
  · rw [Shape.rowMajor_val_two, Shape.rowMajor_val_one]
    show g.val * 1 + 0 = g.val
    omega
  refine (score_apply _ v24 v27 g 0).trans ?_
  unfold head headRow
  refine congrArg (fun f : Fin 64 → EReal => dense f v24 (fun j => v27 (ix1 j)) 0) (funext fun j => ?_)
  refine (hidden_apply _ v14 v17 g j).trans ?_
  refine congrArg (fun f : Fin 256 → EReal => max (dense f v14 (fun j => v17 (ix1 j)) j) zeroR) (funext fun k => ?_)
  refine (cat_apply _ _ _ concatenates_S1024x64_S1024x64_S1024x128_S1024x256_d1 g k).trans ?_
  rw [shapeCast_self, shapeCast_self]
  refine congrArg (fun f : Fin 128 → EReal => catRow (fun k => v0 (ix2 g k)) (fun k => v2 (ix2 g k)) f k) (funext fun q => ?_)
  exact onehot_apply v4 v10 g q

/-- The zero offsets of a rank-one and of a rank-two access, as constant functions. -/
theorem zeros1 : (![0] : Fin 1 → Nat) = fun _ => 0 := funext fun a => by fin_cases a; rfl
theorem zeros2 : (![0, 0] : Fin 2 → Nat) = fun _ => 0 := funext fun a => by fin_cases a <;> rfl

/-- The final kernel's body at pair `g`: the pair's score from its two graph rows and the indicator-times-table row. -/
theorem out3_8_apply (x0 x1 : Vec Ideal Cert.KernelIdeal.S1024x64 .f32) (x2 : Vec Ideal Cert.KernelIdeal.S1024x1 .i32)
    (x3 : Vec Ideal Cert.KernelIdeal.S86x128 .f32) (x4 : Vec Ideal Cert.KernelIdeal.S256x64 .f32) (x5 : Vec Ideal Cert.KernelIdeal.S64 .f32)
    (x6 : Vec Ideal Cert.KernelIdeal.S64x1 .f32) (x7 : Vec Ideal Cert.KernelIdeal.S1 .f32) (g : Fin 1024) :
    Cert.KernelIdeal.Gen.out3_8 (F := Ideal) x0 x1 x2 x3 x4 x5 x6 x7 (ix1 g)
      = head x0 x1 (oneHotEmbed x3 x2) x4 x5 x6 x7 (ix1 g) := by
  unfold Cert.KernelIdeal.Gen.out3_8
  rw [View.canon_unit_zero zeros1]
  simp only [View.ld_unit_zero (S := Cert.KernelIdeal.S1024x64) zeros2, View.ld_unit_zero (S := Cert.KernelIdeal.S1024x1) zeros2,
    View.ld_unit_zero (S := Cert.KernelIdeal.S86x128) zeros2, View.ld_unit_zero (S := Cert.KernelIdeal.S256x64) zeros2,
    View.ld_unit_zero (S := Cert.KernelIdeal.S64) zeros1, View.ld_unit_zero (S := Cert.KernelIdeal.S64x1) zeros2,
    View.ld_unit_zero (S := Cert.KernelIdeal.S1) zeros1]
  exact k3_pay1_apply x0 x1 x2 x3 x4 x5 x6 x7 g

/-- The host's plain product at an index: the same sum along the contracted axis. -/
theorem hostDot_plain_apply {φ₁ φ₂ : FTy} (M K N : ℕ) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) :=
  (congrFun (matmul_zero_eq_dotGeneral (DotDims.plain M K N) none l r) j).symm.trans
    (Cert.Lib.matmul_plain_zero_apply M K N none l r j)

open Cert.ReferenceIdeal Cert.ReferenceIdeal.Gen in
/-- The host's hidden layer at `(g, j)`. -/
theorem hostHidden_apply (z : FVec Ideal S1024x256 .f32) (W : FVec Ideal S256x64 .f32) (b : FVec Ideal S64 .f32)
    (g : Fin 1024) (j : Fin 64) :
    maximumf (addf (Host.dotGeneral (F := Ideal) dot_S1024x256_S256x64_S1024x64_1_0_0_1_n_n none z W)
        (broadcastInDim S1024x64 ![0, 1] bcast_S1x64_S1024x64_0_1 (broadcastInDim S1x64 ![1] bcast_S64_S1x64_1 b)))
      (broadcastInDim S1024x64 ![] bcast_S_S1024x64 (constant (F := Ideal) S_ .f32 0x00000000#32)) (ix2 g j)
    = max (dense (fun k => z (ix2 g k)) W (fun j => b (ix1 j)) j) zeroR := by
  have e1 : Host.dotGeneral (F := Ideal) dot_S1024x256_S256x64_S1024x64_1_0_0_1_n_n none z W (ix2 g j)
      = ∑ k : Fin 256, z (ix2 g k) * W (ix2 k j) := hostDot_plain_apply 1024 256 64 z W (ix2 g j)
  have e2 := biasRowHost_apply 64 b bcast_S64_S1x64_1 bcast_S1x64_S1024x64_0_1 g j
  have e3 : broadcastInDim S1024x64 ![] bcast_S_S1024x64 (constant (F := Ideal) S_ .f32 0x00000000#32) (ix2 g j) = zeroR :=
    broadcastInDim_apply ![] bcast_S_S1024x64 _ (ix2 g j) ix0 (fun a => a.elim0)
  rw [maximumf_apply, addf_apply, e1, e2, e3]
  rfl

open Cert.ReferenceIdeal Cert.ReferenceIdeal.Gen in
/-- The host's output layer at `(g, j)`. -/
theorem hostScore_apply (h : FVec Ideal S1024x64 .f32) (W : FVec Ideal S64x1 .f32) (b : FVec Ideal S1 .f32)
    (g : Fin 1024) (j : Fin 1) :
    addf (Host.dotGeneral (F := Ideal) dot_S1024x64_S64x1_S1024x1_1_0_0_1_n_n none h W)
        (broadcastInDim S1024x1 ![0, 1] bcast_S1x1_S1024x1_0_1 (broadcastInDim S1x1 ![1] bcast_S1_S1x1_1 b)) (ix2 g j)
    = dense (fun k => h (ix2 g k)) W (fun j => b (ix1 j)) j := by
  have e1 : Host.dotGeneral (F := Ideal) dot_S1024x64_S64x1_S1024x1_1_0_0_1_n_n none h W (ix2 g j)
      = ∑ k : Fin 64, h (ix2 g k) * W (ix2 k j) := hostDot_plain_apply 1024 64 1 h W (ix2 g j)
  have e2 := biasRowHost_apply 1 b bcast_S1_S1x1_1 bcast_S1x1_S1024x1_0_1 g j
  rw [addf_apply, e1, e2]
  rfl

open Cert.ReferenceIdeal Cert.ReferenceIdeal.Gen in
/-- The host's spelling of the head at pair `g`. -/
theorem hostHead_apply (g1 g2 : FVec Ideal S1024x64 .f32) (r : FVec Ideal S1024x128 .f32)
    (Wf1 : FVec Ideal S256x64 .f32) (bf1 : FVec Ideal S64 .f32) (Wf2 : FVec Ideal S64x1 .f32) (bf2 : FVec Ideal S1 .f32)
    (g : Fin 1024) :
    HostTerms.hostHead (F := Ideal) g1 g2 r Wf1 bf1 Wf2 bf2 (ix1 g) = head g1 g2 r Wf1 bf1 Wf2 bf2 (ix1 g) := by
  unfold HostTerms.hostHead
  refine (shapeCast_apply _ shapeCasts_S1024x1_S1024 (ix1 g) (ix2 g (0 : Fin 1)) ?_).trans ?_
  · rw [Shape.rowMajor_val_two, Shape.rowMajor_val_one]
    show g.val * 1 + 0 = g.val
    omega
  refine (hostScore_apply _ Wf2 bf2 g 0).trans ?_
  unfold head headRow
  refine congrArg (fun f : Fin 64 → EReal => dense f Wf2 (fun j => bf2 (ix1 j)) 0) (funext fun j => ?_)
  refine (hostHidden_apply _ Wf1 bf1 g j).trans ?_
  refine congrArg (fun f : Fin 256 → EReal => max (dense f Wf1 (fun j => bf1 (ix1 j)) j) zeroR) (funext fun k => ?_)
  exact cat_apply g1 g2 r concatenates_S1024x64_S1024x64_S1024x128_S1024x256_d1 g k

/-- The host's spelling of the head is the head, pair by pair. -/
theorem hostHead_eq (g1 g2 : FVec Ideal Cert.ReferenceIdeal.S1024x64 .f32) (r : FVec Ideal Cert.ReferenceIdeal.S1024x128 .f32)
    (Wf1 : FVec Ideal Cert.ReferenceIdeal.S256x64 .f32) (bf1 : FVec Ideal Cert.ReferenceIdeal.S64 .f32)
    (Wf2 : FVec Ideal Cert.ReferenceIdeal.S64x1 .f32) (bf2 : FVec Ideal Cert.ReferenceIdeal.S1 .f32) :
    HostTerms.hostHead (F := Ideal) g1 g2 r Wf1 bf1 Wf2 bf2 = head g1 g2 r Wf1 bf1 Wf2 bf2 := by
  funext i
  obtain ⟨g, rfl⟩ : ∃ g : Fin 1024, i = ix1 g := ⟨i 0, eq_ix1 i⟩
  exact hostHead_apply g1 g2 r Wf1 bf1 Wf2 bf2 g

/-- The final kernel's body as one function of its eight operands. -/
theorem out3_8_eq (x0 x1 : Vec Ideal Cert.KernelIdeal.S1024x64 .f32) (x2 : Vec Ideal Cert.KernelIdeal.S1024x1 .i32)
    (x3 : Vec Ideal Cert.KernelIdeal.S86x128 .f32) (x4 : Vec Ideal Cert.KernelIdeal.S256x64 .f32) (x5 : Vec Ideal Cert.KernelIdeal.S64 .f32)
    (x6 : Vec Ideal Cert.KernelIdeal.S64x1 .f32) (x7 : Vec Ideal Cert.KernelIdeal.S1 .f32) :
    Cert.KernelIdeal.Gen.out3_8 (F := Ideal) x0 x1 x2 x3 x4 x5 x6 x7 = head x0 x1 (oneHotEmbed x3 x2) x4 x5 x6 x7 := by
  funext i
  obtain ⟨g, rfl⟩ : ∃ g : Fin 1024, i = ix1 g := ⟨i 0, eq_ix1 i⟩
  exact out3_8_apply x0 x1 x2 x3 x4 x5 x6 x7 g

section Region
open Cert.KernelIdeal Cert.KernelIdeal.Gen

variable (V : (c : Dev nD) → (b : Ref sig .tc) → Buf (Elt Ideal) ((c : Thread nD τ).loc b))

/-- The score array the final region computes from the arrays it finds. -/
abbrev scoreArr (c : Dev nD) : S1024.Idx → EReal :=
  head (V c main_v149) (V c main_v152) (oneHotEmbed (V c main_arg15) (V c main_arg6))
    (V c main_arg16) (V c main_arg17) (V c main_arg18) (V c main_arg19)

/-! The region has one point and every window's block index there is zero: each input block is its whole array. -/

theorem iblk3_0_eq (c : Dev nD) : (iblk3 V c 0 t3_0 : Vec Ideal S1024x64 .f32) = V c main_v149 := by
  unfold iblk3
  have hz' : (fun a => win3_0.index t3_0 a * main_v149.ty.shape.size a) = fun _ => 0 := funext fun a => by fin_cases a <;> decide
  exact Memref.read_access_unit_zero (Elt Ideal) main_v149 hz' (fun a => by rw [congrFun hz' a]; simp) (V c main_v149)

theorem iblk3_1_eq (c : Dev nD) : (iblk3 V c 1 t3_0 : Vec Ideal S1024x64 .f32) = V c main_v152 := by
  unfold iblk3
  have hz' : (fun a => win3_1.index t3_0 a * main_v152.ty.shape.size a) = fun _ => 0 := funext fun a => by fin_cases a <;> decide
  exact Memref.read_access_unit_zero (Elt Ideal) main_v152 hz' (fun a => by rw [congrFun hz' a]; simp) (V c main_v152)

theorem iblk3_2_eq (c : Dev nD) : (iblk3 V c 2 t3_0 : Vec Ideal S1024x1 .i32) = V c main_arg6 := by
  unfold iblk3
  have hz' : (fun a => win3_2.index t3_0 a * main_arg6.ty.shape.size a) = fun _ => 0 := funext fun a => by fin_cases a <;> decide
  exact Memref.read_access_unit_zero (Elt Ideal) main_arg6 hz' (fun a => by rw [congrFun hz' a]; simp) (V c main_arg6)

theorem iblk3_3_eq (c : Dev nD) : (iblk3 V c 3 t3_0 : Vec Ideal S86x128 .f32) = V c main_arg15 := by
  unfold iblk3
  have hz' : (fun a => win3_3.index t3_0 a * main_arg15.ty.shape.size a) = fun _ => 0 := funext fun a => by fin_cases a <;> decide
  exact Memref.read_access_unit_zero (Elt Ideal) main_arg15 hz' (fun a => by rw [congrFun hz' a]; simp) (V c main_arg15)

theorem iblk3_4_eq (c : Dev nD) : (iblk3 V c 4 t3_0 : Vec Ideal S256x64 .f32) = V c main_arg16 := by
  unfold iblk3
  have hz' : (fun a => win3_4.index t3_0 a * main_arg16.ty.shape.size a) = fun _ => 0 := funext fun a => by fin_cases a <;> decide
  exact Memref.read_access_unit_zero (Elt Ideal) main_arg16 hz' (fun a => by rw [congrFun hz' a]; simp) (V c main_arg16)

theorem iblk3_5_eq (c : Dev nD) : (iblk3 V c 5 t3_0 : Vec Ideal S64 .f32) = V c main_arg17 := by
  unfold iblk3
  have hz' : (fun a => win3_5.index t3_0 a * main_arg17.ty.shape.size a) = fun _ => 0 := funext fun a => by fin_cases a <;> decide
  exact Memref.read_access_unit_zero (Elt Ideal) main_arg17 hz' (fun a => by rw [congrFun hz' a]; simp) (V c main_arg17)

theorem iblk3_6_eq (c : Dev nD) : (iblk3 V c 6 t3_0 : Vec Ideal S64x1 .f32) = V c main_arg18 := by
  unfold iblk3
  have hz' : (fun a => win3_6.index t3_0 a * main_arg18.ty.shape.size a) = fun _ => 0 := funext fun a => by fin_cases a <;> decide
  exact Memref.read_access_unit_zero (Elt Ideal) main_arg18 hz' (fun a => by rw [congrFun hz' a]; simp) (V c main_arg18)

theorem iblk3_7_eq (c : Dev nD) : (iblk3 V c 7 t3_0 : Vec Ideal S1 .f32) = V c main_arg19 := by
  unfold iblk3
  have hz' : (fun a => win3_7.index t3_0 a * main_arg19.ty.shape.size a) = fun _ => 0 := funext fun a => by fin_cases a <;> decide
  exact Memref.read_access_unit_zero (Elt Ideal) main_arg19 hz' (fun a => by rw [congrFun hz' a]; simp) (V c main_arg19)

/-- What the one point writes back is the whole score array. -/
theorem flushed3_eq (c : Dev nD) (t : Fin cfg3.N) :
    (dat3 (F := Ideal) V c).flushed 8 t = ((cfg3.win 8).blk t).view.read (Elt Ideal) (scoreArr V c) := by
  obtain rfl := fin_N3 t
  show (cfg3.win 8).cut (grid3.coords t3_0) ((dat3 V c).after 8 t3_0) = _
  rw [after3_8]
  have hz' : (fun a => win3_8.index t3_0 a * main_v153.ty.shape.size a) = fun _ => 0 := funext fun a => by fin_cases a <;> decide
  refine Eq.trans ?_ (Memref.read_access_unit_zero (Elt Ideal) main_v153 hz' (fun a => by rw [congrFun hz' a]; simp) (scoreArr V c)).symm
  show (out3_8 (F := Ideal) (iblk3 V c 0 t3_0) (iblk3 V c 1 t3_0) (iblk3 V c 2 t3_0) (iblk3 V c 3 t3_0) (iblk3 V c 4 t3_0)
    (iblk3 V c 5 t3_0) (iblk3 V c 6 t3_0) (iblk3 V c 7 t3_0) : S1024.Idx → EReal) = scoreArr V c
  rw [iblk3_0_eq V c, iblk3_1_eq V c, iblk3_2_eq V c, iblk3_3_eq V c, iblk3_4_eq V c, iblk3_5_eq V c, iblk3_6_eq V c,
    iblk3_7_eq V c]
  exact out3_8_eq _ _ _ _ _ _ _ _

/-- The one point's block covers the result array, so the array ends holding the score array. -/
theorem arrAt3_eq (c : Dev nD) : (dat3 (F := Ideal) V c).arrAt 8 cfg3.N = scoreArr V c := by
  refine (dat3 (F := Ideal) V c).arrAt_eq_of_cover 8 (scoreArr V c) (fun t _ => flushed3_eq V c t) (fun i => ?_)
  refine ⟨t3_0, flush3_8 t3_0, ?_⟩
  show i ∈ ((View.whole main_v153).slice (win3_8.rect t3_0)).set
  rw [View.set_slice_whole, Rect.mem_set_unit]
  intro a
  have h0 : (i 0 : Nat) < 1024 := (i 0).isLt
  match a with
  | ⟨0, _⟩ =>
    show win3_8.index t3_0 0 * win3_8.size 0 ≤ (i 0 : Nat) ∧ (i 0 : Nat) < win3_8.index t3_0 0 * win3_8.size 0 + win3_8.xsize (grid3.coords t3_0) 0
    rw [show win3_8.index t3_0 0 * win3_8.size 0 = 0 from by decide +kernel, show win3_8.xsize (grid3.coords t3_0) 0 = 1024 from by decide +kernel]
    omega

end Region

/-- What the final region's pipeline leaves in its output array. -/
theorem region3_value (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat3 (F := Ideal) V c).arrAt 8 Cert.KernelIdeal.cfg3.N
      = head (V c Cert.KernelIdeal.main_v149) (V c Cert.KernelIdeal.main_v152)
          (oneHotEmbed (V c Cert.KernelIdeal.main_arg15) (V c Cert.KernelIdeal.main_arg6))
          (V c Cert.KernelIdeal.main_arg16) (V c Cert.KernelIdeal.main_arg17) (V c Cert.KernelIdeal.main_arg18) (V c Cert.KernelIdeal.main_arg19) := by
  exact arrAt3_eq V c

end Cert.Gin.Head

end
-- ==== Proof.KHostTerms.lean ====
/-
  The kernel program's host spellings between its pallas_calls, as functions of their operands (generic in the float
  values): two graphs' arrays stacked along a new leading axis and a member taken back out, the edge vectors, the
  neighbour sums and the pooling sums, and a layer's slice of the parameter arrays.
-/
import proofs.«400857_j64622077935659_1_alg».proof.Proof.Gen.KernelIdeal
import proofs.«400857_j64622077935659_1_alg».proof.Proof.Spec

noncomputable section

namespace Cert.Gin.KHost

open Idealize.ShloMosaic Idealize.ShloMosaic.ValueIdx Cert.KernelIdeal Cert.KernelIdeal.Gen

variable {F : FTy → Type} [FloatOps F]

/-- Two graphs' node arrays stacked along a new leading axis. -/
def kstack (a b : FVec F S50000x64 .f32) : FVec F S2x50000x64 .f32 :=
  concatenate S2x50000x64 0
    [⟨S1x50000x64, broadcastInDim S1x50000x64 ![1, 2] bcast_S50000x64_S1x50000x64_1_2 a⟩,
     ⟨S1x50000x64, broadcastInDim S1x50000x64 ![1, 2] bcast_S50000x64_S1x50000x64_1_2 b⟩]
    concatenates_S1x50000x64_S1x50000x64_S2x50000x64_d0

/-- Member 0 of a stack, sliced out and reshaped. -/
def kmember0 (X : FVec F S2x50000x64 .f32) : FVec F S50000x64 .f32 :=
  shapeCast S50000x64 (extractStridedSlice S1x50000x64 ![0, 0, 0] X slices_S2x50000x64_S1x50000x64_0_0_0) shapeCasts_S1x50000x64_S50000x64

/-- Member 1 of a stack, sliced out and reshaped. -/
def kmember1 (X : FVec F S2x50000x64 .f32) : FVec F S50000x64 .f32 :=
  shapeCast S50000x64 (extractStridedSlice S1x50000x64 ![1, 0, 0] X slices_S2x50000x64_S1x50000x64_1_0_0) shapeCasts_S1x50000x64_S50000x64

/-- The edges' sources and targets (rows 0 and 1 of the edge array), each as one vector. -/
def kedgeSrc (ei : IVec S2x800000 32) : IVec S800000 32 :=
  shapeCast S800000 (extractStridedSlice S1x800000 ![0, 0] ei slices_S2x800000_S1x800000_0_0) shapeCasts_S1x800000_S800000
def kedgeDst (ei : IVec S2x800000 32) : IVec S800000 32 :=
  shapeCast S800000 (extractStridedSlice S1x800000 ![1, 0] ei slices_S2x800000_S1x800000_1_0) shapeCasts_S1x800000_S800000

/-- The sources as gather indices: a negative one wrapped by the number of nodes, as a column. -/
def kwrap (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Each node's sum of its in-neighbours' rows. -/
def ksegsum (x : FVec F S50000x64 .f32) (src dst : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 x (kwrap src))

/-- The two graphs' neighbour sums, each of its own member of the stack, stacked again. -/
def kagg (X : FVec F S2x50000x64 .f32) (s1 d1 s2 d2 : IVec S800000 32) : FVec F S2x50000x64 .f32 :=
  kstack (ksegsum (kmember0 X) s1 d1) (ksegsum (kmember1 X) s2 d2)

/-- Each graph's sum of its nodes' rows. -/
def kpool (x : FVec F S50000x64 .f32) (batch : IVec S50000 32) : FVec F S1024x64 .f32 :=
  Host.scatterAdd scatter_S1024x64_S50000x1_S50000x64_1_0_0_1
    (broadcastInDim S1024x64 ![] bcast_S_S1024x64 (constant S_ .f32 0x00000000#32))
    (broadcastInDim S50000x1 ![0] bcast_S50000_S50000x1_0 batch) x

def khslW0 (W : FVec F S3x64x64 .f32) : FVec F S64x64 .f32 :=
  shapeCast S64x64 (extractStridedSlice S1x64x64 ![0, 0, 0] W slices_S3x64x64_S1x64x64_0_0_0) shapeCasts_S1x64x64_S64x64
def khslB0 (b : FVec F S3x64 .f32) : FVec F S64 .f32 :=
  shapeCast S64 (extractStridedSlice S1x64 ![0, 0] b slices_S3x64_S1x64_0_0) shapeCasts_S1x64_S64

def khslW1 (W : FVec F S3x64x64 .f32) : FVec F S64x64 .f32 :=
  shapeCast S64x64 (extractStridedSlice S1x64x64 ![1, 0, 0] W slices_S3x64x64_S1x64x64_1_0_0) shapeCasts_S1x64x64_S64x64
def khslB1 (b : FVec F S3x64 .f32) : FVec F S64 .f32 :=
  shapeCast S64 (extractStridedSlice S1x64 ![1, 0] b slices_S3x64_S1x64_1_0) shapeCasts_S1x64_S64

def khslW2 (W : FVec F S3x64x64 .f32) : FVec F S64x64 .f32 :=
  shapeCast S64x64 (extractStridedSlice S1x64x64 ![2, 0, 0] W slices_S3x64x64_S1x64x64_2_0_0) shapeCasts_S1x64x64_S64x64
def khslB2 (b : FVec F S3x64 .f32) : FVec F S64 .f32 :=
  shapeCast S64 (extractStridedSlice S1x64 ![2, 0] b slices_S3x64_S1x64_2_0) shapeCasts_S1x64_S64

end Cert.Gin.KHost

end
-- ==== Proof.KStretch.lean ====
import proofs.«400857_j64622077935659_1_alg».proof.Proof.Gen.KernelIdeal.Launch
import proofs.«400857_j64622077935659_1_alg».proof.Proof.KHostTerms
import Idealize.ShloMosaic.Lib.StableHlo.Run

set_option maxRecDepth 16384

noncomputable section

namespace Cert.Gin.KStretch

open Idealize.ShloMosaic Idealize.ShloMosaic.TcCoe Idealize.SL.Sem Idealize.ShloMosaic.StableHlo Cert.KernelIdeal Cert.KernelIdeal.Gen Cert.Gin.KHost

variable {F : FTy → Type} [FloatOps F] (W : Valuation τ sig (Elt F))

/-- A result reference among a list of references is, as a device buffer, among the list's device buffers. -/
theorem writes_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

/-- Two [1,50000,64] blocks joined along the leading axis, as a plain function of the two blocks. -/
def kcat (a b : FVec F S1x50000x64 .f32) : FVec F S2x50000x64 .f32 :=
  concatenate S2x50000x64 0 [⟨S1x50000x64, a⟩, ⟨S1x50000x64, b⟩] concatenates_S1x50000x64_S1x50000x64_S2x50000x64_d0

theorem kcat_eq (a b : FVec F S1x50000x64 .f32) :
    concatenate S2x50000x64 0 [⟨S1x50000x64, a⟩, ⟨S1x50000x64, b⟩] concatenates_S1x50000x64_S1x50000x64_S2x50000x64_d0 = kcat a b := rfl

/-! ## What each stretch writes -/

/-- The references the stretch before the first layer's call writes, one per operation, in order. -/
def wr0 : List (Ref sig .tc) :=
  [main_v0, main_v1, main_v2, main_v3, main_v4, main_v5, main_v6, main_v7, main_v8, main_v9, main_v10, main_v11, main_v12, main_c, main_v13, main_v14,
   main_c_0, main_v15, main_v16, main_v17, main_v18, main_v19, main_cst, main_v20, main_v21, main_v22, main_v23, main_v24, main_c_1, main_v25, main_v26,
   main_c_2, main_v27, main_v28, main_v29, main_v30, main_v31, main_cst_3, main_v32, main_v33, main_v34, main_v35, main_v36, main_v37, main_v38, main_v39,
   main_v40, main_v41, main_v42, main_v43, main_v44, main_v45, main_v46, main_v47, main_v48, main_v49, main_v50, main_v51, main_v52, main_v53]

theorem hostOps0_writes : (hostOps0 (F := F)).Forall fun op => op.writes ⊆ (wr0.map (Proc.devRef (τ := τ) .tc)).toFinset := by
  simp only [List.Forall, unary_writes, reshape_writes, binary_writes, nullary_writes, ternary_writes]
  repeat' apply And.intro
  all_goals exact writes_sub_of_mem (by decide)

/-- The references the stretch between the first and the second layer's calls writes, one per operation, in order. -/
def wr1 : List (Ref sig .tc) :=
  [main_v55, main_v56, main_c_4, main_v57, main_v58, main_c_5, main_v59, main_v60, main_v61, main_v62, main_v63, main_cst_6, main_v64, main_v65, main_v66,
   main_v67, main_v68, main_c_7, main_v69, main_v70, main_c_8, main_v71, main_v72, main_v73, main_v74, main_v75, main_cst_9, main_v76, main_v77, main_v78,
   main_v79, main_v80, main_v81, main_v82, main_v83, main_v84, main_v85, main_v86, main_v87, main_v88, main_v89, main_v90, main_v91, main_v92, main_v93,
   main_v94, main_v95, main_v96, main_v97]

theorem hostOps1_writes : (hostOps1 (F := F)).Forall fun op => op.writes ⊆ (wr1.map (Proc.devRef (τ := τ) .tc)).toFinset := by
  simp only [List.Forall, unary_writes, reshape_writes, nullary_writes, binary_writes, ternary_writes]
  repeat' apply And.intro
  all_goals exact writes_sub_of_mem (by decide)

/-- The references the stretch between the second and the third layer's calls writes, one per operation, in order. -/
def wr2 : List (Ref sig .tc) :=
  [main_v99, main_v100, main_c_10, main_v101, main_v102, main_c_11, main_v103, main_v104, main_v105, main_v106, main_v107, main_cst_12, main_v108,
   main_v109, main_v110, main_v111, main_v112, main_c_13, main_v113, main_v114, main_c_14, main_v115, main_v116, main_v117, main_v118, main_v119,
   main_cst_15, main_v120, main_v121, main_v122, main_v123, main_v124, main_v125, main_v126, main_v127, main_v128, main_v129, main_v130, main_v131,
   main_v132, main_v133, main_v134, main_v135, main_v136, main_v137, main_v138, main_v139, main_v140, main_v141]

theorem hostOps2_writes : (hostOps2 (F := F)).Forall fun op => op.writes ⊆ (wr2.map (Proc.devRef (τ := τ) .tc)).toFinset := by
  simp only [List.Forall, unary_writes, reshape_writes, nullary_writes, binary_writes, ternary_writes]
  repeat' apply And.intro
  all_goals exact writes_sub_of_mem (by decide)

/-- The references the stretch before the final call writes, one per operation, in order. -/
def wr3 : List (Ref sig .tc) :=
  [main_v143, main_v144, main_v145, main_v146, main_cst_16, main_v147, main_v148, main_v149, main_cst_17, main_v150, main_v151, main_v152]

theorem hostOps3_writes : (hostOps3 (F := F)).Forall fun op => op.writes ⊆ (wr3.map (Proc.devRef (τ := τ) .tc)).toFinset := by
  simp only [List.Forall, unary_writes, reshape_writes, nullary_writes, ternary_writes]
  repeat' apply And.intro
  all_goals exact writes_sub_of_mem (by decide)

/-! ## The stretch before the first layer's call -/

theorem stretch0_x : after (hostOps0 (F := F)) W (Proc.devRef .tc main_v10) = kstack (W (Proc.devRef .tc main_arg0)) (W (Proc.devRef .tc main_arg3)) := by
  show after (hostOps0 (F := F)) W (Proc.devRef .tc main_v10) = _
  after_results_simp
  simp only [kcat_eq]
  after_results_simp
  rfl

theorem stretch0_edges :
    after (hostOps0 (F := F)) W (Proc.devRef .tc main_v1) = kedgeSrc (W (Proc.devRef .tc main_arg1))
    ∧ after (hostOps0 (F := F)) W (Proc.devRef .tc main_v3) = kedgeDst (W (Proc.devRef .tc main_arg1))
    ∧ after (hostOps0 (F := F)) W (Proc.devRef .tc main_v5) = kedgeSrc (W (Proc.devRef .tc main_arg4))
    ∧ after (hostOps0 (F := F)) W (Proc.devRef .tc main_v7) = kedgeDst (W (Proc.devRef .tc main_arg4)) := by
  refine ⟨?_, ?_, ?_, ?_⟩
  · show after (hostOps0 (F := F)) W (Proc.devRef .tc main_v1) = _
    after_results_simp
    rfl
  · show after (hostOps0 (F := F)) W (Proc.devRef .tc main_v3) = _
    after_results_simp
    rfl
  · show after (hostOps0 (F := F)) W (Proc.devRef .tc main_v5) = _
    after_results_simp
    rfl
  · show after (hostOps0 (F := F)) W (Proc.devRef .tc main_v7) = _
    after_results_simp
    rfl

set_option maxHeartbeats 1000000 in
theorem stretch0_agg :
    after (hostOps0 (F := F)) W (Proc.devRef .tc main_v37)
      = kagg (kstack (W (Proc.devRef .tc main_arg0)) (W (Proc.devRef .tc main_arg3))) (kedgeSrc (W (Proc.devRef .tc main_arg1))) (kedgeDst (W (Proc.devRef .tc main_arg1)))
          (kedgeSrc (W (Proc.devRef .tc main_arg4))) (kedgeDst (W (Proc.devRef .tc main_arg4))) := by
  show after (hostOps0 (F := F)) W (Proc.devRef .tc main_v37) = _
  after_results_simp
  simp only [kcat_eq]
  after_results_simp
  rfl

set_option maxHeartbeats 1000000 in
theorem stretch0_params :
    after (hostOps0 (F := F)) W (Proc.devRef .tc main_v39) = khslW0 (W (Proc.devRef .tc main_arg7))
    ∧ after (hostOps0 (F := F)) W (Proc.devRef .tc main_v41) = khslB0 (W (Proc.devRef .tc main_arg8))
    ∧ after (hostOps0 (F := F)) W (Proc.devRef .tc main_v43) = khslW0 (W (Proc.devRef .tc main_arg9))
    ∧ after (hostOps0 (F := F)) W (Proc.devRef .tc main_v45) = khslB0 (W (Proc.devRef .tc main_arg10))
    ∧ after (hostOps0 (F := F)) W (Proc.devRef .tc main_v47) = khslB0 (W (Proc.devRef .tc main_arg13))
    ∧ after (hostOps0 (F := F)) W (Proc.devRef .tc main_v49) = khslB0 (W (Proc.devRef .tc main_arg14))
    ∧ after (hostOps0 (F := F)) W (Proc.devRef .tc main_v51) = khslB0 (W (Proc.devRef .tc main_arg11))
    ∧ after (hostOps0 (F := F)) W (Proc.devRef .tc main_v53) = khslB0 (W (Proc.devRef .tc main_arg12)) := by
  refine ⟨?_, ?_, ?_, ?_, ?_, ?_, ?_, ?_⟩
  · show after (hostOps0 (F := F)) W (Proc.devRef .tc main_v39) = _
    after_results_simp
    rfl
  · show after (hostOps0 (F := F)) W (Proc.devRef .tc main_v41) = _
    after_results_simp
    rfl
  · show after (hostOps0 (F := F)) W (Proc.devRef .tc main_v43) = _
    after_results_simp
    rfl
  · show after (hostOps0 (F := F)) W (Proc.devRef .tc main_v45) = _
    after_results_simp
    rfl
  · show after (hostOps0 (F := F)) W (Proc.devRef .tc main_v47) = _
    after_results_simp
    rfl
  · show after (hostOps0 (F := F)) W (Proc.devRef .tc main_v49) = _
    after_results_simp
    rfl
  · show after (hostOps0 (F := F)) W (Proc.devRef .tc main_v51) = _
    after_results_simp
    rfl
  · show after (hostOps0 (F := F)) W (Proc.devRef .tc main_v53) = _
    after_results_simp
    rfl

theorem stretch0_keep :
    after (hostOps0 (F := F)) W (Proc.devRef .tc main_arg0) = W (Proc.devRef .tc main_arg0)
    ∧ after (hostOps0 (F := F)) W (Proc.devRef .tc main_arg1) = W (Proc.devRef .tc main_arg1)
    ∧ after (hostOps0 (F := F)) W (Proc.devRef .tc main_arg2) = W (Proc.devRef .tc main_arg2)
    ∧ after (hostOps0 (F := F)) W (Proc.devRef .tc main_arg3) = W (Proc.devRef .tc main_arg3)
    ∧ after (hostOps0 (F := F)) W (Proc.devRef .tc main_arg4) = W (Proc.devRef .tc main_arg4)
    ∧ after (hostOps0 (F := F)) W (Proc.devRef .tc main_arg5) = W (Proc.devRef .tc main_arg5)
    ∧ after (hostOps0 (F := F)) W (Proc.devRef .tc main_arg6) = W (Proc.devRef .tc main_arg6)
    ∧ after (hostOps0 (F := F)) W (Proc.devRef .tc main_arg7) = W (Proc.devRef .tc main_arg7)
    ∧ after (hostOps0 (F := F)) W (Proc.devRef .tc main_arg8) = W (Proc.devRef .tc main_arg8)
    ∧ after (hostOps0 (F := F)) W (Proc.devRef .tc main_arg9) = W (Proc.devRef .tc main_arg9)
    ∧ after (hostOps0 (F := F)) W (Proc.devRef .tc main_arg10) = W (Proc.devRef .tc main_arg10)
    ∧ after (hostOps0 (F := F)) W (Proc.devRef .tc main_arg11) = W (Proc.devRef .tc main_arg11)
    ∧ after (hostOps0 (F := F)) W (Proc.devRef .tc main_arg12) = W (Proc.devRef .tc main_arg12)
    ∧ after (hostOps0 (F := F)) W (Proc.devRef .tc main_arg13) = W (Proc.devRef .tc main_arg13)
    ∧ after (hostOps0 (F := F)) W (Proc.devRef .tc main_arg14) = W (Proc.devRef .tc main_arg14)
    ∧ after (hostOps0 (F := F)) W (Proc.devRef .tc main_arg15) = W (Proc.devRef .tc main_arg15)
    ∧ after (hostOps0 (F := F)) W (Proc.devRef .tc main_arg16) = W (Proc.devRef .tc main_arg16)
    ∧ after (hostOps0 (F := F)) W (Proc.devRef .tc main_arg17) = W (Proc.devRef .tc main_arg17)
    ∧ after (hostOps0 (F := F)) W (Proc.devRef .tc main_arg18) = W (Proc.devRef .tc main_arg18)
    ∧ after (hostOps0 (F := F)) W (Proc.devRef .tc main_arg19) = W (Proc.devRef .tc main_arg19) := by
  refine ⟨?_, ?_, ?_, ?_, ?_, ?_, ?_, ?_, ?_, ?_, ?_, ?_, ?_, ?_, ?_, ?_, ?_, ?_, ?_, ?_⟩
  all_goals exact after_of_writes_sub _ W hostOps0_writes (by decide)

/-! ## The stretch between the first and the second layer's calls -/

set_option maxHeartbeats 1000000 in
theorem stretch1_agg :
    after (hostOps1 (F := F)) W (Proc.devRef .tc main_v81)
      = kagg (W (Proc.devRef .tc main_v54)) (W (Proc.devRef .tc main_v1)) (W (Proc.devRef .tc main_v3)) (W (Proc.devRef .tc main_v5)) (W (Proc.devRef .tc main_v7)) := by
  show after (hostOps1 (F := F)) W (Proc.devRef .tc main_v81) = _
  after_results_simp
  simp only [kcat_eq]
  after_results_simp
  rfl

set_option maxHeartbeats 1000000 in
theorem stretch1_params :
    after (hostOps1 (F := F)) W (Proc.devRef .tc main_v83) = khslW1 (W (Proc.devRef .tc main_arg7))
    ∧ after (hostOps1 (F := F)) W (Proc.devRef .tc main_v85) = khslB1 (W (Proc.devRef .tc main_arg8))
    ∧ after (hostOps1 (F := F)) W (Proc.devRef .tc main_v87) = khslW1 (W (Proc.devRef .tc main_arg9))
    ∧ after (hostOps1 (F := F)) W (Proc.devRef .tc main_v89) = khslB1 (W (Proc.devRef .tc main_arg10))
    ∧ after (hostOps1 (F := F)) W (Proc.devRef .tc main_v91) = khslB1 (W (Proc.devRef .tc main_arg13))
    ∧ after (hostOps1 (F := F)) W (Proc.devRef .tc main_v93) = khslB1 (W (Proc.devRef .tc main_arg14))
    ∧ after (hostOps1 (F := F)) W (Proc.devRef .tc main_v95) = khslB1 (W (Proc.devRef .tc main_arg11))
    ∧ after (hostOps1 (F := F)) W (Proc.devRef .tc main_v97) = khslB1 (W (Proc.devRef .tc main_arg12)) := by
  refine ⟨?_, ?_, ?_, ?_, ?_, ?_, ?_, ?_⟩
  · show after (hostOps1 (F := F)) W (Proc.devRef .tc main_v83) = _
    after_results_simp
    rfl
  · show after (hostOps1 (F := F)) W (Proc.devRef .tc main_v85) = _
    after_results_simp
    rfl
  · show after (hostOps1 (F := F)) W (Proc.devRef .tc main_v87) = _
    after_results_simp
    rfl
  · show after (hostOps1 (F := F)) W (Proc.devRef .tc main_v89) = _
    after_results_simp
    rfl
  · show after (hostOps1 (F := F)) W (Proc.devRef .tc main_v91) = _
    after_results_simp
    rfl
  · show after (hostOps1 (F := F)) W (Proc.devRef .tc main_v93) = _
    after_results_simp
    rfl
  · show after (hostOps1 (F := F)) W (Proc.devRef .tc main_v95) = _
    after_results_simp
    rfl
  · show after (hostOps1 (F := F)) W (Proc.devRef .tc main_v97) = _
    after_results_simp
    rfl

theorem stretch1_keep :
    after (hostOps1 (F := F)) W (Proc.devRef .tc main_v54) = W (Proc.devRef .tc main_v54)
    ∧ after (hostOps1 (F := F)) W (Proc.devRef .tc main_v1) = W (Proc.devRef .tc main_v1)
    ∧ after (hostOps1 (F := F)) W (Proc.devRef .tc main_v3) = W (Proc.devRef .tc main_v3)
    ∧ after (hostOps1 (F := F)) W (Proc.devRef .tc main_v5) = W (Proc.devRef .tc main_v5)
    ∧ after (hostOps1 (F := F)) W (Proc.devRef .tc main_v7) = W (Proc.devRef .tc main_v7)
    ∧ after (hostOps1 (F := F)) W (Proc.devRef .tc main_arg0) = W (Proc.devRef .tc main_arg0)
    ∧ after (hostOps1 (F := F)) W (Proc.devRef .tc main_arg1) = W (Proc.devRef .tc main_arg1)
    ∧ after (hostOps1 (F := F)) W (Proc.devRef .tc main_arg2) = W (Proc.devRef .tc main_arg2)
    ∧ after (hostOps1 (F := F)) W (Proc.devRef .tc main_arg3) = W (Proc.devRef .tc main_arg3)
    ∧ after (hostOps1 (F := F)) W (Proc.devRef .tc main_arg4) = W (Proc.devRef .tc main_arg4)
    ∧ after (hostOps1 (F := F)) W (Proc.devRef .tc main_arg5) = W (Proc.devRef .tc main_arg5)
    ∧ after (hostOps1 (F := F)) W (Proc.devRef .tc main_arg6) = W (Proc.devRef .tc main_arg6)
    ∧ after (hostOps1 (F := F)) W (Proc.devRef .tc main_arg7) = W (Proc.devRef .tc main_arg7)
    ∧ after (hostOps1 (F := F)) W (Proc.devRef .tc main_arg8) = W (Proc.devRef .tc main_arg8)
    ∧ after (hostOps1 (F := F)) W (Proc.devRef .tc main_arg9) = W (Proc.devRef .tc main_arg9)
    ∧ after (hostOps1 (F := F)) W (Proc.devRef .tc main_arg10) = W (Proc.devRef .tc main_arg10)
    ∧ after (hostOps1 (F := F)) W (Proc.devRef .tc main_arg11) = W (Proc.devRef .tc main_arg11)
    ∧ after (hostOps1 (F := F)) W (Proc.devRef .tc main_arg12) = W (Proc.devRef .tc main_arg12)
    ∧ after (hostOps1 (F := F)) W (Proc.devRef .tc main_arg13) = W (Proc.devRef .tc main_arg13)
    ∧ after (hostOps1 (F := F)) W (Proc.devRef .tc main_arg14) = W (Proc.devRef .tc main_arg14)
    ∧ after (hostOps1 (F := F)) W (Proc.devRef .tc main_arg15) = W (Proc.devRef .tc main_arg15)
    ∧ after (hostOps1 (F := F)) W (Proc.devRef .tc main_arg16) = W (Proc.devRef .tc main_arg16)
    ∧ after (hostOps1 (F := F)) W (Proc.devRef .tc main_arg17) = W (Proc.devRef .tc main_arg17)
    ∧ after (hostOps1 (F := F)) W (Proc.devRef .tc main_arg18) = W (Proc.devRef .tc main_arg18)
    ∧ after (hostOps1 (F := F)) W (Proc.devRef .tc main_arg19) = W (Proc.devRef .tc main_arg19) := by
  refine ⟨?_, ?_, ?_, ?_, ?_, ?_, ?_, ?_, ?_, ?_, ?_, ?_, ?_, ?_, ?_, ?_, ?_, ?_, ?_, ?_, ?_, ?_, ?_, ?_, ?_⟩
  all_goals exact after_of_writes_sub _ W hostOps1_writes (by decide)

/-! ## The stretch between the second and the third layer's calls -/

set_option maxHeartbeats 1000000 in
theorem stretch2_agg :
    after (hostOps2 (F := F)) W (Proc.devRef .tc main_v125)
      = kagg (W (Proc.devRef .tc main_v98)) (W (Proc.devRef .tc main_v1)) (W (Proc.devRef .tc main_v3)) (W (Proc.devRef .tc main_v5)) (W (Proc.devRef .tc main_v7)) := by
  show after (hostOps2 (F := F)) W (Proc.devRef .tc main_v125) = _
  after_results_simp
  simp only [kcat_eq]
  after_results_simp
  rfl

set_option maxHeartbeats 1000000 in
theorem stretch2_params :
    after (hostOps2 (F := F)) W (Proc.devRef .tc main_v127) = khslW2 (W (Proc.devRef .tc main_arg7))
    ∧ after (hostOps2 (F := F)) W (Proc.devRef .tc main_v129) = khslB2 (W (Proc.devRef .tc main_arg8))
    ∧ after (hostOps2 (F := F)) W (Proc.devRef .tc main_v131) = khslW2 (W (Proc.devRef .tc main_arg9))
    ∧ after (hostOps2 (F := F)) W (Proc.devRef .tc main_v133) = khslB2 (W (Proc.devRef .tc main_arg10))
    ∧ after (hostOps2 (F := F)) W (Proc.devRef .tc main_v135) = khslB2 (W (Proc.devRef .tc main_arg13))
    ∧ after (hostOps2 (F := F)) W (Proc.devRef .tc main_v137) = khslB2 (W (Proc.devRef .tc main_arg14))
    ∧ after (hostOps2 (F := F)) W (Proc.devRef .tc main_v139) = khslB2 (W (Proc.devRef .tc main_arg11))
    ∧ after (hostOps2 (F := F)) W (Proc.devRef .tc main_v141) = khslB2 (W (Proc.devRef .tc main_arg12)) := by
  refine ⟨?_, ?_, ?_, ?_, ?_, ?_, ?_, ?_⟩
  · show after (hostOps2 (F := F)) W (Proc.devRef .tc main_v127) = _
    after_results_simp
    rfl
  · show after (hostOps2 (F := F)) W (Proc.devRef .tc main_v129) = _
    after_results_simp
    rfl
  · show after (hostOps2 (F := F)) W (Proc.devRef .tc main_v131) = _
    after_results_simp
    rfl
  · show after (hostOps2 (F := F)) W (Proc.devRef .tc main_v133) = _
    after_results_simp
    rfl
  · show after (hostOps2 (F := F)) W (Proc.devRef .tc main_v135) = _
    after_results_simp
    rfl
  · show after (hostOps2 (F := F)) W (Proc.devRef .tc main_v137) = _
    after_results_simp
    rfl
  · show after (hostOps2 (F := F)) W (Proc.devRef .tc main_v139) = _
    after_results_simp
    rfl
  · show after (hostOps2 (F := F)) W (Proc.devRef .tc main_v141) = _
    after_results_simp
    rfl

theorem stretch2_keep :
    after (hostOps2 (F := F)) W (Proc.devRef .tc main_v98) = W (Proc.devRef .tc main_v98)
    ∧ after (hostOps2 (F := F)) W (Proc.devRef .tc main_v1) = W (Proc.devRef .tc main_v1)
    ∧ after (hostOps2 (F := F)) W (Proc.devRef .tc main_v3) = W (Proc.devRef .tc main_v3)
    ∧ after (hostOps2 (F := F)) W (Proc.devRef .tc main_v5) = W (Proc.devRef .tc main_v5)
    ∧ after (hostOps2 (F := F)) W (Proc.devRef .tc main_v7) = W (Proc.devRef .tc main_v7)
    ∧ after (hostOps2 (F := F)) W (Proc.devRef .tc main_arg0) = W (Proc.devRef .tc main_arg0)
    ∧ after (hostOps2 (F := F)) W (Proc.devRef .tc main_arg1) = W (Proc.devRef .tc main_arg1)
    ∧ after (hostOps2 (F := F)) W (Proc.devRef .tc main_arg2) = W (Proc.devRef .tc main_arg2)
    ∧ after (hostOps2 (F := F)) W (Proc.devRef .tc main_arg3) = W (Proc.devRef .tc main_arg3)
    ∧ after (hostOps2 (F := F)) W (Proc.devRef .tc main_arg4) = W (Proc.devRef .tc main_arg4)
    ∧ after (hostOps2 (F := F)) W (Proc.devRef .tc main_arg5) = W (Proc.devRef .tc main_arg5)
    ∧ after (hostOps2 (F := F)) W (Proc.devRef .tc main_arg6) = W (Proc.devRef .tc main_arg6)
    ∧ after (hostOps2 (F := F)) W (Proc.devRef .tc main_arg7) = W (Proc.devRef .tc main_arg7)
    ∧ after (hostOps2 (F := F)) W (Proc.devRef .tc main_arg8) = W (Proc.devRef .tc main_arg8)
    ∧ after (hostOps2 (F := F)) W (Proc.devRef .tc main_arg9) = W (Proc.devRef .tc main_arg9)
    ∧ after (hostOps2 (F := F)) W (Proc.devRef .tc main_arg10) = W (Proc.devRef .tc main_arg10)
    ∧ after (hostOps2 (F := F)) W (Proc.devRef .tc main_arg11) = W (Proc.devRef .tc main_arg11)
    ∧ after (hostOps2 (F := F)) W (Proc.devRef .tc main_arg12) = W (Proc.devRef .tc main_arg12)
    ∧ after (hostOps2 (F := F)) W (Proc.devRef .tc main_arg13) = W (Proc.devRef .tc main_arg13)
    ∧ after (hostOps2 (F := F)) W (Proc.devRef .tc main_arg14) = W (Proc.devRef .tc main_arg14)
    ∧ after (hostOps2 (F := F)) W (Proc.devRef .tc main_arg15) = W (Proc.devRef .tc main_arg15)
    ∧ after (hostOps2 (F := F)) W (Proc.devRef .tc main_arg16) = W (Proc.devRef .tc main_arg16)
    ∧ after (hostOps2 (F := F)) W (Proc.devRef .tc main_arg17) = W (Proc.devRef .tc main_arg17)
    ∧ after (hostOps2 (F := F)) W (Proc.devRef .tc main_arg18) = W (Proc.devRef .tc main_arg18)
    ∧ after (hostOps2 (F := F)) W (Proc.devRef .tc main_arg19) = W (Proc.devRef .tc main_arg19) := by
  refine ⟨?_, ?_, ?_, ?_, ?_, ?_, ?_, ?_, ?_, ?_, ?_, ?_, ?_, ?_, ?_, ?_, ?_, ?_, ?_, ?_, ?_, ?_, ?_, ?_, ?_⟩
  all_goals exact after_of_writes_sub _ W hostOps2_writes (by decide)

/-! ## The stretch before the final call: the two graphs' node rows pooled -/

theorem stretch3_pool :
    after (hostOps3 (F := F)) W (Proc.devRef .tc main_v149) = kpool (kmember0 (W (Proc.devRef .tc main_v142))) (W (Proc.devRef .tc main_arg2))
    ∧ after (hostOps3 (F := F)) W (Proc.devRef .tc main_v152) = kpool (kmember1 (W (Proc.devRef .tc main_v142))) (W (Proc.devRef .tc main_arg5)) := by
  refine ⟨?_, ?_⟩
  · show after (hostOps3 (F := F)) W (Proc.devRef .tc main_v149) = _
    after_results_simp
    rfl
  · show after (hostOps3 (F := F)) W (Proc.devRef .tc main_v152) = _
    after_results_simp
    rfl

theorem stretch3_keep :
    after (hostOps3 (F := F)) W (Proc.devRef .tc main_arg0) = W (Proc.devRef .tc main_arg0)
    ∧ after (hostOps3 (F := F)) W (Proc.devRef .tc main_arg1) = W (Proc.devRef .tc main_arg1)
    ∧ after (hostOps3 (F := F)) W (Proc.devRef .tc main_arg2) = W (Proc.devRef .tc main_arg2)
    ∧ after (hostOps3 (F := F)) W (Proc.devRef .tc main_arg3) = W (Proc.devRef .tc main_arg3)
    ∧ after (hostOps3 (F := F)) W (Proc.devRef .tc main_arg4) = W (Proc.devRef .tc main_arg4)
    ∧ after (hostOps3 (F := F)) W (Proc.devRef .tc main_arg5) = W (Proc.devRef .tc main_arg5)
    ∧ after (hostOps3 (F := F)) W (Proc.devRef .tc main_arg6) = W (Proc.devRef .tc main_arg6)
    ∧ after (hostOps3 (F := F)) W (Proc.devRef .tc main_arg7) = W (Proc.devRef .tc main_arg7)
    ∧ after (hostOps3 (F := F)) W (Proc.devRef .tc main_arg8) = W (Proc.devRef .tc main_arg8)
    ∧ after (hostOps3 (F := F)) W (Proc.devRef .tc main_arg9) = W (Proc.devRef .tc main_arg9)
    ∧ after (hostOps3 (F := F)) W (Proc.devRef .tc main_arg10) = W (Proc.devRef .tc main_arg10)
    ∧ after (hostOps3 (F := F)) W (Proc.devRef .tc main_arg11) = W (Proc.devRef .tc main_arg11)
    ∧ after (hostOps3 (F := F)) W (Proc.devRef .tc main_arg12) = W (Proc.devRef .tc main_arg12)
    ∧ after (hostOps3 (F := F)) W (Proc.devRef .tc main_arg13) = W (Proc.devRef .tc main_arg13)
    ∧ after (hostOps3 (F := F)) W (Proc.devRef .tc main_arg14) = W (Proc.devRef .tc main_arg14)
    ∧ after (hostOps3 (F := F)) W (Proc.devRef .tc main_arg15) = W (Proc.devRef .tc main_arg15)
    ∧ after (hostOps3 (F := F)) W (Proc.devRef .tc main_arg16) = W (Proc.devRef .tc main_arg16)
    ∧ after (hostOps3 (F := F)) W (Proc.devRef .tc main_arg17) = W (Proc.devRef .tc main_arg17)
    ∧ after (hostOps3 (F := F)) W (Proc.devRef .tc main_arg18) = W (Proc.devRef .tc main_arg18)
    ∧ after (hostOps3 (F := F)) W (Proc.devRef .tc main_arg19) = W (Proc.devRef .tc main_arg19) := by
  refine ⟨?_, ?_, ?_, ?_, ?_, ?_, ?_, ?_, ?_, ?_, ?_, ?_, ?_, ?_, ?_, ?_, ?_, ?_, ?_, ?_⟩
  all_goals exact after_of_writes_sub _ W hostOps3_writes (by decide)

end Cert.Gin.KStretch

end
-- ==== Proof.SpecHost.lean ====
/-
  The two programs' shared host chains, and the whole result as one function of the twenty argument arrays.

  Summing a graph's node rows into their edges' target nodes (`segsum`: a row gather by the edges' sources, negative
  sources wrapped and every index kept inside the array, then a scatter-add by the targets into zeros) and summing node
  rows into their graphs (`pool`) are spelt the same way in both programs, so they are carried as two opaque functions:
  nothing below depends on what they compute, only on both programs applying them to equal arrays.
-/
import proofs.«400857_j64622077935659_1_alg».proof.Proof.Gen.ReferenceIdeal
import proofs.«400857_j64622077935659_1_alg».proof.Proof.Spec

noncomputable section

namespace Cert.Gin

open Idealize.ShloMosaic Idealize.ShloMosaic.ValueIdx Cert.ReferenceIdeal Cert.ReferenceIdeal.Gen

section Chains
variable {F : FTy → Type} [FloatOps F]

/-- The edges' sources (row 0 of the edge array), as one vector. -/
def edgeSrc (ei : IVec S2x800000 32) : IVec S800000 32 :=
  shapeCast S800000 (extractStridedSlice S1x800000 ![0, 0] ei slices_S2x800000_S1x800000_0_0) shapeCasts_S1x800000_S800000

/-- The edges' targets (row 1 of the edge array), as one vector. -/
def edgeDst (ei : IVec S2x800000 32) : IVec S800000 32 :=
  shapeCast S800000 (extractStridedSlice S1x800000 ![1, 0] ei slices_S2x800000_S1x800000_1_0) shapeCasts_S1x800000_S800000

/-- The sources as gather indices: a negative one wrapped by the number of nodes, as a column. -/
def wrapSrc (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Each node's sum of its in-neighbours' rows. -/
def segsumOf (x : FVec F S50000x64 .f32) (src dst : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 x (wrapSrc src))

def segsum (x : FVec F S50000x64 .f32) (ei : IVec S2x800000 32) : FVec F S50000x64 .f32 :=
  segsumOf x (edgeSrc ei) (edgeDst ei)

/-- Each graph's sum of its nodes' rows. -/
def pool (x : FVec F S50000x64 .f32) (batch : IVec S50000 32) : FVec F S1024x64 .f32 :=
  Host.scatterAdd scatter_S1024x64_S50000x1_S50000x64_1_0_0_1
    (broadcastInDim S1024x64 ![] bcast_S_S1024x64 (constant S_ .f32 0x00000000#32))
    (broadcastInDim S50000x1 ![0] bcast_S50000_S50000x1_0 batch) x

end Chains

/-- Layer `l` on one graph: its own slice of every parameter array. -/
def step (ei : IVec S2x800000 32) (W1 : Arr3 3 64 64) (b1 : Arr2 3 64) (W2 : Arr3 3 64 64) (b2 gamma beta mean var : Arr2 3 64)
    (l : Fin 3) (x : Arr2 50000 64) : Arr2 50000 64 :=
  layer2 x (segsum (F := Ideal) x ei) (sliceW W1 l) (sliceB b1 l) (sliceW W2 l) (sliceB b2 l)
    (sliceB mean l) (sliceB var l) (sliceB gamma l) (sliceB beta l)

/-- The three layers on one graph. -/
def gin (x : Arr2 50000 64) (ei : IVec S2x800000 32) (W1 : Arr3 3 64 64) (b1 : Arr2 3 64) (W2 : Arr3 3 64 64)
    (b2 gamma beta mean var : Arr2 3 64) : Arr2 50000 64 :=
  step ei W1 b1 W2 b2 gamma beta mean var 2 (step ei W1 b1 W2 b2 gamma beta mean var 1 (step ei W1 b1 W2 b2 gamma beta mean var 0 x))

/-- Every pair's score, as a function of the twenty arguments in the programs' order. -/
def result (x1 : Arr2 50000 64) (ei1 : IVec S2x800000 32) (batch1 : IVec S50000 32)
    (x2 : Arr2 50000 64) (ei2 : IVec S2x800000 32) (batch2 : IVec S50000 32) (rel : IVec S1024x1 32)
    (W1 : Arr3 3 64 64) (b1 : Arr2 3 64) (W2 : Arr3 3 64 64) (b2 gamma beta mean var : Arr2 3 64)
    (kge : Arr2 86 128) (Wf1 : Arr2 256 64) (bf1 : Arr1 64) (Wf2 : Arr2 64 1) (bf2 : Arr1 1) : Arr1 1024 :=
  head (pool (F := Ideal) (gin x1 ei1 W1 b1 W2 b2 gamma beta mean var) batch1)
    (pool (F := Ideal) (gin x2 ei2 W1 b1 W2 b2 gamma beta mean var) batch2) (relEmbed kge rel) Wf1 bf1 Wf2 bf2

end Cert.Gin

end
-- ==== Proof.HostLayerEq.lean ====
import proofs.«400857_j64622077935659_1_alg».proof.Proof.HostTerms
import proofs.«400857_j64622077935659_1_alg».proof.Proof.Spec
import proofs.«400857_j64622077935659_1_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.Gin.HostEq

open Idealize.ShloMosaic Idealize.ShloMosaic.ValueIdx Cert.ReferenceIdeal Cert.ReferenceIdeal.Gen Cert.Gin Cert.Gin.HostTerms

/-- The printed dimension numbers are the plain ones: rows by the contracted axis against the contracted axis by columns. -/
theorem dot_plain : dot_S50000x64_S64x64_S50000x64_1_0_0_1_n_n = DotDims.plain 50000 64 64 := rfl

/-- The host's product at `(n, j)`: row `n` of the left operand against column `j` of the right, summed along the
    contracted axis. -/
theorem dot_apply (l : FVec Ideal S50000x64 .f32) (w : FVec Ideal S64x64 .f32) (n : Fin 50000) (j : Fin 64) :
    Host.dotGeneral dot_S50000x64_S64x64_S50000x64_1_0_0_1_n_n none l w (ix2 n j)
      = ∑ k : Fin 64, l (ix2 n k) * w (ix2 k j) := by
  show FloatOps.dotGeneral (DotDims.plain 50000 64 64) none .single l w (ix2 n j) = _
  rw [Ideal.dotGeneral_apply, ← Equiv.sum_comp (contrEquiv1 (DotDims.plain 50000 64 64) 64 rfl rfl).symm]
  refine Finset.sum_congr rfl fun k _ => ?_
  rw [Cert.Lib.plain_lhsIdx, Cert.Lib.plain_rhsIdx]
  rfl

/-- A vector laid as a row and copied down the rows reads, at `(n, d)`, the vector's entry `d`. -/
theorem rowB_apply (b : FVec Ideal S64 .f32) (n : Fin 50000) (d : Fin 64) : rowB (F := Ideal) b (ix2 n d) = b (ix1 d) := by
  unfold rowB
  refine (broadcastInDim_apply ![0, 1] bcast_S1x64_S50000x64_0_1 _ (ix2 n d) (ix2 (0 : Fin 1) d) (fun ax => ?_)).trans ?_
  · match ax with
    | ⟨0, _⟩ => rfl
    | ⟨1, _⟩ => rfl
  · exact broadcastInDim_apply ![1] bcast_S64_S1x64_1 b (ix2 (0 : Fin 1) d) (ix1 d) (fun ax => match ax with
      | ⟨0, _⟩ => rfl)

/-- The copied zero word reads the zero word everywhere. -/
theorem zeros50000_apply (i : S50000x64.Idx) : zeros50000 (F := Ideal) i = zeroR := by
  unfold zeros50000
  exact broadcastInDim_apply ![] bcast_S_S50000x64 _ i ix0 (fun ax => ax.elim0)

/-- The copied epsilon word reads the epsilon word everywhere. -/
theorem epsvec_apply (d : Fin 64) :
    broadcastInDim S64 ![] bcast_S_S64 (constant (F := Ideal) S_ .f32 0x3727C5AC#32) (ix1 d) = epsR :=
  broadcastInDim_apply ![] bcast_S_S64 _ (ix1 d) ix0 (fun ax => ax.elim0)

/-- The host's reciprocal square root of the shifted variance, at entry `d`. -/
theorem rsqrtvec_apply (var : FVec Ideal S64 .f32) (d : Fin 64) :
    Host.rsqrt (addf var (broadcastInDim S64 ![] bcast_S_S64 (constant S_ .f32 0x3727C5AC#32))) (ix1 d)
      = Ideal.rsqrt (var (ix1 d) + epsR) := by
  show Ideal.rsqrt (var (ix1 d) + broadcastInDim S64 ![] bcast_S_S64 (constant (F := Ideal) S_ .f32 0x3727C5AC#32) (ix1 d)) = _
  rw [epsvec_apply]

/-- The first dense map with its positive part, at `(n, k)`: the row `n` of the operand through `dense`, capped below. -/
theorem hidden_apply (h : FVec Ideal S50000x64 .f32) (w1 : FVec Ideal S64x64 .f32) (b1 : FVec Ideal S64 .f32)
    (n : Fin 50000) (k : Fin 64) :
    maximumf (addf (Host.dotGeneral dot_S50000x64_S64x64_S50000x64_1_0_0_1_n_n none h w1) (rowB b1)) zeros50000 (ix2 n k)
      = max (dense (fun k => h (ix2 n k)) w1 (fun j => b1 (ix1 j)) k) zeroR := by
  rw [maximumf_apply, addf_apply, dot_apply, rowB_apply, zeros50000_apply]
  rfl

/-- The host's spelling of a layer is the layer, row by row. -/
theorem hostLayer_eq (x agg : FVec Ideal S50000x64 .f32) (w1 : FVec Ideal S64x64 .f32) (b1 : FVec Ideal S64 .f32)
    (w2 : FVec Ideal S64x64 .f32) (b2 mean var gamma beta : FVec Ideal S64 .f32) :
    hostLayer (F := Ideal) x agg w1 b1 w2 b2 mean var gamma beta = layer2 x agg w1 b1 w2 b2 mean var gamma beta := by
  funext i
  obtain ⟨n, d, rfl⟩ : ∃ (n : Fin 50000) (d : Fin 64), i = ix2 n d := ⟨i 0, i 1, eq_ix2 i⟩
  have hsum : (∑ k : Fin 64, maximumf (addf (Host.dotGeneral dot_S50000x64_S64x64_S50000x64_1_0_0_1_n_n none (addf x agg) w1)
        (rowB b1)) zeros50000 (ix2 n k) * w2 (ix2 k d))
      = ∑ k : Fin 64, max (dense (fun k => x (ix2 n k) + agg (ix2 n k)) w1 (fun j => b1 (ix1 j)) k) zeroR * w2 (ix2 k d) :=
    Finset.sum_congr rfl fun k _ => by rw [hidden_apply]; rfl
  unfold hostLayer
  rw [maximumf_apply, addf_apply, mulf_apply, mulf_apply, subf_apply, addf_apply, dot_apply, zeros50000_apply, hsum]
  simp only [rowB_apply]
  rw [rsqrtvec_apply]
  rfl

/-- Layer `l`'s matrix cut out of the three layers' matrices at offset `o = l` and reshaped to a matrix reads, at
    `(a, b)`, the stacked array at `(l, a, b)`. -/
theorem sliceW_read (o : ℕ) (l : Fin 3) (ho : l.val = o) (W : FVec Ideal S3x64x64 .f32)
    (hs : S3x64x64.Slices ![o, 0, 0] S1x64x64) (hc : S1x64x64.ShapeCasts S64x64) :
    shapeCast S64x64 (extractStridedSlice S1x64x64 ![o, 0, 0] W hs) hc = sliceW W l := by
  funext q
  obtain ⟨a, b, rfl⟩ : ∃ (a : Fin 64) (b : Fin 64), q = ix2 a b := ⟨q 0, q 1, eq_ix2 q⟩
  refine (shapeCast_apply _ hc (ix2 a b) (ix3 (0 : Fin 1) a b) (by
    rw [Shape.rowMajor_val_three, Shape.rowMajor_val_two]
    show (0 * 64 + a.val) * 64 + b.val = a.val * 64 + b.val
    omega)).trans ?_
  exact extractStridedSlice_apply ![o, 0, 0] W hs (ix3 (0 : Fin 1) a b) (ix3 l a b) (fun ax => match ax with
    | ⟨0, _⟩ => by show l.val = o + 0; omega
    | ⟨1, _⟩ => by show a.val = 0 + a.val; omega
    | ⟨2, _⟩ => by show b.val = 0 + b.val; omega)

/-- Layer `l`'s row cut out of the three layers' rows at offset `o = l` and reshaped to a vector reads, at `a`, the
    stacked array at `(l, a)`. -/
theorem sliceB_read (o : ℕ) (l : Fin 3) (ho : l.val = o) (b : FVec Ideal S3x64 .f32)
    (hs : S3x64.Slices ![o, 0] S1x64) (hc : S1x64.ShapeCasts S64) :
    shapeCast S64 (extractStridedSlice S1x64 ![o, 0] b hs) hc = sliceB b l := by
  funext q
  obtain ⟨a, rfl⟩ : ∃ (a : Fin 64), q = ix1 a := ⟨q 0, eq_ix1 q⟩
  refine (shapeCast_apply _ hc (ix1 a) (ix2 (0 : Fin 1) a) (by
    rw [Shape.rowMajor_val_two, Shape.rowMajor_val_one]
    show 0 * 64 + a.val = a.val
    omega)).trans ?_
  exact extractStridedSlice_apply ![o, 0] b hs (ix2 (0 : Fin 1) a) (ix2 l a) (fun ax => match ax with
    | ⟨0, _⟩ => by show l.val = o + 0; omega
    | ⟨1, _⟩ => by show a.val = 0 + a.val; omega)

theorem hslW0_eq (W : FVec Ideal S3x64x64 .f32) : hslW0 (F := Ideal) W = sliceW W 0 :=
  sliceW_read 0 0 rfl W slices_S3x64x64_S1x64x64_0_0_0 shapeCasts_S1x64x64_S64x64

theorem hslB0_eq (b : FVec Ideal S3x64 .f32) : hslB0 (F := Ideal) b = sliceB b 0 :=
  sliceB_read 0 0 rfl b slices_S3x64_S1x64_0_0 shapeCasts_S1x64_S64

theorem hslW1_eq (W : FVec Ideal S3x64x64 .f32) : hslW1 (F := Ideal) W = sliceW W 1 :=
  sliceW_read 1 1 rfl W slices_S3x64x64_S1x64x64_1_0_0 shapeCasts_S1x64x64_S64x64

theorem hslB1_eq (b : FVec Ideal S3x64 .f32) : hslB1 (F := Ideal) b = sliceB b 1 :=
  sliceB_read 1 1 rfl b slices_S3x64_S1x64_1_0 shapeCasts_S1x64_S64

theorem hslW2_eq (W : FVec Ideal S3x64x64 .f32) : hslW2 (F := Ideal) W = sliceW W 2 :=
  sliceW_read 2 2 rfl W slices_S3x64x64_S1x64x64_2_0_0 shapeCasts_S1x64x64_S64x64

theorem hslB2_eq (b : FVec Ideal S3x64 .f32) : hslB2 (F := Ideal) b = sliceB b 2 :=
  sliceB_read 2 2 rfl b slices_S3x64_S1x64_2_0 shapeCasts_S1x64_S64

end Cert.Gin.HostEq

end
-- ==== Proof.KHostEq.lean ====
import proofs.«400857_j64622077935659_1_alg».proof.Proof.KHostTerms
import proofs.«400857_j64622077935659_1_alg».proof.Proof.SpecHost
import proofs.«400857_j64622077935659_1_alg».proof.Proof.HostLayerEq
import Idealize.ShloMosaic.Lib.Pipeline.Value
import Idealize.ShloMosaic.Lib.ValueLayout

set_option maxRecDepth 16384

noncomputable section

namespace Cert.Gin.KHostEq

open Idealize.ShloMosaic Idealize.ShloMosaic.ValueIdx Cert.KernelIdeal Cert.KernelIdeal.Gen Cert.Gin.KHost

/-- Member `g` cut out of a stack at offset `o = g` and reshaped to a matrix reads, at `(n, d)`, the stack at `(g, n, d)`. -/
theorem member_read (o : ℕ) (g : Fin 2) (ho : g.val = o) (X : FVec Ideal S2x50000x64 .f32)
    (hs : S2x50000x64.Slices ![o, 0, 0] S1x50000x64) (hc : S1x50000x64.ShapeCasts S50000x64) :
    shapeCast S50000x64 (extractStridedSlice S1x50000x64 ![o, 0, 0] X hs) hc = Cert.Gin.member X g := by
  funext q
  obtain ⟨n, d, rfl⟩ : ∃ (n : Fin 50000) (d : Fin 64), q = ix2 n d := ⟨q 0, q 1, eq_ix2 q⟩
  refine (shapeCast_apply _ hc (ix2 n d) (ix3 (0 : Fin 1) n d) (by
    rw [Shape.rowMajor_val_three, Shape.rowMajor_val_two]
    show (0 * 50000 + n.val) * 64 + d.val = n.val * 64 + d.val
    omega)).trans ?_
  exact extractStridedSlice_apply ![o, 0, 0] X hs (ix3 (0 : Fin 1) n d) (ix3 g n d) (fun ax => match ax with
    | ⟨0, _⟩ => by show g.val = o + 0; omega
    | ⟨1, _⟩ => by show n.val = 0 + n.val; omega
    | ⟨2, _⟩ => by show d.val = 0 + d.val; omega)

/-- A member sliced out of a stack and reshaped is the stack's member. -/
theorem kmember0_eq (X : FVec Ideal S2x50000x64 .f32) : kmember0 (F := Ideal) X = Cert.Gin.member X 0 :=
  member_read 0 0 rfl X slices_S2x50000x64_S1x50000x64_0_0_0 shapeCasts_S1x50000x64_S50000x64
theorem kmember1_eq (X : FVec Ideal S2x50000x64 .f32) : kmember1 (F := Ideal) X = Cert.Gin.member X 1 :=
  member_read 1 1 rfl X slices_S2x50000x64_S1x50000x64_1_0_0 shapeCasts_S1x50000x64_S50000x64

/-- An array given a leading unit axis reads, at `(0, n, d)`, the array at `(n, d)`. -/
theorem lead_apply (a : FVec Ideal S50000x64 .f32) (n : Fin 50000) (d : Fin 64) :
    broadcastInDim S1x50000x64 ![1, 2] bcast_S50000x64_S1x50000x64_1_2 a (ix3 (0 : Fin 1) n d) = a (ix2 n d) :=
  broadcastInDim_apply ![1, 2] bcast_S50000x64_S1x50000x64_1_2 a (ix3 (0 : Fin 1) n d) (ix2 n d) (fun ax => match ax with
    | ⟨0, _⟩ => rfl
    | ⟨1, _⟩ => rfl)

/-- The members of two arrays stacked are the two arrays. -/
theorem member_kstack0 (a b : FVec Ideal S50000x64 .f32) : Cert.Gin.member (kstack (F := Ideal) a b) 0 = a := by
  funext q
  obtain ⟨n, d, rfl⟩ : ∃ (n : Fin 50000) (d : Fin 64), q = ix2 n d := ⟨q 0, q 1, eq_ix2 q⟩
  show kstack (F := Ideal) a b (ix3 (0 : Fin 2) n d) = a (ix2 n d)
  unfold kstack
  refine (concatenate_pair_apply_left (t := S2x50000x64) (s₁ := S1x50000x64) (s₂ := S1x50000x64) (0 : Fin 3) _ _ concatenates_S1x50000x64_S1x50000x64_S2x50000x64_d0
    (ix3 (0 : Fin 2) n d) rfl (ix3 (0 : Fin 1) n d) (fun ax => match ax with
      | ⟨0, _⟩ => rfl
      | ⟨1, _⟩ => rfl
      | ⟨2, _⟩ => rfl)).trans ?_
  exact lead_apply a n d
theorem member_kstack1 (a b : FVec Ideal S50000x64 .f32) : Cert.Gin.member (kstack (F := Ideal) a b) 1 = b := by
  funext q
  obtain ⟨n, d, rfl⟩ : ∃ (n : Fin 50000) (d : Fin 64), q = ix2 n d := ⟨q 0, q 1, eq_ix2 q⟩
  show kstack (F := Ideal) a b (ix3 (1 : Fin 2) n d) = b (ix2 n d)
  unfold kstack
  refine (concatenate_pair_apply_right (t := S2x50000x64) (s₁ := S1x50000x64) (s₂ := S1x50000x64) (0 : Fin 3) _ _ concatenates_S1x50000x64_S1x50000x64_S2x50000x64_d0
    (ix3 (1 : Fin 2) n d) rfl rfl (ix3 (0 : Fin 1) n d) (fun ax hne => match ax, hne with
      | ⟨0, _⟩, hne => absurd rfl hne
      | ⟨1, _⟩, _ => rfl
      | ⟨2, _⟩, _ => rfl) rfl).trans ?_
  exact lead_apply b n d

/-- The kernel program's host chains are the reference's, operation for operation. -/
theorem kedgeSrc_eq (ei : IVec S2x800000 32) : kedgeSrc ei = Cert.Gin.edgeSrc ei := rfl
theorem kedgeDst_eq (ei : IVec S2x800000 32) : kedgeDst ei = Cert.Gin.edgeDst ei := rfl

section Generic
variable {F : FTy → Type} [FloatOps F]

/-- The neighbour sums and the pooling sums are the same terms in both programs, whatever the float values. -/
theorem ksegsum_eq' (x : FVec F S50000x64 .f32) (s d : IVec S800000 32) :
    ksegsum x s d = Cert.Gin.segsumOf x s d := rfl
theorem kpool_eq' (x : FVec F S50000x64 .f32) (batch : IVec S50000 32) :
    kpool x batch = Cert.Gin.pool x batch := rfl

end Generic

theorem ksegsum_eq (x : FVec Ideal S50000x64 .f32) (s d : IVec S800000 32) :
    ksegsum (F := Ideal) x s d = Cert.Gin.segsumOf (F := Ideal) x s d := ksegsum_eq' x s d
theorem kpool_eq (x : FVec Ideal S50000x64 .f32) (batch : IVec S50000 32) :
    kpool (F := Ideal) x batch = Cert.Gin.pool (F := Ideal) x batch := kpool_eq' x batch

theorem khslW0_eq (W : FVec Ideal S3x64x64 .f32) : khslW0 (F := Ideal) W = Cert.Gin.sliceW W 0 :=
  Cert.Gin.HostEq.sliceW_read 0 0 rfl W slices_S3x64x64_S1x64x64_0_0_0 shapeCasts_S1x64x64_S64x64
theorem khslB0_eq (b : FVec Ideal S3x64 .f32) : khslB0 (F := Ideal) b = Cert.Gin.sliceB b 0 :=
  Cert.Gin.HostEq.sliceB_read 0 0 rfl b slices_S3x64_S1x64_0_0 shapeCasts_S1x64_S64
theorem khslW1_eq (W : FVec Ideal S3x64x64 .f32) : khslW1 (F := Ideal) W = Cert.Gin.sliceW W 1 :=
  Cert.Gin.HostEq.sliceW_read 1 1 rfl W slices_S3x64x64_S1x64x64_1_0_0 shapeCasts_S1x64x64_S64x64
theorem khslB1_eq (b : FVec Ideal S3x64 .f32) : khslB1 (F := Ideal) b = Cert.Gin.sliceB b 1 :=
  Cert.Gin.HostEq.sliceB_read 1 1 rfl b slices_S3x64_S1x64_1_0 shapeCasts_S1x64_S64
theorem khslW2_eq (W : FVec Ideal S3x64x64 .f32) : khslW2 (F := Ideal) W = Cert.Gin.sliceW W 2 :=
  Cert.Gin.HostEq.sliceW_read 2 2 rfl W slices_S3x64x64_S1x64x64_2_0_0 shapeCasts_S1x64x64_S64x64
theorem khslB2_eq (b : FVec Ideal S3x64 .f32) : khslB2 (F := Ideal) b = Cert.Gin.sliceB b 2 :=
  Cert.Gin.HostEq.sliceB_read 2 2 rfl b slices_S3x64_S1x64_2_0 shapeCasts_S1x64_S64

end Cert.Gin.KHostEq

end
-- ==== Proof.RangeEq.lean ====
import proofs.«400857_j64622077935659_1_alg».proof.Proof.HostTerms
import proofs.«400857_j64622077935659_1_alg».proof.Proof.Spec
import proofs.«400857_j64622077935659_1_alg».proof.Proof.Gen.Pre_finite_inputs
import proofs.«400857_j64622077935659_1_alg».proof.Proof.Gen.KernelIdeal
import proofs.«400857_j64622077935659_1_alg».proof.Defs
import Idealize.ShloMosaic.Lib.Pipeline.Value
import Idealize.ShloMosaic.Lib.ReduceAll
import Idealize.ShloMosaic.Lib.StableHlo.Predicate

set_option maxRecDepth 16384

noncomputable section

namespace Cert.Gin.Range

open Idealize.ShloMosaic Idealize.ShloMosaic.ValueIdx Idealize.ShloMosaic.TcCoe Idealize.SL.Sem Cert.Gin

/-- A word that reads non-negative signed reads the same unsigned. -/
theorem toInt_eq_toNat_of_nonneg {w : BitVec 32} (h : 0 ≤ w.toInt) : w.toInt = w.toNat := by
  have hlt := w.isLt
  unfold BitVec.toInt at h ⊢
  split at h <;> split <;> omega

/-- A label inside the table is a row number below 86, signed or unsigned. -/
theorem toNat_lt_of_inRange {w : BitVec 32} (h0 : 0 ≤ w.toInt) (h1 : w.toInt < 86) : w.toNat < 86 := by
  have := toInt_eq_toNat_of_nonneg h0
  omega

/-- With every label inside the table, the indicator row against the table's rows picks the label's row. -/
theorem oneHotEmbed_eq (kge : Arr2 86 128) (rel : (⟨2, ![1024, 1]⟩ : Shape).Idx → BitVec 32) (h : InRange rel) :
    oneHotEmbed kge rel = relEmbed kge rel := by
  funext i
  obtain ⟨g, k, rfl⟩ : ∃ (g : Fin 1024) (k : Fin 128), i = ix2 g k := ⟨i 0, i 1, eq_ix2 i⟩
  obtain ⟨h0, h1⟩ := h g
  have hN : (rel (ix2 g 0)).toInt = ((rel (ix2 g 0)).toNat : Int) := toInt_eq_toNat_of_nonneg h0
  have hlt : (rel (ix2 g 0)).toNat < 86 := toNat_lt_of_inRange h0 h1
  show ∑ q : Fin 86, (if BitVec.ofNat 32 q.val = rel (ix2 g 0) then (1 : EReal) else 0) * kge (ix2 q k)
    = kge (ix2 ⟨min (rel (ix2 g 0)).toInt.toNat 85, by omega⟩ k)
  rw [Finset.sum_eq_single (⟨(rel (ix2 g 0)).toNat, hlt⟩ : Fin 86)]
  · rw [if_pos (by simp), one_mul]
    congr 2
    apply Fin.ext
    show (rel (ix2 g 0)).toNat = min (rel (ix2 g 0)).toInt.toNat 85
    rw [hN]; omega
  · intro q _ hq
    rw [if_neg, zero_mul]
    intro e
    apply hq
    apply Fin.ext
    show q.val = (rel (ix2 g 0)).toNat
    rw [← e, BitVec.toNat_ofNat]
    have := q.isLt
    omega
  · intro hmem
    exact absurd (Finset.mem_univ _) hmem

open Cert.ReferenceIdeal Cert.ReferenceIdeal.Gen in
/-- The row gather read at (g, k): the table's row at pair g's start index, read signed and kept inside the table, at column k. -/
theorem gather_rows_apply {α : Type} {w : Nat} (x : S86x128.Idx → α) (idx : IVec S1024x1 w) (g : Fin 1024) (k : Fin 128) :
    Host.gather gather_S86x128_S1024x1_S1024x128_1_0_n_n_0_1_1128 x idx (ix2 g k)
      = x (ix2 ⟨min (idx (ix2 g 0)).toInt.toNat 85, by omega⟩ k) := by
  unfold Host.gather
  congr 1
  funext a
  refine Fin.ext ?_
  match a with
  | ⟨0, _⟩ =>
    show gather_S86x128_S1024x1_S1024x128_1_0_n_n_0_1_1128.start (ix2 g k) idx 0
      + gather_S86x128_S1024x1_S1024x128_1_0_n_n_0_1_1128.batchCoord (ix2 g k) 0
      + gather_S86x128_S1024x1_S1024x128_1_0_n_n_0_1_1128.offCoord (ix2 g k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S86x128_S1024x1_S1024x128_1_0_n_n_0_1_1128.startIndexMap from List.mem_singleton.mpr rfl)]
    have hsi : gather_S86x128_S1024x1_S1024x128_1_0_n_n_0_1_1128.siIdx (ix2 g k)
        ⟨List.idxOf (0 : Fin 2) gather_S86x128_S1024x1_S1024x128_1_0_n_n_0_1_1128.startIndexMap,
          List.idxOf_lt_length_iff.2 (List.mem_singleton.mpr rfl)⟩ = ix2 g 0 := by
      funext b; refine Fin.ext ?_
      match b with
      | ⟨0, _⟩ => rfl
      | ⟨1, _⟩ => rfl
    rw [hsi]
    rfl
  | ⟨1, _⟩ =>
    show gather_S86x128_S1024x1_S1024x128_1_0_n_n_0_1_1128.start (ix2 g k) idx 1
      + gather_S86x128_S1024x1_S1024x128_1_0_n_n_0_1_1128.batchCoord (ix2 g k) 1
      + gather_S86x128_S1024x1_S1024x128_1_0_n_n_0_1_1128.offCoord (ix2 g k) 1 = k.val
    rw [GatherDims.batchCoord_eq_zero _ _ _ List.not_mem_nil]
    unfold GatherDims.start
    rw [dif_neg (show (1 : Fin 2) ∉ gather_S86x128_S1024x1_S1024x128_1_0_n_n_0_1_1128.startIndexMap from by decide)]
    simp only [Nat.add_zero, Nat.zero_add]
    unfold GatherDims.offCoord
    rw [dif_pos (show (1 : Fin 2) ∈ gather_S86x128_S1024x1_S1024x128_1_0_n_n_0_1_1128.sKept from by decide)]
    rfl

/-- A non-negative word is not below zero: the signed compare against the zero word is the bit 0. -/
theorem cmpi_slt_zero_of_nonneg {w : BitVec 32} (h : 0 ≤ w.toInt) : IntOp.cmpi .slt w 0#32 = 0#1 := by
  refine eq_zero_of_ne_one fun e => ?_
  have := IntOp.cmpi_slt.1 e
  have h0 : (0#32 : BitVec 32).toInt = 0 := by decide
  omega

open Cert.ReferenceIdeal Cert.ReferenceIdeal.Gen in
/-- The host's column of start indices at pair g: the flattened label, wrapped by the table's height only when negative,
    so a non-negative label itself. -/
theorem hostIdx_apply (rel : IVec S1024x1 32) (g : Fin 1024) (h0 : 0 ≤ (rel (ix2 g 0)).toInt) :
    broadcastInDim S1024x1 ![0] bcast_S1024_S1024x1_0
      (select (cmpi .slt (shapeCast S1024 rel shapeCasts_S1024x1_S1024) (broadcastInDim S1024 ![] bcast_S_S1024 (constantI S_ 32 0#32)))
        (addi (shapeCast S1024 rel shapeCasts_S1024x1_S1024) (broadcastInDim S1024 ![] bcast_S_S1024 (constantI S_ 32 86#32)))
        (shapeCast S1024 rel shapeCasts_S1024x1_S1024)) (ix2 g 0) = rel (ix2 g 0) := by
  have hcast : shapeCast S1024 rel shapeCasts_S1024x1_S1024 (ix1 g) = rel (ix2 g 0) :=
    shapeCast_apply rel _ (ix1 g) (ix2 g 0) (by
      rw [Shape.rowMajor_val_one, Shape.rowMajor_val_two]
      show g.val * 1 + 0 = g.val
      omega)
  refine (broadcastInDim_apply _ _ _ (ix2 g 0) (ix1 g) (fun a => by
    obtain rfl : a = 0 := Subsingleton.elim _ _
    rfl)).trans ?_
  rw [select_apply]
  show Scalar.select (IntOp.cmpi .slt (shapeCast S1024 rel _ (ix1 g)) 0#32) _ (shapeCast S1024 rel _ (ix1 g)) = _
  rw [hcast, cmpi_slt_zero_of_nonneg h0, select_zero]

/-- With every label non-negative (and inside the table), the host's wrapped and bounded gather reads the label's row. -/
theorem hostRelRows_eq (kge : FVec Ideal Cert.ReferenceIdeal.S86x128 .f32) (rel : IVec Cert.ReferenceIdeal.S1024x1 32) (h : InRange rel) :
    HostTerms.hostRelRows (F := Ideal) kge rel = relEmbed kge rel := by
  funext i
  obtain ⟨g, k, rfl⟩ : ∃ (g : Fin 1024) (k : Fin 128), i = ix2 g k := ⟨i 0, i 1, eq_ix2 i⟩
  unfold HostTerms.hostRelRows
  refine (gather_rows_apply _ _ g k).trans ?_
  exact congrArg (fun w : BitVec 32 => kge (ix2 ⟨min w.toInt.toNat 85, by omega⟩ k)) (hostIdx_apply rel g (h g).1)

/-- The last stretch of the printed precondition, decoded: when it is the bit 1 at its one index, every label is at
    least 0 and below 86, read signed. -/
theorem inRange_of_part4 [hPre : Cert.Pre_finite_inputs.Facts] (rel : IVec Cert.Pre_finite_inputs.S1024x1 32)
    (b : FVec Ideal Cert.Pre_finite_inputs.S1 .f32) (u v : IVec Cert.Pre_finite_inputs.S_ 1)
    (e : Cert.Pre_finite_inputs.fn_part4 (F := Ideal) rel b u v ix0 = 1#1) : InRange rel := by
  haveI : Subsingleton Cert.Pre_finite_inputs.S_.Idx := ⟨fun a b => funext fun d => d.elim0⟩
  unfold Cert.Pre_finite_inputs.fn_part4 at e
  dsimp only at e
  obtain ⟨e1, elt⟩ := IntOp.andi_eq_one.1 e
  obtain ⟨-, ege⟩ := IntOp.andi_eq_one.1 e1
  intro g
  have hge := Host.reduce_andi_all _ _ _ _ ix0 ege (ix2 g 0)
  have hlt := Host.reduce_andi_all _ _ _ _ ix0 elt (ix2 g 0)
  have h0 : (0#32 : BitVec 32).toInt = 0 := by decide
  have h86 : (86#32 : BitVec 32).toInt = 86 := by decide
  have a := IntOp.cmpi_sge.1 hge
  have c := IntOp.cmpi_slt.1 hlt
  exact ⟨h0 ▸ a, h86 ▸ c⟩

/-- The precondition's last two conjuncts: every relation label of the launch memory is an index into the table. -/
theorem inRange_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg6)) := by
  have e := congrFun (h c) ix0
  exact inRange_of_part4 _ _ _ _ e

end Cert.Gin.Range

end
-- ==== Proof.KAlg.lean ====
import proofs.«400857_j64622077935659_1_alg».proof.Proof.KHostTerms
import proofs.«400857_j64622077935659_1_alg».proof.Proof.KHostEq
import proofs.«400857_j64622077935659_1_alg».proof.Proof.SpecHost
import proofs.«400857_j64622077935659_1_alg».proof.Proof.RangeEq

set_option maxRecDepth 16384

noncomputable section

namespace Cert.Gin.KAlg

open Idealize.ShloMosaic Idealize.ShloMosaic.ValueIdx Cert.KernelIdeal Cert.KernelIdeal.Gen Cert.Gin Cert.Gin.KHost

/-- What the kernel program computes, as its own spellings compose: the two graphs stacked, three times the stacked
    layer on the stack with the stacked neighbour sums of its members, each member pooled, and the head on the pooled
    rows with the relation rows spelt as an indicator product. -/
def kernelResult (x1 : FVec Ideal S50000x64 .f32) (ei1 : IVec S2x800000 32) (batch1 : IVec S50000 32)
    (x2 : FVec Ideal S50000x64 .f32) (ei2 : IVec S2x800000 32) (batch2 : IVec S50000 32) (rel : IVec S1024x1 32)
    (W1 : FVec Ideal S3x64x64 .f32) (b1 : FVec Ideal S3x64 .f32) (W2 : FVec Ideal S3x64x64 .f32)
    (b2 gamma beta mean var : FVec Ideal S3x64 .f32)
    (kge : FVec Ideal S86x128 .f32) (Wf1 : FVec Ideal S256x64 .f32) (bf1 : FVec Ideal S64 .f32) (Wf2 : FVec Ideal S64x1 .f32)
    (bf2 : FVec Ideal S1 .f32) : FVec Ideal S1024 .f32 :=
  let agg := fun X : FVec Ideal S2x50000x64 .f32 => kagg (F := Ideal) X (kedgeSrc ei1) (kedgeDst ei1) (kedgeSrc ei2) (kedgeDst ei2)
  let X0 : FVec Ideal S2x50000x64 .f32 := kstack (F := Ideal) x1 x2
  let X1 : FVec Ideal S2x50000x64 .f32 := layer3 X0 (agg X0) (khslW0 (F := Ideal) W1) (khslB0 (F := Ideal) b1) (khslW0 (F := Ideal) W2) (khslB0 (F := Ideal) b2)
    (khslB0 (F := Ideal) mean) (khslB0 (F := Ideal) var) (khslB0 (F := Ideal) gamma) (khslB0 (F := Ideal) beta)
  let X2 : FVec Ideal S2x50000x64 .f32 := layer3 X1 (agg X1) (khslW1 (F := Ideal) W1) (khslB1 (F := Ideal) b1) (khslW1 (F := Ideal) W2) (khslB1 (F := Ideal) b2)
    (khslB1 (F := Ideal) mean) (khslB1 (F := Ideal) var) (khslB1 (F := Ideal) gamma) (khslB1 (F := Ideal) beta)
  let X3 : FVec Ideal S2x50000x64 .f32 := layer3 X2 (agg X2) (khslW2 (F := Ideal) W1) (khslB2 (F := Ideal) b1) (khslW2 (F := Ideal) W2) (khslB2 (F := Ideal) b2)
    (khslB2 (F := Ideal) mean) (khslB2 (F := Ideal) var) (khslB2 (F := Ideal) gamma) (khslB2 (F := Ideal) beta)
  head (kpool (F := Ideal) (kmember0 (F := Ideal) X3) batch1) (kpool (F := Ideal) (kmember1 (F := Ideal) X3) batch2)
    (oneHotEmbed kge rel) Wf1 bf1 Wf2 bf2

/-- Member 0 of the stacked layer on a stack with the stacked neighbour sums of its members: the one-graph layer on
    member 0 with its own neighbour sums. -/
theorem member0_layer (X : FVec Ideal S2x50000x64 .f32) (ei1 ei2 : IVec S2x800000 32) (P1 : Arr2 64 64) (P2 : Arr1 64)
    (P3 : Arr2 64 64) (P4 P5 P6 P7 P8 : Arr1 64) :
    member (layer3 X (kagg (F := Ideal) X (kedgeSrc ei1) (kedgeDst ei1) (kedgeSrc ei2) (kedgeDst ei2)) P1 P2 P3 P4 P5 P6 P7 P8) 0
      = layer2 (member X 0) (segsum (F := Ideal) (member X 0) ei1) P1 P2 P3 P4 P5 P6 P7 P8 := by
  rw [member_layer3]
  unfold kagg
  rw [KHostEq.member_kstack0, KHostEq.kmember0_eq, KHostEq.ksegsum_eq, KHostEq.kedgeSrc_eq, KHostEq.kedgeDst_eq]
  rfl

/-- Member 1 of the same: the one-graph layer on member 1 with its own neighbour sums. -/
theorem member1_layer (X : FVec Ideal S2x50000x64 .f32) (ei1 ei2 : IVec S2x800000 32) (P1 : Arr2 64 64) (P2 : Arr1 64)
    (P3 : Arr2 64 64) (P4 P5 P6 P7 P8 : Arr1 64) :
    member (layer3 X (kagg (F := Ideal) X (kedgeSrc ei1) (kedgeDst ei1) (kedgeSrc ei2) (kedgeDst ei2)) P1 P2 P3 P4 P5 P6 P7 P8) 1
      = layer2 (member X 1) (segsum (F := Ideal) (member X 1) ei2) P1 P2 P3 P4 P5 P6 P7 P8 := by
  rw [member_layer3]
  unfold kagg
  rw [KHostEq.member_kstack1, KHostEq.kmember1_eq, KHostEq.ksegsum_eq, KHostEq.kedgeSrc_eq, KHostEq.kedgeDst_eq]
  rfl

/-- With the relation labels inside the table, the kernel program's composition is the specification's function. -/
theorem kernelResult_eq (x1 : FVec Ideal S50000x64 .f32) (ei1 : IVec S2x800000 32) (batch1 : IVec S50000 32)
    (x2 : FVec Ideal S50000x64 .f32) (ei2 : IVec S2x800000 32) (batch2 : IVec S50000 32) (rel : IVec S1024x1 32)
    (W1 : FVec Ideal S3x64x64 .f32) (b1 : FVec Ideal S3x64 .f32) (W2 : FVec Ideal S3x64x64 .f32)
    (b2 gamma beta mean var : FVec Ideal S3x64 .f32)
    (kge : FVec Ideal S86x128 .f32) (Wf1 : FVec Ideal S256x64 .f32) (bf1 : FVec Ideal S64 .f32) (Wf2 : FVec Ideal S64x1 .f32)
    (bf2 : FVec Ideal S1 .f32) (h : InRange rel) :
    kernelResult x1 ei1 batch1 x2 ei2 batch2 rel W1 b1 W2 b2 gamma beta mean var kge Wf1 bf1 Wf2 bf2
      = result x1 ei1 batch1 x2 ei2 batch2 rel W1 b1 W2 b2 gamma beta mean var kge Wf1 bf1 Wf2 bf2 := by
  simp only [kernelResult]
  rw [KHostEq.kpool_eq, KHostEq.kpool_eq, KHostEq.kmember0_eq, KHostEq.kmember1_eq, Range.oneHotEmbed_eq kge rel h,
    KHostEq.khslW0_eq, KHostEq.khslW0_eq, KHostEq.khslW1_eq, KHostEq.khslW1_eq, KHostEq.khslW2_eq, KHostEq.khslW2_eq]
  simp only [KHostEq.khslB0_eq, KHostEq.khslB1_eq, KHostEq.khslB2_eq, member0_layer, member1_layer,
    KHostEq.member_kstack0, KHostEq.member_kstack1]
  rfl

end Cert.Gin.KAlg

end
-- ==== Proof.KernelChain.lean ====
/-
  The kernel program's boundary contents read back to the launch memory. Between its four pallas_calls the program's
  host operations stack the two graphs' arrays, sum each member's neighbour rows and slice each layer's parameters; each
  call leaves in its output array the layer (or the head) of what it found. Walking the boundaries from the launch to
  the return: no operation and no call writes an argument, the edge vectors are computed once and read by every layer,
  and the stacked features after layer l are the stacked layer of the features after layer l - 1. What the last call
  leaves in the result array is therefore the composition `kernelResult` of the argument arrays.
-/
import proofs.«400857_j64622077935659_1_alg».proof.Proof.KernelRun
import proofs.«400857_j64622077935659_1_alg».proof.Proof.GinRegion
import proofs.«400857_j64622077935659_1_alg».proof.Proof.HeadEq
import proofs.«400857_j64622077935659_1_alg».proof.Proof.KStretch
import proofs.«400857_j64622077935659_1_alg».proof.Proof.KHostTerms
import proofs.«400857_j64622077935659_1_alg».proof.Proof.KAlg

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Gin Cert.Gin.KHost Cert.Gin.KStretch Cert.Gin.KAlg

variable (m : (ℓ : Loc nD τ sig) → Buf (Elt Ideal) ℓ) (ρ : Dev nD → PrngReg) (c : Dev nD)

/-! ## The launch contents of the twenty arguments, each at its literal type -/

abbrev A0 : FVec Ideal S50000x64 .f32 := m ((c : Thread nD τ).loc main_arg0)
abbrev A1 : IVec S2x800000 32 := m ((c : Thread nD τ).loc main_arg1)
abbrev A2 : IVec S50000 32 := m ((c : Thread nD τ).loc main_arg2)
abbrev A3 : FVec Ideal S50000x64 .f32 := m ((c : Thread nD τ).loc main_arg3)
abbrev A4 : IVec S2x800000 32 := m ((c : Thread nD τ).loc main_arg4)
abbrev A5 : IVec S50000 32 := m ((c : Thread nD τ).loc main_arg5)
abbrev A6 : IVec S1024x1 32 := m ((c : Thread nD τ).loc main_arg6)
abbrev A7 : FVec Ideal S3x64x64 .f32 := m ((c : Thread nD τ).loc main_arg7)
abbrev A8 : FVec Ideal S3x64 .f32 := m ((c : Thread nD τ).loc main_arg8)
abbrev A9 : FVec Ideal S3x64x64 .f32 := m ((c : Thread nD τ).loc main_arg9)
abbrev A10 : FVec Ideal S3x64 .f32 := m ((c : Thread nD τ).loc main_arg10)
abbrev A11 : FVec Ideal S3x64 .f32 := m ((c : Thread nD τ).loc main_arg11)
abbrev A12 : FVec Ideal S3x64 .f32 := m ((c : Thread nD τ).loc main_arg12)
abbrev A13 : FVec Ideal S3x64 .f32 := m ((c : Thread nD τ).loc main_arg13)
abbrev A14 : FVec Ideal S3x64 .f32 := m ((c : Thread nD τ).loc main_arg14)
abbrev A15 : FVec Ideal S86x128 .f32 := m ((c : Thread nD τ).loc main_arg15)
abbrev A16 : FVec Ideal S256x64 .f32 := m ((c : Thread nD τ).loc main_arg16)
abbrev A17 : FVec Ideal S64 .f32 := m ((c : Thread nD τ).loc main_arg17)
abbrev A18 : FVec Ideal S64x1 .f32 := m ((c : Thread nD τ).loc main_arg18)
abbrev A19 : FVec Ideal S1 .f32 := m ((c : Thread nD τ).loc main_arg19)

/-- Every argument's buffer holds its launch contents. -/
structure ArgsKept (W : Valuation τ sig (Elt Ideal)) : Prop where
  a0 : W (Proc.devRef .tc main_arg0) = A0 m c
  a1 : W (Proc.devRef .tc main_arg1) = A1 m c
  a2 : W (Proc.devRef .tc main_arg2) = A2 m c
  a3 : W (Proc.devRef .tc main_arg3) = A3 m c
  a4 : W (Proc.devRef .tc main_arg4) = A4 m c
  a5 : W (Proc.devRef .tc main_arg5) = A5 m c
  a6 : W (Proc.devRef .tc main_arg6) = A6 m c
  a7 : W (Proc.devRef .tc main_arg7) = A7 m c
  a8 : W (Proc.devRef .tc main_arg8) = A8 m c
  a9 : W (Proc.devRef .tc main_arg9) = A9 m c
  a10 : W (Proc.devRef .tc main_arg10) = A10 m c
  a11 : W (Proc.devRef .tc main_arg11) = A11 m c
  a12 : W (Proc.devRef .tc main_arg12) = A12 m c
  a13 : W (Proc.devRef .tc main_arg13) = A13 m c
  a14 : W (Proc.devRef .tc main_arg14) = A14 m c
  a15 : W (Proc.devRef .tc main_arg15) = A15 m c
  a16 : W (Proc.devRef .tc main_arg16) = A16 m c
  a17 : W (Proc.devRef .tc main_arg17) = A17 m c
  a18 : W (Proc.devRef .tc main_arg18) = A18 m c
  a19 : W (Proc.devRef .tc main_arg19) = A19 m c

theorem args0 : ArgsKept m c (W0 m ρ c) :=
  ⟨rfl, rfl, rfl, rfl, rfl, rfl, rfl, rfl, rfl, rfl, rfl, rfl, rfl, rfl, rfl, rfl, rfl, rfl, rfl, rfl⟩

/-- A host stretch that writes no argument keeps them all (from the stretch's twenty facts). -/
theorem ArgsKept.of_keep {W W' : Valuation τ sig (Elt Ideal)} (h : ArgsKept m c W)
    (k : W' (Proc.devRef .tc main_arg0) = W (Proc.devRef .tc main_arg0)
      ∧ W' (Proc.devRef .tc main_arg1) = W (Proc.devRef .tc main_arg1)
      ∧ W' (Proc.devRef .tc main_arg2) = W (Proc.devRef .tc main_arg2)
      ∧ W' (Proc.devRef .tc main_arg3) = W (Proc.devRef .tc main_arg3)
      ∧ W' (Proc.devRef .tc main_arg4) = W (Proc.devRef .tc main_arg4)
      ∧ W' (Proc.devRef .tc main_arg5) = W (Proc.devRef .tc main_arg5)
      ∧ W' (Proc.devRef .tc main_arg6) = W (Proc.devRef .tc main_arg6)
      ∧ W' (Proc.devRef .tc main_arg7) = W (Proc.devRef .tc main_arg7)
      ∧ W' (Proc.devRef .tc main_arg8) = W (Proc.devRef .tc main_arg8)
      ∧ W' (Proc.devRef .tc main_arg9) = W (Proc.devRef .tc main_arg9)
      ∧ W' (Proc.devRef .tc main_arg10) = W (Proc.devRef .tc main_arg10)
      ∧ W' (Proc.devRef .tc main_arg11) = W (Proc.devRef .tc main_arg11)
      ∧ W' (Proc.devRef .tc main_arg12) = W (Proc.devRef .tc main_arg12)
      ∧ W' (Proc.devRef .tc main_arg13) = W (Proc.devRef .tc main_arg13)
      ∧ W' (Proc.devRef .tc main_arg14) = W (Proc.devRef .tc main_arg14)
      ∧ W' (Proc.devRef .tc main_arg15) = W (Proc.devRef .tc main_arg15)
      ∧ W' (Proc.devRef .tc main_arg16) = W (Proc.devRef .tc main_arg16)
      ∧ W' (Proc.devRef .tc main_arg17) = W (Proc.devRef .tc main_arg17)
      ∧ W' (Proc.devRef .tc main_arg18) = W (Proc.devRef .tc main_arg18)
      ∧ W' (Proc.devRef .tc main_arg19) = W (Proc.devRef .tc main_arg19)) :
    ArgsKept m c W' := by
  obtain ⟨k0, k1, k2, k3, k4, k5, k6, k7, k8, k9, k10, k11, k12, k13, k14, k15, k16, k17, k18, k19⟩ := k
  exact ⟨k0.trans h.a0, k1.trans h.a1, k2.trans h.a2, k3.trans h.a3, k4.trans h.a4, k5.trans h.a5, k6.trans h.a6, k7.trans h.a7, k8.trans h.a8, k9.trans h.a9, k10.trans h.a10, k11.trans h.a11, k12.trans h.a12, k13.trans h.a13, k14.trans h.a14, k15.trans h.a15, k16.trans h.a16, k17.trans h.a17, k18.trans h.a18, k19.trans h.a19⟩

theorem args1 : ArgsKept m c (W1 m ρ c) := (args0 m ρ c).of_keep m c (stretch0_keep (W0 m ρ c))

theorem args2 : ArgsKept m c (W2 m ρ c) :=
  let h := args1 m ρ c
  ⟨(W2_of_ne m ρ c main_arg0 (by decide)).trans h.a0,
   (W2_of_ne m ρ c main_arg1 (by decide)).trans h.a1,
   (W2_of_ne m ρ c main_arg2 (by decide)).trans h.a2,
   (W2_of_ne m ρ c main_arg3 (by decide)).trans h.a3,
   (W2_of_ne m ρ c main_arg4 (by decide)).trans h.a4,
   (W2_of_ne m ρ c main_arg5 (by decide)).trans h.a5,
   (W2_of_ne m ρ c main_arg6 (by decide)).trans h.a6,
   (W2_of_ne m ρ c main_arg7 (by decide)).trans h.a7,
   (W2_of_ne m ρ c main_arg8 (by decide)).trans h.a8,
   (W2_of_ne m ρ c main_arg9 (by decide)).trans h.a9,
   (W2_of_ne m ρ c main_arg10 (by decide)).trans h.a10,
   (W2_of_ne m ρ c main_arg11 (by decide)).trans h.a11,
   (W2_of_ne m ρ c main_arg12 (by decide)).trans h.a12,
   (W2_of_ne m ρ c main_arg13 (by decide)).trans h.a13,
   (W2_of_ne m ρ c main_arg14 (by decide)).trans h.a14,
   (W2_of_ne m ρ c main_arg15 (by decide)).trans h.a15,
   (W2_of_ne m ρ c main_arg16 (by decide)).trans h.a16,
   (W2_of_ne m ρ c main_arg17 (by decide)).trans h.a17,
   (W2_of_ne m ρ c main_arg18 (by decide)).trans h.a18,
   (W2_of_ne m ρ c main_arg19 (by decide)).trans h.a19⟩

theorem args3 : ArgsKept m c (W3 m ρ c) := (args2 m ρ c).of_keep m c (stretch1_keep (W2 m ρ c)).2.2.2.2.2

theorem args4 : ArgsKept m c (W4 m ρ c) :=
  let h := args3 m ρ c
  ⟨(W4_of_ne m ρ c main_arg0 (by decide)).trans h.a0,
   (W4_of_ne m ρ c main_arg1 (by decide)).trans h.a1,
   (W4_of_ne m ρ c main_arg2 (by decide)).trans h.a2,
   (W4_of_ne m ρ c main_arg3 (by decide)).trans h.a3,
   (W4_of_ne m ρ c main_arg4 (by decide)).trans h.a4,
   (W4_of_ne m ρ c main_arg5 (by decide)).trans h.a5,
   (W4_of_ne m ρ c main_arg6 (by decide)).trans h.a6,
   (W4_of_ne m ρ c main_arg7 (by decide)).trans h.a7,
   (W4_of_ne m ρ c main_arg8 (by decide)).trans h.a8,
   (W4_of_ne m ρ c main_arg9 (by decide)).trans h.a9,
   (W4_of_ne m ρ c main_arg10 (by decide)).trans h.a10,
   (W4_of_ne m ρ c main_arg11 (by decide)).trans h.a11,
   (W4_of_ne m ρ c main_arg12 (by decide)).trans h.a12,
   (W4_of_ne m ρ c main_arg13 (by decide)).trans h.a13,
   (W4_of_ne m ρ c main_arg14 (by decide)).trans h.a14,
   (W4_of_ne m ρ c main_arg15 (by decide)).trans h.a15,
   (W4_of_ne m ρ c main_arg16 (by decide)).trans h.a16,
   (W4_of_ne m ρ c main_arg17 (by decide)).trans h.a17,
   (W4_of_ne m ρ c main_arg18 (by decide)).trans h.a18,
   (W4_of_ne m ρ c main_arg19 (by decide)).trans h.a19⟩

theorem args5 : ArgsKept m c (W5 m ρ c) := (args4 m ρ c).of_keep m c (stretch2_keep (W4 m ρ c)).2.2.2.2.2

theorem args6 : ArgsKept m c (W6 m ρ c) :=
  let h := args5 m ρ c
  ⟨(W6_of_ne m ρ c main_arg0 (by decide)).trans h.a0,
   (W6_of_ne m ρ c main_arg1 (by decide)).trans h.a1,
   (W6_of_ne m ρ c main_arg2 (by decide)).trans h.a2,
   (W6_of_ne m ρ c main_arg3 (by decide)).trans h.a3,
   (W6_of_ne m ρ c main_arg4 (by decide)).trans h.a4,
   (W6_of_ne m ρ c main_arg5 (by decide)).trans h.a5,
   (W6_of_ne m ρ c main_arg6 (by decide)).trans h.a6,
   (W6_of_ne m ρ c main_arg7 (by decide)).trans h.a7,
   (W6_of_ne m ρ c main_arg8 (by decide)).trans h.a8,
   (W6_of_ne m ρ c main_arg9 (by decide)).trans h.a9,
   (W6_of_ne m ρ c main_arg10 (by decide)).trans h.a10,
   (W6_of_ne m ρ c main_arg11 (by decide)).trans h.a11,
   (W6_of_ne m ρ c main_arg12 (by decide)).trans h.a12,
   (W6_of_ne m ρ c main_arg13 (by decide)).trans h.a13,
   (W6_of_ne m ρ c main_arg14 (by decide)).trans h.a14,
   (W6_of_ne m ρ c main_arg15 (by decide)).trans h.a15,
   (W6_of_ne m ρ c main_arg16 (by decide)).trans h.a16,
   (W6_of_ne m ρ c main_arg17 (by decide)).trans h.a17,
   (W6_of_ne m ρ c main_arg18 (by decide)).trans h.a18,
   (W6_of_ne m ρ c main_arg19 (by decide)).trans h.a19⟩

theorem args7 : ArgsKept m c (W7 m ρ c) := (args6 m ρ c).of_keep m c (stretch3_keep (W6 m ρ c))

/-! ## The edge vectors: computed before the first call, read again before the second and the third -/

/-- The four edge vectors hold the sources and targets sliced out of the two edge arrays. -/
structure EdgesKept (W : Valuation τ sig (Elt Ideal)) : Prop where
  s1 : W (Proc.devRef .tc main_v1) = kedgeSrc (A1 m c)
  d1 : W (Proc.devRef .tc main_v3) = kedgeDst (A1 m c)
  s2 : W (Proc.devRef .tc main_v5) = kedgeSrc (A4 m c)
  d2 : W (Proc.devRef .tc main_v7) = kedgeDst (A4 m c)

theorem edges1 : EdgesKept m c (W1 m ρ c) := by
  obtain ⟨e1, e3, e5, e7⟩ := stretch0_edges (W0 m ρ c)
  exact ⟨e1, e3, e5, e7⟩

theorem edges2 : EdgesKept m c (W2 m ρ c) :=
  let h := edges1 m ρ c
  ⟨(W2_of_ne m ρ c main_v1 (by decide)).trans h.s1, (W2_of_ne m ρ c main_v3 (by decide)).trans h.d1,
   (W2_of_ne m ρ c main_v5 (by decide)).trans h.s2, (W2_of_ne m ρ c main_v7 (by decide)).trans h.d2⟩

theorem edges3 : EdgesKept m c (W3 m ρ c) := by
  obtain ⟨-, k1, k3, k5, k7, -⟩ := stretch1_keep (W2 m ρ c)
  have h := edges2 m ρ c
  exact ⟨k1.trans h.s1, k3.trans h.d1, k5.trans h.s2, k7.trans h.d2⟩

theorem edges4 : EdgesKept m c (W4 m ρ c) :=
  let h := edges3 m ρ c
  ⟨(W4_of_ne m ρ c main_v1 (by decide)).trans h.s1, (W4_of_ne m ρ c main_v3 (by decide)).trans h.d1,
   (W4_of_ne m ρ c main_v5 (by decide)).trans h.s2, (W4_of_ne m ρ c main_v7 (by decide)).trans h.d2⟩

/-! ## The stacked features after each call -/

/-- The stacked neighbour sums of a stack's members, by the two graphs' edge vectors. -/
def aggOf (X : FVec Ideal S2x50000x64 .f32) : FVec Ideal S2x50000x64 .f32 :=
  kagg (F := Ideal) X (kedgeSrc (A1 m c)) (kedgeDst (A1 m c)) (kedgeSrc (A4 m c)) (kedgeDst (A4 m c))

/-- The two graphs' node features, stacked. -/
def X0 : FVec Ideal S2x50000x64 .f32 := kstack (F := Ideal) (A0 m c) (A3 m c)
/-- The stacked features after the first, the second and the third layer. -/
def X1 : FVec Ideal S2x50000x64 .f32 := layer3 (X0 m c) (aggOf m c (X0 m c)) (khslW0 (A7 m c)) (khslB0 (A8 m c)) (khslW0 (A9 m c)) (khslB0 (A10 m c))
    (khslB0 (A13 m c)) (khslB0 (A14 m c)) (khslB0 (A11 m c)) (khslB0 (A12 m c))
def X2 : FVec Ideal S2x50000x64 .f32 := layer3 (X1 m c) (aggOf m c (X1 m c)) (khslW1 (A7 m c)) (khslB1 (A8 m c)) (khslW1 (A9 m c)) (khslB1 (A10 m c))
    (khslB1 (A13 m c)) (khslB1 (A14 m c)) (khslB1 (A11 m c)) (khslB1 (A12 m c))
def X3 : FVec Ideal S2x50000x64 .f32 := layer3 (X2 m c) (aggOf m c (X2 m c)) (khslW2 (A7 m c)) (khslB2 (A8 m c)) (khslW2 (A9 m c)) (khslB2 (A10 m c))
    (khslB2 (A13 m c)) (khslB2 (A14 m c)) (khslB2 (A11 m c)) (khslB2 (A12 m c))

/-- The first call leaves the first layer of the stacked arguments. -/
theorem x1 : W2 m ρ c (Proc.devRef .tc main_v54) = X1 m c := by
  obtain ⟨p39, p41, p43, p45, p47, p49, p51, p53⟩ := stretch0_params (W0 m ρ c)
  have e := (W2_arr m ρ c 10).trans (Cert.Gin.Region.region0_value (V1 m ρ) c)
  have h10 : V1 m ρ c main_v10 = X0 m c := stretch0_x (W0 m ρ c)
  have h37 : V1 m ρ c main_v37 = aggOf m c (X0 m c) := stretch0_agg (W0 m ρ c)
  have h39 : V1 m ρ c main_v39 = khslW0 (A7 m c) := p39
  have h41 : V1 m ρ c main_v41 = khslB0 (A8 m c) := p41
  have h43 : V1 m ρ c main_v43 = khslW0 (A9 m c) := p43
  have h45 : V1 m ρ c main_v45 = khslB0 (A10 m c) := p45
  have h47 : V1 m ρ c main_v47 = khslB0 (A13 m c) := p47
  have h49 : V1 m ρ c main_v49 = khslB0 (A14 m c) := p49
  have h51 : V1 m ρ c main_v51 = khslB0 (A11 m c) := p51
  have h53 : V1 m ρ c main_v53 = khslB0 (A12 m c) := p53
  rw [h10, h37, h39, h41, h43, h45, h47, h49, h51, h53] at e
  exact e

/-- The second call leaves the second layer of what the first left. -/
theorem x2 : W4 m ρ c (Proc.devRef .tc main_v98) = X2 m c := by
  obtain ⟨p83, p85, p87, p89, p91, p93, p95, p97⟩ := stretch1_params (W2 m ρ c)
  obtain ⟨k54, -⟩ := stretch1_keep (W2 m ρ c)
  have a := args2 m ρ c
  have ed := edges2 m ρ c
  have e := (W4_arr m ρ c 10).trans (Cert.Gin.Region.region1_value (V3 m ρ) c)
  have h54 : V3 m ρ c main_v54 = X1 m c := k54.trans (x1 m ρ c)
  have h81 : V3 m ρ c main_v81 = aggOf m c (X1 m c) := by
    refine (stretch1_agg (W2 m ρ c)).trans ?_
    rw [x1 m ρ c, ed.s1, ed.d1, ed.s2, ed.d2]; rfl
  have h83 : V3 m ρ c main_v83 = khslW1 (A7 m c) := p83.trans (by rw [a.a7])
  have h85 : V3 m ρ c main_v85 = khslB1 (A8 m c) := p85.trans (by rw [a.a8])
  have h87 : V3 m ρ c main_v87 = khslW1 (A9 m c) := p87.trans (by rw [a.a9])
  have h89 : V3 m ρ c main_v89 = khslB1 (A10 m c) := p89.trans (by rw [a.a10])
  have h91 : V3 m ρ c main_v91 = khslB1 (A13 m c) := p91.trans (by rw [a.a13])
  have h93 : V3 m ρ c main_v93 = khslB1 (A14 m c) := p93.trans (by rw [a.a14])
  have h95 : V3 m ρ c main_v95 = khslB1 (A11 m c) := p95.trans (by rw [a.a11])
  have h97 : V3 m ρ c main_v97 = khslB1 (A12 m c) := p97.trans (by rw [a.a12])
  rw [h54, h81, h83, h85, h87, h89, h91, h93, h95, h97] at e
  exact e

/-- The third call leaves the third layer of what the second left. -/
theorem x3 : W6 m ρ c (Proc.devRef .tc main_v142) = X3 m c := by
  obtain ⟨p127, p129, p131, p133, p135, p137, p139, p141⟩ := stretch2_params (W4 m ρ c)
  obtain ⟨k98, -⟩ := stretch2_keep (W4 m ρ c)
  have a := args4 m ρ c
  have ed := edges4 m ρ c
  have e := (W6_arr m ρ c 10).trans (Cert.Gin.Region.region2_value (V5 m ρ) c)
  have h98 : V5 m ρ c main_v98 = X2 m c := k98.trans (x2 m ρ c)
  have h125 : V5 m ρ c main_v125 = aggOf m c (X2 m c) := by
    refine (stretch2_agg (W4 m ρ c)).trans ?_
    rw [x2 m ρ c, ed.s1, ed.d1, ed.s2, ed.d2]; rfl
  have h127 : V5 m ρ c main_v127 = khslW2 (A7 m c) := p127.trans (by rw [a.a7])
  have h129 : V5 m ρ c main_v129 = khslB2 (A8 m c) := p129.trans (by rw [a.a8])
  have h131 : V5 m ρ c main_v131 = khslW2 (A9 m c) := p131.trans (by rw [a.a9])
  have h133 : V5 m ρ c main_v133 = khslB2 (A10 m c) := p133.trans (by rw [a.a10])
  have h135 : V5 m ρ c main_v135 = khslB2 (A13 m c) := p135.trans (by rw [a.a13])
  have h137 : V5 m ρ c main_v137 = khslB2 (A14 m c) := p137.trans (by rw [a.a14])
  have h139 : V5 m ρ c main_v139 = khslB2 (A11 m c) := p139.trans (by rw [a.a11])
  have h141 : V5 m ρ c main_v141 = khslB2 (A12 m c) := p141.trans (by rw [a.a12])
  rw [h98, h125, h127, h129, h131, h133, h135, h137, h139, h141] at e
  exact e

/-! ## The pooled rows and the head -/

/-- The final call leaves the head of the pooled members, the relation rows spelt as an indicator product: the kernel
    program's whole composition of its arguments. -/
theorem result_value : W8 m ρ c (Proc.devRef .tc main_v153)
    = kernelResult (A0 m c) (A1 m c) (A2 m c) (A3 m c) (A4 m c) (A5 m c) (A6 m c) (A7 m c) (A8 m c) (A9 m c) (A10 m c)
        (A11 m c) (A12 m c) (A13 m c) (A14 m c) (A15 m c) (A16 m c) (A17 m c) (A18 m c) (A19 m c) := by
  obtain ⟨p149, p152⟩ := stretch3_pool (W6 m ρ c)
  have a6 := args6 m ρ c
  have a7 := args7 m ρ c
  have e := (W8_arr m ρ c 8).trans (Cert.Gin.Head.region3_value (V7 m ρ) c)
  have h149 : V7 m ρ c main_v149 = kpool (F := Ideal) (kmember0 (F := Ideal) (X3 m c)) (A2 m c) :=
    p149.trans (by rw [x3 m ρ c, a6.a2])
  have h152 : V7 m ρ c main_v152 = kpool (F := Ideal) (kmember1 (F := Ideal) (X3 m c)) (A5 m c) :=
    p152.trans (by rw [x3 m ρ c, a6.a5])
  have h6 : V7 m ρ c main_arg6 = A6 m c := a7.a6
  have h15 : V7 m ρ c main_arg15 = A15 m c := a7.a15
  have h16 : V7 m ρ c main_arg16 = A16 m c := a7.a16
  have h17 : V7 m ρ c main_arg17 = A17 m c := a7.a17
  have h18 : V7 m ρ c main_arg18 = A18 m c := a7.a18
  have h19 : V7 m ρ c main_arg19 = A19 m c := a7.a19
  rw [h149, h152, h6, h15, h16, h17, h18, h19] at e
  exact e

end Cert.KernelIdeal.Chain

end
-- ==== Proof.RefRun.lean ====
/-
  The reference's @main as its seven lists of operations run one after the other, and its run read back: every weakly
  fair execution terminates with every buffer at what the lists, in order, leave there from the launch contents.
-/
import proofs.«400857_j64622077935659_1_alg».proof.Proof.RefOps
import Idealize.ShloMosaic.Lib.StableHlo.Run
import Idealize.ShloMosaic.Lib.Pipeline.Frame
import Mathlib.Data.List.Basic

noncomputable section

namespace Cert.ReferenceIdeal.HandRun

open Cert.ReferenceIdeal Cert.ReferenceIdeal.Gen Cert.ReferenceIdeal.Chunks
open Idealize.ShloMosaic Idealize.ShloMosaic.TcCoe Idealize.SL.Sem Idealize.ShloMosaic.StableHlo

variable {F : FTy → Type} [FloatOps F]

/-- @main's operations: the seven lists end to end. -/
abbrev rops : List (HloOp τ sig (Elt F)) := rops0 ++ (rops1 ++ (rops2 ++ (rops3 ++ (rops4 ++ (rops5 ++ rops6)))))

/-- @main is the lists run in order. -/
theorem main_eq (c : Dev nD) : main (F := F) c = seq rops := by
  chain_rfl

/-- What the seven lists leave is what each leaves in turn. -/
theorem after_rops (V : Valuation τ sig (Elt F)) :
    after rops V = after rops6 (after rops5 (after rops4 (after rops3 (after rops2 (after rops1 (after rops0 V)))))) := by
  show after (rops0 ++ (rops1 ++ (rops2 ++ (rops3 ++ (rops4 ++ (rops5 ++ rops6)))))) V = _
  rw [after_append, after_append, after_append, after_append, after_append, after_append]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the seven lists touches TensorCore references only. -/
theorem rops_sub : (rops : List (HloOp τ sig (Elt F))).Forall fun op => op.bufs ⊆ tcRefs τ sig :=
  List.forall_append.2 ⟨rops0_sub, List.forall_append.2 ⟨rops1_sub, List.forall_append.2 ⟨rops2_sub,
    List.forall_append.2 ⟨rops3_sub, List.forall_append.2 ⟨rops4_sub, List.forall_append.2 ⟨rops5_sub, rops6_sub⟩⟩⟩⟩⟩⟩

/-- No operation of a list allocates a buffer: each determines its results. -/
theorem rops0_fresh : (rops0 : List (HloOp τ sig (Elt F))).Forall fun op => op.fresh = ∅ := by
  simp only [List.Forall]; repeat' constructor
theorem rops1_fresh : (rops1 : List (HloOp τ sig (Elt F))).Forall fun op => op.fresh = ∅ := by
  simp only [List.Forall]; repeat' constructor
theorem rops2_fresh : (rops2 : List (HloOp τ sig (Elt F))).Forall fun op => op.fresh = ∅ := by
  simp only [List.Forall]; repeat' constructor
theorem rops3_fresh : (rops3 : List (HloOp τ sig (Elt F))).Forall fun op => op.fresh = ∅ := by
  simp only [List.Forall]; repeat' constructor
theorem rops4_fresh : (rops4 : List (HloOp τ sig (Elt F))).Forall fun op => op.fresh = ∅ := by
  simp only [List.Forall]; repeat' constructor
theorem rops5_fresh : (rops5 : List (HloOp τ sig (Elt F))).Forall fun op => op.fresh = ∅ := by
  simp only [List.Forall]; repeat' constructor
theorem rops6_fresh : (rops6 : List (HloOp τ sig (Elt F))).Forall fun op => op.fresh = ∅ := by
  simp only [List.Forall]; repeat' constructor

/-- No operation of the seven lists allocates a buffer. -/
theorem rops_fresh : ∀ op ∈ (rops : List (HloOp τ sig (Elt F))), op.fresh = ∅ :=
  List.forall_iff_forall_mem.1 (List.forall_append.2 ⟨rops0_fresh, List.forall_append.2 ⟨rops1_fresh,
    List.forall_append.2 ⟨rops2_fresh, List.forall_append.2 ⟨rops3_fresh, List.forall_append.2 ⟨rops4_fresh,
      List.forall_append.2 ⟨rops5_fresh, rops6_fresh⟩⟩⟩⟩⟩⟩)

/-- Every weakly fair execution of @main terminates, nothing faulting, with every buffer at what the operations leave
    there from the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after rops (launchContents m d) (Proc.devRef .tc b) := by
  exact run_seq scopedRefs_eq scopedSems_eq defs main (fun _ => rops) main_eq (fun _ => rops_sub) m ρ (fun _ => rops_fresh)

end Cert.ReferenceIdeal.HandRun

end
-- ==== Proof.LibNary3.lean ====
/-
  A result lemma for an operation over a literal family of THREE references (a three-operand concatenation), in the
  shape of the library's lemma for four references: the operation's result is its function applied to the three
  operands' contents, each read at its own reference. The three contents are kept as separate arguments of a small
  definition, at their own references' types, so that a simplification pass can go on rewriting them; unfolding the
  definition afterwards puts them back into the family the function expects.
-/
import Idealize.ShloMosaic.Lib.StableHlo.Run

noncomputable section

namespace Idealize.ShloMosaic.StableHlo

section Nary3

variable {nD : Nat} {τ : Topo} {sig : RefSig} {Val : EltTy → Type}
variable {x a b y : Ref sig .tc}

/-- A function of a three-entry family of contents, applied to the three entries given one by one, each at its own
    reference's type. -/
def nary3Apply
    (f : ((k : Fin 3) → ((![x, a, b] : Fin 3 → Ref sig .tc) k).ty.Contents Val) → y.ty.Contents Val)
    (A : BufTy.Contents Val (Proc.devRef (τ := τ) .tc x).ty) (B : BufTy.Contents Val (Proc.devRef (τ := τ) .tc a).ty)
    (C : BufTy.Contents Val (Proc.devRef (τ := τ) .tc b).ty) : y.ty.Contents Val :=
  f (Fin.cons A (Fin.cons B (Fin.cons C (fun i => i.elim0))))

/-- An operation over a LITERAL family of three references (a three-operand concatenation): its result is its function
    applied to the three operands' contents, each read AT ITS OWN REFERENCE, so that those contents can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = nary3Apply (τ := τ) f (F (Proc.devRef .tc x)) (F (Proc.devRef .tc a)) (F (Proc.devRef .tc b)) := by
  rw [nary_result]; unfold nary3Apply; congr 1; funext k; fin_cases k <;> rfl

/-- The same, with the result reference un-indexed, for one `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Apply (τ := τ) f (F (Proc.devRef .tc x)) (F (Proc.devRef .tc a)) (F (Proc.devRef .tc b)) :=
  nary3_result f hxs hy F

end Nary3

/-- The results by one `simp` pass, with the three-reference lemma in place of the general one. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefStages.lean ====
/-
  What each of the reference's seven lists of operations leaves, read off the operations: a reference the list does not
  write keeps its contents, and the list's last results are the host's spellings (a layer, a layer's edge vectors, the
  pooling sum, the head) of the contents the list starts from. Every statement is for any float values: the spellings
  are the operations' own functions composed, so each is closed by reading the list's results one by one.
-/
import proofs.«400857_j64622077935659_1_alg».proof.Proof.RefOps
import proofs.«400857_j64622077935659_1_alg».proof.Proof.HostTerms
import proofs.«400857_j64622077935659_1_alg».proof.Proof.SpecHost
import proofs.«400857_j64622077935659_1_alg».proof.Proof.LibNary3
import Idealize.ShloMosaic.Lib.StableHlo.Run

set_option maxRecDepth 16384

noncomputable section

namespace Cert.ReferenceIdeal.Stages

open Cert.ReferenceIdeal Cert.ReferenceIdeal.Gen Cert.ReferenceIdeal.Chunks
open Idealize.ShloMosaic Idealize.ShloMosaic.TcCoe Idealize.SL.Sem Idealize.ShloMosaic.StableHlo Cert.Gin

variable {F : FTy → Type} [FloatOps F]

/-! ## The references each list writes, and that every other reference keeps its contents through the list -/

/-- The references list 0 writes, in order. -/
abbrev wr0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_call0_cst, main_call0_v0, main_v23, main_v24, main_v25, main_v26, main_v27, main_v28, main_v29, main_v30, main_v31, main_v32, main_v33, main_v34, main_v35, main_v36, main_v37, main_v38, main_cst_1, main_v39, main_v40, main_v41, main_v42, main_v43, main_v44, main_v45, main_v46, main_v47, main_v48, main_v49, main_v50, main_v51, main_v52, main_v53, main_v54, main_call1_cst, main_call1_v0, main_v55]

theorem wr0_sub : (rops0 : List (HloOp τ sig (Elt F))).Forall fun op => op.writes ⊆ (wr0.map (Proc.devRef (τ := τ) .tc)).toFinset := by
  simp only [rops0, List.Forall, nullary_writes, unary_writes, binary_writes, ternary_writes, reshape_writes, nary_writes,
    Finset.singleton_subset_iff, List.mem_toFinset]
  repeat' apply And.intro
  all_goals exact List.mem_map_of_mem (by decide)

/-- A reference list 0 does not write keeps its contents through it. -/
theorem kept0 (W : Valuation τ sig (Elt F)) (r : Ref sig .tc) (hr : r ∉ wr0) :
    after (rops0 : List (HloOp τ sig (Elt F))) W (Proc.devRef .tc r) = W (Proc.devRef .tc r) :=
  after_of_writes_sub rops0 W wr0_sub hr

/-- The references list 1 writes, in order. -/
abbrev wr1 : List (Ref sig .tc) :=
  [main_c_2, main_v56, main_v57, main_c_3, main_v58, main_v59, main_v60, main_v61, main_v62, main_cst_4, main_v63, main_v64, main_v65, main_v66, main_v67, main_v68, main_v69, main_v70, main_v71, main_v72, main_v73, main_v74, main_call2_cst, main_call2_v0, main_v75, main_v76, main_v77, main_v78, main_v79, main_v80, main_v81, main_v82, main_v83, main_v84, main_v85, main_v86, main_v87, main_v88, main_v89, main_v90, main_cst_5, main_v91, main_v92, main_v93, main_v94, main_v95, main_v96, main_v97, main_v98, main_v99, main_v100, main_v101, main_v102, main_v103, main_v104, main_v105, main_v106, main_call3_cst, main_call3_v0, main_v107]

theorem wr1_sub : (rops1 : List (HloOp τ sig (Elt F))).Forall fun op => op.writes ⊆ (wr1.map (Proc.devRef (τ := τ) .tc)).toFinset := by
  simp only [rops1, List.Forall, nullary_writes, unary_writes, binary_writes, ternary_writes, reshape_writes, nary_writes,
    Finset.singleton_subset_iff, List.mem_toFinset]
  repeat' apply And.intro
  all_goals exact List.mem_map_of_mem (by decide)

/-- A reference list 1 does not write keeps its contents through it. -/
theorem kept1 (W : Valuation τ sig (Elt F)) (r : Ref sig .tc) (hr : r ∉ wr1) :
    after (rops1 : List (HloOp τ sig (Elt F))) W (Proc.devRef .tc r) = W (Proc.devRef .tc r) :=
  after_of_writes_sub rops1 W wr1_sub hr

/-- The references list 2 writes, in order. -/
abbrev wr2 : List (Ref sig .tc) :=
  [main_c_6, main_v108, main_v109, main_c_7, main_v110, main_v111, main_v112, main_v113, main_v114, main_cst_8, main_v115, main_v116, main_v117, main_v118, main_v119, main_v120, main_v121, main_v122, main_v123, main_v124, main_v125, main_v126, main_call4_cst, main_call4_v0, main_v127, main_v128, main_v129, main_v130, main_v131, main_v132, main_v133, main_v134, main_v135, main_v136, main_v137, main_v138, main_v139, main_v140, main_v141, main_v142, main_cst_9, main_v143, main_v144, main_v145, main_v146, main_v147, main_v148, main_v149, main_v150, main_v151, main_v152, main_v153, main_v154, main_v155, main_v156, main_v157, main_v158, main_call5_cst, main_call5_v0, main_v159, main_cst_10, main_v160, main_v161, main_v162]

theorem wr2_sub : (rops2 : List (HloOp τ sig (Elt F))).Forall fun op => op.writes ⊆ (wr2.map (Proc.devRef (τ := τ) .tc)).toFinset := by
  simp only [rops2, List.Forall, nullary_writes, unary_writes, binary_writes, ternary_writes, reshape_writes, nary_writes,
    Finset.singleton_subset_iff, List.mem_toFinset]
  repeat' apply And.intro
  all_goals exact List.mem_map_of_mem (by decide)

/-- A reference list 2 does not write keeps its contents through it. -/
theorem kept2 (W : Valuation τ sig (Elt F)) (r : Ref sig .tc) (hr : r ∉ wr2) :
    after (rops2 : List (HloOp τ sig (Elt F))) W (Proc.devRef .tc r) = W (Proc.devRef .tc r) :=
  after_of_writes_sub rops2 W wr2_sub hr

/-- The references list 3 writes, in order. -/
abbrev wr3 : List (Ref sig .tc) :=
  [main_v163, main_v164, main_v165, main_v166, main_c_11, main_v167, main_v168, main_c_12, main_v169, main_v170, main_v171, main_v172, main_v173, main_cst_13, main_v174, main_v175, main_v176, main_v177, main_v178, main_v179, main_v180, main_v181, main_v182, main_v183, main_v184, main_v185, main_call6_cst, main_call6_v0, main_v186, main_v187, main_v188, main_v189, main_v190, main_v191, main_v192, main_v193, main_v194, main_v195, main_v196, main_v197, main_v198, main_v199, main_v200, main_v201, main_cst_14, main_v202, main_v203, main_v204, main_v205, main_v206, main_v207, main_v208, main_v209, main_v210, main_v211, main_v212, main_v213, main_v214, main_v215, main_v216, main_v217, main_call7_cst, main_call7_v0, main_v218]

theorem wr3_sub : (rops3 : List (HloOp τ sig (Elt F))).Forall fun op => op.writes ⊆ (wr3.map (Proc.devRef (τ := τ) .tc)).toFinset := by
  simp only [rops3, List.Forall, nullary_writes, unary_writes, binary_writes, ternary_writes, reshape_writes, nary_writes,
    Finset.singleton_subset_iff, List.mem_toFinset]
  repeat' apply And.intro
  all_goals exact List.mem_map_of_mem (by decide)

/-- A reference list 3 does not write keeps its contents through it. -/
theorem kept3 (W : Valuation τ sig (Elt F)) (r : Ref sig .tc) (hr : r ∉ wr3) :
    after (rops3 : List (HloOp τ sig (Elt F))) W (Proc.devRef .tc r) = W (Proc.devRef .tc r) :=
  after_of_writes_sub rops3 W wr3_sub hr

/-- The references list 4 writes, in order. -/
abbrev wr4 : List (Ref sig .tc) :=
  [main_c_15, main_v219, main_v220, main_c_16, main_v221, main_v222, main_v223, main_v224, main_v225, main_cst_17, main_v226, main_v227, main_v228, main_v229, main_v230, main_v231, main_v232, main_v233, main_v234, main_v235, main_v236, main_v237, main_call8_cst, main_call8_v0, main_v238, main_v239, main_v240, main_v241, main_v242, main_v243, main_v244, main_v245, main_v246, main_v247, main_v248, main_v249, main_v250, main_v251, main_v252, main_v253, main_cst_18, main_v254, main_v255, main_v256, main_v257, main_v258, main_v259, main_v260, main_v261, main_v262, main_v263, main_v264, main_v265, main_v266, main_v267, main_v268, main_v269, main_call9_cst, main_call9_v0, main_v270]

theorem wr4_sub : (rops4 : List (HloOp τ sig (Elt F))).Forall fun op => op.writes ⊆ (wr4.map (Proc.devRef (τ := τ) .tc)).toFinset := by
  simp only [rops4, List.Forall, nullary_writes, unary_writes, binary_writes, ternary_writes, reshape_writes, nary_writes,
    Finset.singleton_subset_iff, List.mem_toFinset]
  repeat' apply And.intro
  all_goals exact List.mem_map_of_mem (by decide)

/-- A reference list 4 does not write keeps its contents through it. -/
theorem kept4 (W : Valuation τ sig (Elt F)) (r : Ref sig .tc) (hr : r ∉ wr4) :
    after (rops4 : List (HloOp τ sig (Elt F))) W (Proc.devRef .tc r) = W (Proc.devRef .tc r) :=
  after_of_writes_sub rops4 W wr4_sub hr

/-- The references list 5 writes, in order. -/
abbrev wr5 : List (Ref sig .tc) :=
  [main_c_19, main_v271, main_v272, main_c_20, main_v273, main_v274, main_v275, main_v276, main_v277, main_cst_21, main_v278, main_v279, main_v280, main_v281, main_v282, main_v283, main_v284, main_v285, main_v286, main_v287, main_v288, main_v289, main_call10_cst, main_call10_v0, main_v290, main_v291, main_v292, main_v293, main_v294, main_v295, main_v296, main_v297, main_v298, main_v299, main_v300, main_v301, main_v302, main_v303, main_v304, main_v305, main_cst_22, main_v306, main_v307, main_v308, main_v309, main_v310, main_v311, main_v312, main_v313, main_v314, main_v315, main_v316, main_v317, main_v318, main_v319, main_v320, main_v321, main_call11_cst, main_call11_v0, main_v322, main_cst_23, main_v323, main_v324, main_v325]

theorem wr5_sub : (rops5 : List (HloOp τ sig (Elt F))).Forall fun op => op.writes ⊆ (wr5.map (Proc.devRef (τ := τ) .tc)).toFinset := by
  simp only [rops5, List.Forall, nullary_writes, unary_writes, binary_writes, ternary_writes, reshape_writes, nary_writes,
    Finset.singleton_subset_iff, List.mem_toFinset]
  repeat' apply And.intro
  all_goals exact List.mem_map_of_mem (by decide)

/-- A reference list 5 does not write keeps its contents through it. -/
theorem kept5 (W : Valuation τ sig (Elt F)) (r : Ref sig .tc) (hr : r ∉ wr5) :
    after (rops5 : List (HloOp τ sig (Elt F))) W (Proc.devRef .tc r) = W (Proc.devRef .tc r) :=
  after_of_writes_sub rops5 W wr5_sub hr

/-- The references list 6 writes, in order. -/
abbrev wr6 : List (Ref sig .tc) :=
  [main_v326, main_c_24, main_v327, main_v328, main_c_25, main_v329, main_v330, main_v331, main_v332, main_v333, main_v334, main_v335, main_v336, main_v337, main_v338, main_call12_cst, main_call12_v0, main_v339, main_v340, main_v341, main_v342, main_v343, main_v344]

theorem wr6_sub : (rops6 : List (HloOp τ sig (Elt F))).Forall fun op => op.writes ⊆ (wr6.map (Proc.devRef (τ := τ) .tc)).toFinset := by
  simp only [rops6, List.Forall, nullary_writes, unary_writes, binary_writes, ternary_writes, reshape_writes, nary_writes,
    Finset.singleton_subset_iff, List.mem_toFinset]
  repeat' apply And.intro
  all_goals exact List.mem_map_of_mem (by decide)

/-- A reference list 6 does not write keeps its contents through it. -/
theorem kept6 (W : Valuation τ sig (Elt F)) (r : Ref sig .tc) (hr : r ∉ wr6) :
    after (rops6 : List (HloOp τ sig (Elt F))) W (Proc.devRef .tc r) = W (Proc.devRef .tc r) :=
  after_of_writes_sub rops6 W wr6_sub hr

/-! ## What each list leaves, as the host's spellings of what the list starts from -/

/-- List 0 leaves layer 0 of the first graph's features. -/
theorem rops0_v55 (W : Valuation τ sig (Elt F)) :
    (after (rops0 : List (HloOp τ sig (Elt F))) W (Proc.devRef .tc main_v55) : FVec F S50000x64 .f32)
      = HostTerms.hostLayer (W (Proc.devRef .tc main_arg0)) (segsum (W (Proc.devRef .tc main_arg0)) (W (Proc.devRef .tc main_arg1)))
          (HostTerms.hslW0 (W (Proc.devRef .tc main_arg7))) (HostTerms.hslB0 (W (Proc.devRef .tc main_arg8)))
          (HostTerms.hslW0 (W (Proc.devRef .tc main_arg9))) (HostTerms.hslB0 (W (Proc.devRef .tc main_arg10)))
          (HostTerms.hslB0 (W (Proc.devRef .tc main_arg13))) (HostTerms.hslB0 (W (Proc.devRef .tc main_arg14)))
          (HostTerms.hslB0 (W (Proc.devRef .tc main_arg11))) (HostTerms.hslB0 (W (Proc.devRef .tc main_arg12))) := by
  dsimp only [rops0]
  after_results_simp
  rfl

/-- List 0 leaves the first graph's edge sources … -/
theorem rops0_v1 (W : Valuation τ sig (Elt F)) :
    (after (rops0 : List (HloOp τ sig (Elt F))) W (Proc.devRef .tc main_v1) : IVec S800000 32) = edgeSrc (W (Proc.devRef .tc main_arg1)) := by
  dsimp only [rops0]
  after_results_simp
  rfl

/-- … and its edge targets. -/
theorem rops0_v3 (W : Valuation τ sig (Elt F)) :
    (after (rops0 : List (HloOp τ sig (Elt F))) W (Proc.devRef .tc main_v3) : IVec S800000 32) = edgeDst (W (Proc.devRef .tc main_arg1)) := by
  dsimp only [rops0]
  after_results_simp
  rfl

/-- List 1 leaves layer 1 of what list 0 left, over the same edges. -/
theorem rops1_v107 (W : Valuation τ sig (Elt F)) :
    (after (rops1 : List (HloOp τ sig (Elt F))) W (Proc.devRef .tc main_v107) : FVec F S50000x64 .f32)
      = HostTerms.hostLayer (W (Proc.devRef .tc main_v55)) (segsumOf (W (Proc.devRef .tc main_v55)) (W (Proc.devRef .tc main_v1)) (W (Proc.devRef .tc main_v3)))
          (HostTerms.hslW1 (W (Proc.devRef .tc main_arg7))) (HostTerms.hslB1 (W (Proc.devRef .tc main_arg8)))
          (HostTerms.hslW1 (W (Proc.devRef .tc main_arg9))) (HostTerms.hslB1 (W (Proc.devRef .tc main_arg10)))
          (HostTerms.hslB1 (W (Proc.devRef .tc main_arg13))) (HostTerms.hslB1 (W (Proc.devRef .tc main_arg14)))
          (HostTerms.hslB1 (W (Proc.devRef .tc main_arg11))) (HostTerms.hslB1 (W (Proc.devRef .tc main_arg12))) := by
  dsimp only [rops1]
  after_results_simp
  rfl

/-- List 2 leaves the first graph's pooled rows: layer 2 of what list 1 left, summed into the graphs. -/
theorem rops2_v162 (W : Valuation τ sig (Elt F)) :
    (after (rops2 : List (HloOp τ sig (Elt F))) W (Proc.devRef .tc main_v162) : FVec F S1024x64 .f32)
      = pool (HostTerms.hostLayer (W (Proc.devRef .tc main_v107)) (segsumOf (W (Proc.devRef .tc main_v107)) (W (Proc.devRef .tc main_v1)) (W (Proc.devRef .tc main_v3)))
          (HostTerms.hslW2 (W (Proc.devRef .tc main_arg7))) (HostTerms.hslB2 (W (Proc.devRef .tc main_arg8)))
          (HostTerms.hslW2 (W (Proc.devRef .tc main_arg9))) (HostTerms.hslB2 (W (Proc.devRef .tc main_arg10)))
          (HostTerms.hslB2 (W (Proc.devRef .tc main_arg13))) (HostTerms.hslB2 (W (Proc.devRef .tc main_arg14)))
          (HostTerms.hslB2 (W (Proc.devRef .tc main_arg11))) (HostTerms.hslB2 (W (Proc.devRef .tc main_arg12)))) (W (Proc.devRef .tc main_arg2)) := by
  dsimp only [rops2]
  after_results_simp
  rfl

/-- List 3 leaves layer 0 of the second graph's features. -/
theorem rops3_v218 (W : Valuation τ sig (Elt F)) :
    (after (rops3 : List (HloOp τ sig (Elt F))) W (Proc.devRef .tc main_v218) : FVec F S50000x64 .f32)
      = HostTerms.hostLayer (W (Proc.devRef .tc main_arg3)) (segsum (W (Proc.devRef .tc main_arg3)) (W (Proc.devRef .tc main_arg4)))
          (HostTerms.hslW0 (W (Proc.devRef .tc main_arg7))) (HostTerms.hslB0 (W (Proc.devRef .tc main_arg8)))
          (HostTerms.hslW0 (W (Proc.devRef .tc main_arg9))) (HostTerms.hslB0 (W (Proc.devRef .tc main_arg10)))
          (HostTerms.hslB0 (W (Proc.devRef .tc main_arg13))) (HostTerms.hslB0 (W (Proc.devRef .tc main_arg14)))
          (HostTerms.hslB0 (W (Proc.devRef .tc main_arg11))) (HostTerms.hslB0 (W (Proc.devRef .tc main_arg12))) := by
  dsimp only [rops3]
  after_results_simp
  rfl

/-- List 3 leaves the second graph's edge sources … -/
theorem rops3_v164 (W : Valuation τ sig (Elt F)) :
    (after (rops3 : List (HloOp τ sig (Elt F))) W (Proc.devRef .tc main_v164) : IVec S800000 32) = edgeSrc (W (Proc.devRef .tc main_arg4)) := by
  dsimp only [rops3]
  after_results_simp
  rfl

/-- … and its edge targets. -/
theorem rops3_v166 (W : Valuation τ sig (Elt F)) :
    (after (rops3 : List (HloOp τ sig (Elt F))) W (Proc.devRef .tc main_v166) : IVec S800000 32) = edgeDst (W (Proc.devRef .tc main_arg4)) := by
  dsimp only [rops3]
  after_results_simp
  rfl

/-- List 4 leaves layer 1 of what list 3 left, over the second graph's edges. -/
theorem rops4_v270 (W : Valuation τ sig (Elt F)) :
    (after (rops4 : List (HloOp τ sig (Elt F))) W (Proc.devRef .tc main_v270) : FVec F S50000x64 .f32)
      = HostTerms.hostLayer (W (Proc.devRef .tc main_v218)) (segsumOf (W (Proc.devRef .tc main_v218)) (W (Proc.devRef .tc main_v164)) (W (Proc.devRef .tc main_v166)))
          (HostTerms.hslW1 (W (Proc.devRef .tc main_arg7))) (HostTerms.hslB1 (W (Proc.devRef .tc main_arg8)))
          (HostTerms.hslW1 (W (Proc.devRef .tc main_arg9))) (HostTerms.hslB1 (W (Proc.devRef .tc main_arg10)))
          (HostTerms.hslB1 (W (Proc.devRef .tc main_arg13))) (HostTerms.hslB1 (W (Proc.devRef .tc main_arg14)))
          (HostTerms.hslB1 (W (Proc.devRef .tc main_arg11))) (HostTerms.hslB1 (W (Proc.devRef .tc main_arg12))) := by
  dsimp only [rops4]
  after_results_simp
  rfl

/-- List 5 leaves the second graph's pooled rows. -/
theorem rops5_v325 (W : Valuation τ sig (Elt F)) :
    (after (rops5 : List (HloOp τ sig (Elt F))) W (Proc.devRef .tc main_v325) : FVec F S1024x64 .f32)
      = pool (HostTerms.hostLayer (W (Proc.devRef .tc main_v270)) (segsumOf (W (Proc.devRef .tc main_v270)) (W (Proc.devRef .tc main_v164)) (W (Proc.devRef .tc main_v166)))
          (HostTerms.hslW2 (W (Proc.devRef .tc main_arg7))) (HostTerms.hslB2 (W (Proc.devRef .tc main_arg8)))
          (HostTerms.hslW2 (W (Proc.devRef .tc main_arg9))) (HostTerms.hslB2 (W (Proc.devRef .tc main_arg10)))
          (HostTerms.hslB2 (W (Proc.devRef .tc main_arg13))) (HostTerms.hslB2 (W (Proc.devRef .tc main_arg14)))
          (HostTerms.hslB2 (W (Proc.devRef .tc main_arg11))) (HostTerms.hslB2 (W (Proc.devRef .tc main_arg12)))) (W (Proc.devRef .tc main_arg5)) := by
  dsimp only [rops5]
  after_results_simp
  rfl

/-- List 6 leaves the scores: the head, in the host's spelling, of the two graphs' pooled rows and the relation rows. -/
theorem rops6_v344 (W : Valuation τ sig (Elt F)) :
    (after (rops6 : List (HloOp τ sig (Elt F))) W (Proc.devRef .tc main_v344) : FVec F S1024 .f32)
      = HostTerms.hostHead (W (Proc.devRef .tc main_v162)) (W (Proc.devRef .tc main_v325))
          (HostTerms.hostRelRows (W (Proc.devRef .tc main_arg15)) (W (Proc.devRef .tc main_arg6)))
          (W (Proc.devRef .tc main_arg16)) (W (Proc.devRef .tc main_arg17)) (W (Proc.devRef .tc main_arg18)) (W (Proc.devRef .tc main_arg19)) := by
  dsimp only [rops6]
  after_results_simp3
  rfl

end Cert.ReferenceIdeal.Stages

end
-- ==== Proof.RefChain.lean ====
/-
  What the reference's operations leave in the result buffer, as the specification's function of the argument arrays:
  list by list, each layer's list leaves the host's spelling of a layer of what the list before left, the pooling
  scatters and the head likewise, and the host's spellings are the specification's row functions.
-/
import proofs.«400857_j64622077935659_1_alg».proof.Proof.RefRun
import proofs.«400857_j64622077935659_1_alg».proof.Proof.RefStages
import proofs.«400857_j64622077935659_1_alg».proof.Proof.HostTerms
import proofs.«400857_j64622077935659_1_alg».proof.Proof.SpecHost
import proofs.«400857_j64622077935659_1_alg».proof.Proof.HostLayerEq
import proofs.«400857_j64622077935659_1_alg».proof.Proof.HeadEq
import proofs.«400857_j64622077935659_1_alg».proof.Proof.RangeEq

set_option maxRecDepth 16384

noncomputable section

namespace Cert.ReferenceIdeal.Chain

open Cert.ReferenceIdeal Cert.ReferenceIdeal.Gen Cert.ReferenceIdeal.Chunks Cert.ReferenceIdeal.HandRun
open Idealize.ShloMosaic Idealize.ShloMosaic.TcCoe Idealize.SL.Sem Idealize.ShloMosaic.StableHlo Cert.Gin
open Cert.ReferenceIdeal.Stages

/-! ## The host's layers as the specification's -/

/-- The host's spelling of layer 0 with its slices of the parameter arrays is the specification's layer 0. -/
theorem hostLayer_step0 (x : FVec Ideal S50000x64 .f32) (ei : IVec S2x800000 32) (W1 : FVec Ideal S3x64x64 .f32)
    (b1 : FVec Ideal S3x64 .f32) (W2 : FVec Ideal S3x64x64 .f32) (b2 gamma beta mean var : FVec Ideal S3x64 .f32) :
    HostTerms.hostLayer (F := Ideal) x (segsum x ei) (HostTerms.hslW0 W1) (HostTerms.hslB0 b1) (HostTerms.hslW0 W2)
        (HostTerms.hslB0 b2) (HostTerms.hslB0 mean) (HostTerms.hslB0 var) (HostTerms.hslB0 gamma) (HostTerms.hslB0 beta)
      = step ei W1 b1 W2 b2 gamma beta mean var 0 x := by
  rw [HostEq.hostLayer_eq]
  simp only [HostEq.hslW0_eq, HostEq.hslB0_eq]
  rfl

/-- The host's spelling of layer 1 with its slices of the parameter arrays is the specification's layer 1. -/
theorem hostLayer_step1 (x : FVec Ideal S50000x64 .f32) (ei : IVec S2x800000 32) (W1 : FVec Ideal S3x64x64 .f32)
    (b1 : FVec Ideal S3x64 .f32) (W2 : FVec Ideal S3x64x64 .f32) (b2 gamma beta mean var : FVec Ideal S3x64 .f32) :
    HostTerms.hostLayer (F := Ideal) x (segsum x ei) (HostTerms.hslW1 W1) (HostTerms.hslB1 b1) (HostTerms.hslW1 W2)
        (HostTerms.hslB1 b2) (HostTerms.hslB1 mean) (HostTerms.hslB1 var) (HostTerms.hslB1 gamma) (HostTerms.hslB1 beta)
      = step ei W1 b1 W2 b2 gamma beta mean var 1 x := by
  rw [HostEq.hostLayer_eq]
  simp only [HostEq.hslW1_eq, HostEq.hslB1_eq]
  rfl

/-- The host's spelling of layer 2 with its slices of the parameter arrays is the specification's layer 2. -/
theorem hostLayer_step2 (x : FVec Ideal S50000x64 .f32) (ei : IVec S2x800000 32) (W1 : FVec Ideal S3x64x64 .f32)
    (b1 : FVec Ideal S3x64 .f32) (W2 : FVec Ideal S3x64x64 .f32) (b2 gamma beta mean var : FVec Ideal S3x64 .f32) :
    HostTerms.hostLayer (F := Ideal) x (segsum x ei) (HostTerms.hslW2 W1) (HostTerms.hslB2 b1) (HostTerms.hslW2 W2)
        (HostTerms.hslB2 b2) (HostTerms.hslB2 mean) (HostTerms.hslB2 var) (HostTerms.hslB2 gamma) (HostTerms.hslB2 beta)
      = step ei W1 b1 W2 b2 gamma beta mean var 2 x := by
  rw [HostEq.hostLayer_eq]
  simp only [HostEq.hslW2_eq, HostEq.hslB2_eq]
  rfl

/-! ## The contents between the lists -/

section Stages

variable (V : Valuation τ sig (Elt Ideal))

/-- The contents after lists 0 to k-1, from the launch contents `V`. -/
def st1 : Valuation τ sig (Elt Ideal) := after rops0 V
def st2 : Valuation τ sig (Elt Ideal) := after rops1 (st1 V)
def st3 : Valuation τ sig (Elt Ideal) := after rops2 (st2 V)
def st4 : Valuation τ sig (Elt Ideal) := after rops3 (st3 V)
def st5 : Valuation τ sig (Elt Ideal) := after rops4 (st4 V)
def st6 : Valuation τ sig (Elt Ideal) := after rops5 (st5 V)
def st7 : Valuation τ sig (Elt Ideal) := after rops6 (st6 V)

/-- The seven lists leave the last of these. -/
theorem after_rops_st : after (rops (F := Ideal)) V = st7 V := after_rops V

/-- A reference none of the first lists writes is still at its launch contents. -/
theorem st1_kept (r : Ref sig .tc) (h0 : r ∉ wr0) : st1 V (Proc.devRef .tc r) = V (Proc.devRef .tc r) := kept0 V r h0
theorem st2_kept (r : Ref sig .tc) (h0 : r ∉ wr0) (h1 : r ∉ wr1) : st2 V (Proc.devRef .tc r) = V (Proc.devRef .tc r) :=
  (kept1 (st1 V) r h1).trans (st1_kept V r h0)
theorem st3_kept (r : Ref sig .tc) (h0 : r ∉ wr0) (h1 : r ∉ wr1) (h2 : r ∉ wr2) :
    st3 V (Proc.devRef .tc r) = V (Proc.devRef .tc r) :=
  (kept2 (st2 V) r h2).trans (st2_kept V r h0 h1)
theorem st4_kept (r : Ref sig .tc) (h0 : r ∉ wr0) (h1 : r ∉ wr1) (h2 : r ∉ wr2) (h3 : r ∉ wr3) :
    st4 V (Proc.devRef .tc r) = V (Proc.devRef .tc r) :=
  (kept3 (st3 V) r h3).trans (st3_kept V r h0 h1 h2)
theorem st5_kept (r : Ref sig .tc) (h0 : r ∉ wr0) (h1 : r ∉ wr1) (h2 : r ∉ wr2) (h3 : r ∉ wr3) (h4 : r ∉ wr4) :
    st5 V (Proc.devRef .tc r) = V (Proc.devRef .tc r) :=
  (kept4 (st4 V) r h4).trans (st4_kept V r h0 h1 h2 h3)
theorem st6_kept (r : Ref sig .tc) (h0 : r ∉ wr0) (h1 : r ∉ wr1) (h2 : r ∉ wr2) (h3 : r ∉ wr3) (h4 : r ∉ wr4) (h5 : r ∉ wr5) :
    st6 V (Proc.devRef .tc r) = V (Proc.devRef .tc r) :=
  (kept5 (st5 V) r h5).trans (st5_kept V r h0 h1 h2 h3 h4)
theorem st7_kept (r : Ref sig .tc) (h0 : r ∉ wr0) (h1 : r ∉ wr1) (h2 : r ∉ wr2) (h3 : r ∉ wr3) (h4 : r ∉ wr4) (h5 : r ∉ wr5)
    (h6 : r ∉ wr6) : st7 V (Proc.devRef .tc r) = V (Proc.devRef .tc r) :=
  (kept6 (st6 V) r h6).trans (st6_kept V r h0 h1 h2 h3 h4 h5)

/-! ### The first graph -/

theorem st1_v55 : (st1 V (Proc.devRef .tc main_v55) : FVec Ideal S50000x64 .f32) = (step (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 0 (V (Proc.devRef .tc main_arg0))) := by
  unfold st1
  rw [rops0_v55]
  exact hostLayer_step0 _ _ _ _ _ _ _ _ _ _

theorem st1_v1 : (st1 V (Proc.devRef .tc main_v1) : IVec S800000 32) = edgeSrc (V (Proc.devRef .tc main_arg1)) := rops0_v1 V
theorem st1_v3 : (st1 V (Proc.devRef .tc main_v3) : IVec S800000 32) = edgeDst (V (Proc.devRef .tc main_arg1)) := rops0_v3 V

theorem st2_v1 : (st2 V (Proc.devRef .tc main_v1) : IVec S800000 32) = edgeSrc (V (Proc.devRef .tc main_arg1)) :=
  (kept1 (st1 V) main_v1 (by decide)).trans (st1_v1 V)
theorem st2_v3 : (st2 V (Proc.devRef .tc main_v3) : IVec S800000 32) = edgeDst (V (Proc.devRef .tc main_arg1)) :=
  (kept1 (st1 V) main_v3 (by decide)).trans (st1_v3 V)

theorem st2_v107 : (st2 V (Proc.devRef .tc main_v107) : FVec Ideal S50000x64 .f32) = (step (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 1 (step (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 0 (V (Proc.devRef .tc main_arg0)))) := by
  unfold st2
  rw [rops1_v107, st1_v55, st1_v1, st1_v3, st1_kept V main_arg7 (by decide), st1_kept V main_arg8 (by decide), st1_kept V main_arg9 (by decide), st1_kept V main_arg10 (by decide), st1_kept V main_arg11 (by decide), st1_kept V main_arg12 (by decide), st1_kept V main_arg13 (by decide), st1_kept V main_arg14 (by decide)]
  exact hostLayer_step1 _ _ _ _ _ _ _ _ _ _

theorem st3_v162 : (st3 V (Proc.devRef .tc main_v162) : FVec Ideal S1024x64 .f32) = pool (F := Ideal) (gin (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))) (V (Proc.devRef .tc main_arg2)) := by
  unfold st3
  rw [rops2_v162, st2_v107, st2_v1, st2_v3, st2_kept V main_arg2 (by decide) (by decide), st2_kept V main_arg7 (by decide) (by decide), st2_kept V main_arg8 (by decide) (by decide), st2_kept V main_arg9 (by decide) (by decide), st2_kept V main_arg10 (by decide) (by decide), st2_kept V main_arg11 (by decide) (by decide), st2_kept V main_arg12 (by decide) (by decide), st2_kept V main_arg13 (by decide) (by decide), st2_kept V main_arg14 (by decide) (by decide)]
  exact congrArg (fun y : FVec Ideal S50000x64 .f32 => pool (F := Ideal) y (V (Proc.devRef .tc main_arg2))) (hostLayer_step2 _ _ _ _ _ _ _ _ _ _)

/-! ### The second graph -/

theorem st4_v218 : (st4 V (Proc.devRef .tc main_v218) : FVec Ideal S50000x64 .f32) = (step (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 0 (V (Proc.devRef .tc main_arg3))) := by
  unfold st4
  rw [rops3_v218, st3_kept V main_arg3 (by decide) (by decide) (by decide), st3_kept V main_arg4 (by decide) (by decide) (by decide), st3_kept V main_arg7 (by decide) (by decide) (by decide), st3_kept V main_arg8 (by decide) (by decide) (by decide), st3_kept V main_arg9 (by decide) (by decide) (by decide), st3_kept V main_arg10 (by decide) (by decide) (by decide), st3_kept V main_arg11 (by decide) (by decide) (by decide), st3_kept V main_arg12 (by decide) (by decide) (by decide), st3_kept V main_arg13 (by decide) (by decide) (by decide), st3_kept V main_arg14 (by decide) (by decide) (by decide)]
  exact hostLayer_step0 _ _ _ _ _ _ _ _ _ _

theorem st4_v164 : (st4 V (Proc.devRef .tc main_v164) : IVec S800000 32) = edgeSrc (V (Proc.devRef .tc main_arg4)) := by
  unfold st4
  rw [rops3_v164, st3_kept V main_arg4 (by decide) (by decide) (by decide)]
theorem st4_v166 : (st4 V (Proc.devRef .tc main_v166) : IVec S800000 32) = edgeDst (V (Proc.devRef .tc main_arg4)) := by
  unfold st4
  rw [rops3_v166, st3_kept V main_arg4 (by decide) (by decide) (by decide)]

theorem st5_v164 : (st5 V (Proc.devRef .tc main_v164) : IVec S800000 32) = edgeSrc (V (Proc.devRef .tc main_arg4)) :=
  (kept4 (st4 V) main_v164 (by decide)).trans (st4_v164 V)
theorem st5_v166 : (st5 V (Proc.devRef .tc main_v166) : IVec S800000 32) = edgeDst (V (Proc.devRef .tc main_arg4)) :=
  (kept4 (st4 V) main_v166 (by decide)).trans (st4_v166 V)

theorem st5_v270 : (st5 V (Proc.devRef .tc main_v270) : FVec Ideal S50000x64 .f32) = (step (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 1 (step (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) 0 (V (Proc.devRef .tc main_arg3)))) := by
  unfold st5
  rw [rops4_v270, st4_v218, st4_v164, st4_v166, st4_kept V main_arg7 (by decide) (by decide) (by decide) (by decide), st4_kept V main_arg8 (by decide) (by decide) (by decide) (by decide), st4_kept V main_arg9 (by decide) (by decide) (by decide) (by decide), st4_kept V main_arg10 (by decide) (by decide) (by decide) (by decide), st4_kept V main_arg11 (by decide) (by decide) (by decide) (by decide), st4_kept V main_arg12 (by decide) (by decide) (by decide) (by decide), st4_kept V main_arg13 (by decide) (by decide) (by decide) (by decide), st4_kept V main_arg14 (by decide) (by decide) (by decide) (by decide)]
  exact hostLayer_step1 _ _ _ _ _ _ _ _ _ _

theorem st6_v325 : (st6 V (Proc.devRef .tc main_v325) : FVec Ideal S1024x64 .f32) = pool (F := Ideal) (gin (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))) (V (Proc.devRef .tc main_arg5)) := by
  unfold st6
  rw [rops5_v325, st5_v270, st5_v164, st5_v166, st5_kept V main_arg5 (by decide) (by decide) (by decide) (by decide) (by decide), st5_kept V main_arg7 (by decide) (by decide) (by decide) (by decide) (by decide), st5_kept V main_arg8 (by decide) (by decide) (by decide) (by decide) (by decide), st5_kept V main_arg9 (by decide) (by decide) (by decide) (by decide) (by decide), st5_kept V main_arg10 (by decide) (by decide) (by decide) (by decide) (by decide), st5_kept V main_arg11 (by decide) (by decide) (by decide) (by decide) (by decide), st5_kept V main_arg12 (by decide) (by decide) (by decide) (by decide) (by decide), st5_kept V main_arg13 (by decide) (by decide) (by decide) (by decide) (by decide), st5_kept V main_arg14 (by decide) (by decide) (by decide) (by decide) (by decide)]
  exact congrArg (fun y : FVec Ideal S50000x64 .f32 => pool (F := Ideal) y (V (Proc.devRef .tc main_arg5))) (hostLayer_step2 _ _ _ _ _ _ _ _ _ _)

/-- The first graph's pooled rows are still there when the head's list starts. -/
theorem st6_v162 : (st6 V (Proc.devRef .tc main_v162) : FVec Ideal S1024x64 .f32) = pool (F := Ideal) (gin (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))) (V (Proc.devRef .tc main_arg2)) :=
  (kept5 (st5 V) main_v162 (by decide)).trans ((kept4 (st4 V) main_v162 (by decide)).trans
    ((kept3 (st3 V) main_v162 (by decide)).trans (st3_v162 V)))

end Stages

/-- No operation writes an argument's buffer. -/
theorem args_kept (V : Valuation τ sig (Elt Ideal)) :
    after (rops (F := Ideal)) V (Proc.devRef .tc main_arg0) = V (Proc.devRef .tc main_arg0)
    ∧ after (rops (F := Ideal)) V (Proc.devRef .tc main_arg1) = V (Proc.devRef .tc main_arg1)
    ∧ after (rops (F := Ideal)) V (Proc.devRef .tc main_arg2) = V (Proc.devRef .tc main_arg2)
    ∧ after (rops (F := Ideal)) V (Proc.devRef .tc main_arg3) = V (Proc.devRef .tc main_arg3)
    ∧ after (rops (F := Ideal)) V (Proc.devRef .tc main_arg4) = V (Proc.devRef .tc main_arg4)
    ∧ after (rops (F := Ideal)) V (Proc.devRef .tc main_arg5) = V (Proc.devRef .tc main_arg5)
    ∧ after (rops (F := Ideal)) V (Proc.devRef .tc main_arg6) = V (Proc.devRef .tc main_arg6)
    ∧ after (rops (F := Ideal)) V (Proc.devRef .tc main_arg7) = V (Proc.devRef .tc main_arg7)
    ∧ after (rops (F := Ideal)) V (Proc.devRef .tc main_arg8) = V (Proc.devRef .tc main_arg8)
    ∧ after (rops (F := Ideal)) V (Proc.devRef .tc main_arg9) = V (Proc.devRef .tc main_arg9)
    ∧ after (rops (F := Ideal)) V (Proc.devRef .tc main_arg10) = V (Proc.devRef .tc main_arg10)
    ∧ after (rops (F := Ideal)) V (Proc.devRef .tc main_arg11) = V (Proc.devRef .tc main_arg11)
    ∧ after (rops (F := Ideal)) V (Proc.devRef .tc main_arg12) = V (Proc.devRef .tc main_arg12)
    ∧ after (rops (F := Ideal)) V (Proc.devRef .tc main_arg13) = V (Proc.devRef .tc main_arg13)
    ∧ after (rops (F := Ideal)) V (Proc.devRef .tc main_arg14) = V (Proc.devRef .tc main_arg14)
    ∧ after (rops (F := Ideal)) V (Proc.devRef .tc main_arg15) = V (Proc.devRef .tc main_arg15)
    ∧ after (rops (F := Ideal)) V (Proc.devRef .tc main_arg16) = V (Proc.devRef .tc main_arg16)
    ∧ after (rops (F := Ideal)) V (Proc.devRef .tc main_arg17) = V (Proc.devRef .tc main_arg17)
    ∧ after (rops (F := Ideal)) V (Proc.devRef .tc main_arg18) = V (Proc.devRef .tc main_arg18)
    ∧ after (rops (F := Ideal)) V (Proc.devRef .tc main_arg19) = V (Proc.devRef .tc main_arg19) := by
  rw [after_rops_st V]
  exact ⟨st7_kept V main_arg0 (by decide) (by decide) (by decide) (by decide) (by decide) (by decide) (by decide),
    st7_kept V main_arg1 (by decide) (by decide) (by decide) (by decide) (by decide) (by decide) (by decide),
    st7_kept V main_arg2 (by decide) (by decide) (by decide) (by decide) (by decide) (by decide) (by decide),
    st7_kept V main_arg3 (by decide) (by decide) (by decide) (by decide) (by decide) (by decide) (by decide),
    st7_kept V main_arg4 (by decide) (by decide) (by decide) (by decide) (by decide) (by decide) (by decide),
    st7_kept V main_arg5 (by decide) (by decide) (by decide) (by decide) (by decide) (by decide) (by decide),
    st7_kept V main_arg6 (by decide) (by decide) (by decide) (by decide) (by decide) (by decide) (by decide),
    st7_kept V main_arg7 (by decide) (by decide) (by decide) (by decide) (by decide) (by decide) (by decide),
    st7_kept V main_arg8 (by decide) (by decide) (by decide) (by decide) (by decide) (by decide) (by decide),
    st7_kept V main_arg9 (by decide) (by decide) (by decide) (by decide) (by decide) (by decide) (by decide),
    st7_kept V main_arg10 (by decide) (by decide) (by decide) (by decide) (by decide) (by decide) (by decide),
    st7_kept V main_arg11 (by decide) (by decide) (by decide) (by decide) (by decide) (by decide) (by decide),
    st7_kept V main_arg12 (by decide) (by decide) (by decide) (by decide) (by decide) (by decide) (by decide),
    st7_kept V main_arg13 (by decide) (by decide) (by decide) (by decide) (by decide) (by decide) (by decide),
    st7_kept V main_arg14 (by decide) (by decide) (by decide) (by decide) (by decide) (by decide) (by decide),
    st7_kept V main_arg15 (by decide) (by decide) (by decide) (by decide) (by decide) (by decide) (by decide),
    st7_kept V main_arg16 (by decide) (by decide) (by decide) (by decide) (by decide) (by decide) (by decide),
    st7_kept V main_arg17 (by decide) (by decide) (by decide) (by decide) (by decide) (by decide) (by decide),
    st7_kept V main_arg18 (by decide) (by decide) (by decide) (by decide) (by decide) (by decide) (by decide),
    st7_kept V main_arg19 (by decide) (by decide) (by decide) (by decide) (by decide) (by decide) (by decide)⟩

/-- The result buffer ends at the specification's function of the arguments, when the relation labels index the table. -/
theorem ref_value (V : Valuation τ sig (Elt Ideal)) (h : InRange (V (Proc.devRef .tc main_arg6))) :
    after (rops (F := Ideal)) V (Proc.devRef .tc main_v344) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_rops_st V]
  unfold st7
  rw [rops6_v344, st6_v162, st6_v325, st6_kept V main_arg15 (by decide) (by decide) (by decide) (by decide) (by decide) (by decide), st6_kept V main_arg6 (by decide) (by decide) (by decide) (by decide) (by decide) (by decide), st6_kept V main_arg16 (by decide) (by decide) (by decide) (by decide) (by decide) (by decide), st6_kept V main_arg17 (by decide) (by decide) (by decide) (by decide) (by decide) (by decide), st6_kept V main_arg18 (by decide) (by decide) (by decide) (by decide) (by decide) (by decide), st6_kept V main_arg19 (by decide) (by decide) (by decide) (by decide) (by decide) (by decide)]
  rw [Cert.Gin.Range.hostRelRows_eq _ _ h, Cert.Gin.Head.hostHead_eq]
  rfl

end Cert.ReferenceIdeal.Chain

end
-- ==== Proof.lean ====
/-
  The certificate's claims. The word-level kernel and its idealization run to the end with their arguments unchanged
  by the generated frame certificates; the reference runs by its operations taken as seven lists in order. The kernel's
  idealization is the kernel's own text read over the extended reals, so nothing is owed for it. At the extended reals
  the kernel program leaves in its result array the head of the pooled rows of three stacked layers, which, with every
  relation label an index into the relation table (the precondition's last two conjuncts), is the same function of the
  twenty arguments that the reference's operations compose to: both programs put every node's row through the same
  dense maps, normalisation and positive parts, sum the same neighbour rows, pool the same node rows, and score every
  pair by the same head; where the kernel multiplies the table by the label's indicator row, the reference reads the
  label's row.
-/
import proofs.«400857_j64622077935659_1_alg».proof.Defs
import proofs.«400857_j64622077935659_1_alg».proof.Proof.Gen.Kernel
import proofs.«400857_j64622077935659_1_alg».proof.Proof.Gen.Kernel.Frame
import proofs.«400857_j64622077935659_1_alg».proof.Proof.Gen.KernelIdeal
import proofs.«400857_j64622077935659_1_alg».proof.Proof.Gen.KernelIdeal.Frame
import proofs.«400857_j64622077935659_1_alg».proof.Proof.Gen.ReferenceIdeal
import proofs.«400857_j64622077935659_1_alg».proof.Proof.Gen.Pre_finite_inputs
import proofs.«400857_j64622077935659_1_alg».proof.Proof.KernelRun
import proofs.«400857_j64622077935659_1_alg».proof.Proof.KernelChain
import proofs.«400857_j64622077935659_1_alg».proof.Proof.KAlg
import proofs.«400857_j64622077935659_1_alg».proof.Proof.RangeEq
import proofs.«400857_j64622077935659_1_alg».proof.Proof.RefRun
import proofs.«400857_j64622077935659_1_alg».proof.Proof.RefChain
import Idealize.ShloMosaic.Adequacy
import Idealize.ShloMosaic.Init

set_option maxRecDepth 16384

noncomputable section

namespace Cert.Proof

open Idealize.ShloMosaic Idealize.SL.Sem Idealize.ShloMosaic.StableHlo Cert.Gin

theorem frame_kernel : Cert.frame_Kernel := fun m ρ _ => Cert.Kernel.Gen.frame m ρ

theorem frame_kernelIdeal : Cert.frame_KernelIdeal := fun m ρ _ => Cert.KernelIdeal.Gen.frame m ρ

/-- The reference runs to the end, and no operation of it writes an argument. -/
theorem frame_reference : Cert.frame_ReferenceIdeal := fun m ρ _ =>
  (θ_run Cert.ReferenceIdeal.defs _ _).mono (fun r h c => by
      obtain ⟨k0, k1, k2, k3, k4, k5, k6, k7, k8, k9, k10, k11, k12, k13, k14, k15, k16, k17, k18, k19⟩ := Cert.ReferenceIdeal.Chain.args_kept (launchContents m c)
      exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15, (h c Cert.ReferenceIdeal.main_arg16).trans k16, (h c Cert.ReferenceIdeal.main_arg17).trans k17, (h c Cert.ReferenceIdeal.main_arg18).trans k18, (h c Cert.ReferenceIdeal.main_arg19).trans k19⟩)
    (Cert.ReferenceIdeal.HandRun.run_after (F := Ideal) m ρ)

theorem preserves : Cert.preserves_Kernel_KernelIdeal := trivial

/-- Both idealized programs end with the specification's `result` of the arguments in their result arrays. -/
theorem algebraic : Cert.algebraic_KernelIdeal_ReferenceIdeal := by
  intro m ρ m' ρ' hpre hagree
  have hin := Cert.Gin.Range.inRange_of_pre m hpre
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩)
      (Cert.KernelIdeal.Result.run_result (F := Ideal) m ρ)
    exact (Cert.KernelIdeal.Chain.result_value m ρ c).trans (Cert.Gin.KAlg.kernelResult_eq _ _ _ _ _ _ _ _ _ _ _ _ _ _ _ _ _ _ _ _ (hin c))
  · refine (θ_run Cert.ReferenceIdeal.defs _ _).mono (fun r h c => ?_)
      (Cert.ReferenceIdeal.HandRun.run_after (F := Ideal) m' ρ')
    obtain ⟨k0, k1, k2, k3, k4, k5, k6, k7, k8, k9, k10, k11, k12, k13, k14, k15, k16, k17, k18, k19⟩ := Cert.ReferenceIdeal.Chain.args_kept (launchContents m' c)
    obtain ⟨g0, g1, g2, g3, g4, g5, g6, g7, g8, g9, g10, g11, g12, g13, g14, g15, g16, g17, g18, g19⟩ := hagree c
    have hin' : InRange (launchContents m' c (Proc.devRef .tc Cert.ReferenceIdeal.main_arg6)) := by
      show InRange (m' ((c.tc : Thread Cert.ReferenceIdeal.nD Cert.ReferenceIdeal.τ).loc Cert.ReferenceIdeal.main_arg6))
      rw [g6]; exact hin c
    refine ⟨(h c Cert.ReferenceIdeal.main_v344).trans ((Cert.ReferenceIdeal.Chain.ref_value (launchContents m' c) hin').trans ?_),
      (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15, (h c Cert.ReferenceIdeal.main_arg16).trans k16, (h c Cert.ReferenceIdeal.main_arg17).trans k17, (h c Cert.ReferenceIdeal.main_arg18).trans k18, (h c Cert.ReferenceIdeal.main_arg19).trans k19⟩
    show result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
    rw [g0, g1, g2, g3, g4, g5, g6, g7, g8, g9, g10, g11, g12, g13, g14, g15, g16, g17, g18, g19]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
